-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S524288 : Shape := ⟨1, ![524288]⟩
abbrev S2x524288 : Shape := ⟨2, ![2, 524288]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S524288 : S_.BroadcastsInDim S524288 (![] : Fin 0 → Fin S524288.rank)
  reducesTo_S524288_S_d0 : S524288.ReducesTo [0] S_

variable [Facts]

def fn {F : FTy → Type} [FloatOps F] (main_arg0 : FVec F S8192x64 .f32) (main_arg1 : FVec F S524288 .f32) (main_arg2 : IVec S2x524288 32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S524288 .f32 := Host.absf main_arg1
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  main_v8
-- ==== Kernel.lean ====
abbrev S8192x64 : Shape := ⟨2, ![8192, 64]⟩
abbrev S524288 : Shape := ⟨1, ![524288]⟩
abbrev S2x524288 : Shape := ⟨2, ![2, 524288]⟩
abbrev S1x524288 : Shape := ⟨2, ![1, 524288]⟩
abbrev S_ : Shape := ⟨0, ![]⟩
abbrev S8192 : Shape := ⟨1, ![8192]⟩
abbrev S524288x1 : Shape := ⟨2, ![524288, 1]⟩
abbrev S8192x8192 : Shape := ⟨2, ![8192, 8192]⟩
abbrev S524288x2 : Shape := ⟨2, ![524288, 2]⟩
abbrev S1024x1024 : Shape := ⟨2, ![1024, 1024]⟩
abbrev S512x512 : Shape := ⟨2, ![512, 512]⟩

abbrev nBuf : Space → Nat
  | .hbm => 66
  | .vmem => 22
  | .smem => 0
  | _ => 0

abbrev bufTy : (tb : Table) → Fin (tcTables nBuf tb) → BufTy
  | .hbm, ⟨0, _⟩ => ⟨S8192x64, .f32⟩
  | .hbm, ⟨1, _⟩ => ⟨S524288, .f32⟩
  | .hbm, ⟨2, _⟩ => ⟨S2x524288, .i32⟩
  | .hbm, ⟨3, _⟩ => ⟨S1x524288, .i32⟩
  | .hbm, ⟨4, _⟩ => ⟨S524288, .i32⟩
  | .hbm, ⟨5, _⟩ => ⟨S1x524288, .i32⟩
  | .hbm, ⟨6, _⟩ => ⟨S524288, .i32⟩
  | .hbm, ⟨7, _⟩ => ⟨S_, .f32⟩
  | .hbm, ⟨8, _⟩ => ⟨S8192, .f32⟩
  | .hbm, ⟨9, _⟩ => ⟨S_, .i32⟩
  | .hbm, ⟨10, _⟩ => ⟨S524288, .i32⟩
  | .hbm, ⟨11, _⟩ => ⟨S524288, .i1⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S524288, .i32⟩
  | .hbm, ⟨16, _⟩ => ⟨S524288x1, .i32⟩
  | .hbm, ⟨17, _⟩ => ⟨S_, .f32⟩
  | .hbm, ⟨18, _⟩ => ⟨S524288, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .i32⟩
  | .hbm, ⟨24, _⟩ => ⟨S524288, .i32⟩
  | .hbm, ⟨25, _⟩ => ⟨S524288, .i1⟩
  | .hbm, ⟨26, _⟩ => ⟨S_, .i32⟩
  | .hbm, ⟨27, _⟩ => ⟨S524288, .i32⟩
  | .hbm, ⟨28, _⟩ => ⟨S524288, .i32⟩
  | .hbm, ⟨29, _⟩ => ⟨S524288, .i32⟩
  | .hbm, ⟨30, _⟩ => ⟨S524288x1, .i32⟩
  | .hbm, ⟨31, _⟩ => ⟨S524288, .f32⟩
  | .hbm, ⟨32, _⟩ => ⟨S524288, .f32⟩
  | .hbm, ⟨33, _⟩ => ⟨S_, .i32⟩
  | .hbm, ⟨34, _⟩ => ⟨S524288, .i32⟩
  | .hbm, ⟨35, _⟩ => ⟨S524288, .i1⟩
  | .hbm, ⟨36, _⟩ => ⟨S_, .i32⟩
  | .hbm, ⟨37, _⟩ => ⟨S524288, .i32⟩
  | .hbm, ⟨38, _⟩ => ⟨S524288, .i32⟩
  | .hbm, ⟨39, _⟩ => ⟨S524288, .i32⟩
  | .hbm, ⟨40, _⟩ => ⟨S524288x1, .i32⟩
  | .hbm, ⟨41, _⟩ => ⟨S524288, .f32⟩
  | .hbm, ⟨42, _⟩ => ⟨S524288, .f32⟩
  | .hbm, ⟨43, _⟩ => ⟨S_, .f32⟩
  | .hbm, ⟨44, _⟩ => ⟨S8192x8192, .f32⟩
  | .hbm, ⟨45, _⟩ => ⟨S_, .i32⟩
  | .hbm, ⟨46, _⟩ => ⟨S524288, .i32⟩
  | .hbm, ⟨47, _⟩ => ⟨S524288, .i1⟩
  | .hbm, ⟨48, _⟩ => ⟨S_, .i32⟩
  | .hbm, ⟨49, _⟩ => ⟨S524288, .i32⟩
  | .hbm, ⟨50, _⟩ => ⟨S524288, .i32⟩
  | .hbm, ⟨51, _⟩ => ⟨S524288, .i32⟩
  | .hbm, ⟨52, _⟩ => ⟨S_, .i32⟩
  | .hbm, ⟨53, _⟩ => ⟨S524288, .i32⟩
  | .hbm, ⟨54, _⟩ => ⟨S524288, .i1⟩
  | .hbm, ⟨55, _⟩ => ⟨S_, .i32⟩
  | .hbm, ⟨56, _⟩ => ⟨S524288, .i32⟩
  | .hbm, ⟨57, _⟩ => ⟨S524288, .i32⟩
  | .hbm, ⟨58, _⟩ => ⟨S524288, .i32⟩
  | .hbm, ⟨59, _⟩ => ⟨S524288x1, .i32⟩
  | .hbm, ⟨60, _⟩ => ⟨S524288x1, .i32⟩
  | .hbm, ⟨61, _⟩ => ⟨S524288x2, .i32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_c_11 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 8, 8], ![false, false, false]⟩

def k1_cond2 (i : grid1.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![16, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S8192 : S_.BroadcastsInDim S8192 (![] : Fin 0 → Fin S8192.rank)
  bcast_S_S524288 : S_.BroadcastsInDim S524288 (![] : Fin 0 → Fin S524288.rank)
  bcast_S524288_S524288x1_0 : S524288.BroadcastsInDim S524288x1 (![0] : Fin 1 → Fin S524288x1.rank)
  bcast_S_S8192x8192 : S_.BroadcastsInDim S8192x8192 (![] : Fin 0 → Fin S8192x8192.rank)
  concatenates_S524288x1_S524288x1_S524288x2_d1 : Shape.Concatenates [S524288x1, S524288x1] S524288x2 1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  iota_S512x512_d0_w32 : S512x512.Iotas .tc 32 [0]
  iota_S512x512_d1_w32 : S512x512.Iotas .tc 32 [1]
  natLt_1_32 : 1 < 32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  scatter_S8192_S524288x1_S524288_n_0_0_1_wf : ScatterDims.WF S8192 S524288x1 S524288 [] [0] [0] 1
  gather_S8192_S524288x1_S524288_n_0_n_n_0_1_1_wf : GatherDims.WF S8192 S524288x1 S524288 [] [0] [] [0] [] 1 ![1]
  scatter_S8192x8192_S524288x2_S524288_n_01_01_1_wf : ScatterDims.WF S8192x8192 S524288x2 S524288 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .f32 = 32 ∨ (Rect.block (s := S8192x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S8192x8192.size a
  hwx2_0 : ∀ i : grid2.Coords, EltTy.bits .f32 = 32 ∨ (Rect.block (s := S8192x8192) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S8192x8192.size a
  hwx2_1 : ∀ i : grid2.Coords, EltTy.bits .f32 = 32 ∨ (Rect.block (s := S8192x8192) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S8192x8192.size a
  hwx2_2 : ∀ i : grid2.Coords, EltTy.bits .f32 = 32 ∨ (Rect.block (s := S8192x8192) S512x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S8192x8192.size a
  hwx2_3 : ∀ i : grid2.Coords, EltTy.bits .f32 = 32 ∨ (Rect.block (s := S8192x8192) S512x512.size (cc2_transform_3 i) (hinb2_3 i)).WholeWords (EltTy.packing .f32)

variable [Facts₀]

def scatter_S8192_S524288x1_S524288_n_0_0_1 : ScatterDims S8192 S524288x1 S524288 where
  updateWindowDims := []
  insertedWindowDims := [0]
  scatterDimsToOperandDims := [0]
  indexVectorDim := 1
  wf := scatter_S8192_S524288x1_S524288_n_0_0_1_wf
def gather_S8192_S524288x1_S524288_n_0_n_n_0_1_1 : GatherDims S8192 S524288x1 S524288 where
  offsetDims := []
  collapsedSliceDims := [0]
  operandBatchingDims := []
  startIndicesBatchingDims := []
  startIndexMap := [0]
  indexVectorDim := 1
  sliceSizes := ![1]
  wf := gather_S8192_S524288x1_S524288_n_0_n_n_0_1_1_wf
def scatter_S8192x8192_S524288x2_S524288_n_01_01_1 : ScatterDims S8192x8192 S524288x2 S524288 where
  updateWindowDims := []
  insertedWindowDims := [0, 1]
  scatterDimsToOperandDims := [0, 1]
  indexVectorDim := 1
  wf := scatter_S8192x8192_S524288x2_S524288_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v45) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v45) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v45) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S512x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x64 : Shape := ⟨2, ![8192, 64]⟩
abbrev S524288 : Shape := ⟨1, ![524288]⟩
abbrev S2x524288 : Shape := ⟨2, ![2, 524288]⟩
abbrev S1x524288 : Shape := ⟨2, ![1, 524288]⟩
abbrev S_ : Shape := ⟨0, ![]⟩
abbrev S8192 : Shape := ⟨1, ![8192]⟩
abbrev S524288x1 : Shape := ⟨2, ![524288, 1]⟩
abbrev S8192x8192 : Shape := ⟨2, ![8192, 8192]⟩
abbrev S524288x2 : Shape := ⟨2, ![524288, 2]⟩

abbrev nBuf : Space → Nat
  | .hbm => 81
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S524288, .f32⟩
  | .hbm, ⟨2, _⟩ => ⟨S2x524288, .i32⟩
  | .hbm, ⟨3, _⟩ => ⟨S1x524288, .i32⟩
  | .hbm, ⟨4, _⟩ => ⟨S524288, .i32⟩
  | .hbm, ⟨5, _⟩ => ⟨S1x524288, .i32⟩
  | .hbm, ⟨6, _⟩ => ⟨S524288, .i32⟩
  | .hbm, ⟨7, _⟩ => ⟨S_, .f32⟩
  | .hbm, ⟨8, _⟩ => ⟨S8192, .f32⟩
  | .hbm, ⟨9, _⟩ => ⟨S_, .i32⟩
  | .hbm, ⟨10, _⟩ => ⟨S524288, .i32⟩
  | .hbm, ⟨11, _⟩ => ⟨S524288, .i1⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S524288, .i32⟩
  | .hbm, ⟨16, _⟩ => ⟨S524288x1, .i32⟩
  | .hbm, ⟨17, _⟩ => ⟨S_, .f32⟩
  | .hbm, ⟨18, _⟩ => ⟨S524288, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .i32⟩
  | .hbm, ⟨24, _⟩ => ⟨S524288, .i32⟩
  | .hbm, ⟨25, _⟩ => ⟨S524288, .i1⟩
  | .hbm, ⟨26, _⟩ => ⟨S_, .i32⟩
  | .hbm, ⟨27, _⟩ => ⟨S524288, .i32⟩
  | .hbm, ⟨28, _⟩ => ⟨S524288, .i32⟩
  | .hbm, ⟨29, _⟩ => ⟨S524288, .i32⟩
  | .hbm, ⟨30, _⟩ => ⟨S524288x1, .i32⟩
  | .hbm, ⟨31, _⟩ => ⟨S524288, .f32⟩
  | .hbm, ⟨32, _⟩ => ⟨S524288, .f32⟩
  | .hbm, ⟨33, _⟩ => ⟨S_, .i32⟩
  | .hbm, ⟨34, _⟩ => ⟨S524288, .i32⟩
  | .hbm, ⟨35, _⟩ => ⟨S524288, .i1⟩
  | .hbm, ⟨36, _⟩ => ⟨S_, .i32⟩
  | .hbm, ⟨37, _⟩ => ⟨S524288, .i32⟩
  | .hbm, ⟨38, _⟩ => ⟨S524288, .i32⟩
  | .hbm, ⟨39, _⟩ => ⟨S524288, .i32⟩
  | .hbm, ⟨40, _⟩ => ⟨S524288x1, .i32⟩
  | .hbm, ⟨41, _⟩ => ⟨S524288, .f32⟩
  | .hbm, ⟨42, _⟩ => ⟨S524288, .f32⟩
  | .hbm, ⟨43, _⟩ => ⟨S_, .f32⟩
  | .hbm, ⟨44, _⟩ => ⟨S8192x8192, .f32⟩
  | .hbm, ⟨45, _⟩ => ⟨S_, .i32⟩
  | .hbm, ⟨46, _⟩ => ⟨S524288, .i32⟩
  | .hbm, ⟨47, _⟩ => ⟨S524288, .i1⟩
  | .hbm, ⟨48, _⟩ => ⟨S_, .i32⟩
  | .hbm, ⟨49, _⟩ => ⟨S524288, .i32⟩
  | .hbm, ⟨50, _⟩ => ⟨S524288, .i32⟩
  | .hbm, ⟨51, _⟩ => ⟨S524288, .i32⟩
  | .hbm, ⟨52, _⟩ => ⟨S_, .i32⟩
  | .hbm, ⟨53, _⟩ => ⟨S524288, .i32⟩
  | .hbm, ⟨54, _⟩ => ⟨S524288, .i1⟩
  | .hbm, ⟨55, _⟩ => ⟨S_, .i32⟩
  | .hbm, ⟨56, _⟩ => ⟨S524288, .i32⟩
  | .hbm, ⟨57, _⟩ => ⟨S524288, .i32⟩
  | .hbm, ⟨58, _⟩ => ⟨S524288, .i32⟩
  | .hbm, ⟨59, _⟩ => ⟨S524288x1, .i32⟩
  | .hbm, ⟨60, _⟩ => ⟨S524288x1, .i32⟩
  | .hbm, ⟨61, _⟩ => ⟨S524288x2, .i32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S8192x8192, .i32⟩
  | .hbm, ⟨71, _⟩ => ⟨S8192x8192, .i32⟩
  | .hbm, ⟨72, _⟩ => ⟨S_, .i32⟩
  | .hbm, ⟨73, _⟩ => ⟨S8192x8192, .i32⟩
  | .hbm, ⟨74, _⟩ => ⟨S8192x8192, .i32⟩
  | .hbm, ⟨75, _⟩ => ⟨S8192x8192, .i1⟩
  | .hbm, ⟨76, _⟩ => ⟨S8192x8192, .f32⟩
  | .hbm, ⟨77, _⟩ => ⟨S_, .f32⟩
  | .hbm, ⟨78, _⟩ => ⟨S8192x8192, .f32⟩
  | .hbm, ⟨79, _⟩ => ⟨S8192x8192, .f32⟩
  | .hbm, ⟨80, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_c_11 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_13 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_14 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S8192 : S_.BroadcastsInDim S8192 (![] : Fin 0 → Fin S8192.rank)
  bcast_S_S524288 : S_.BroadcastsInDim S524288 (![] : Fin 0 → Fin S524288.rank)
  bcast_S524288_S524288x1_0 : S524288.BroadcastsInDim S524288x1 (![0] : Fin 1 → Fin S524288x1.rank)
  bcast_S_S8192x8192 : S_.BroadcastsInDim S8192x8192 (![] : Fin 0 → Fin S8192x8192.rank)
  concatenates_S524288x1_S524288x1_S524288x2_d1 : Shape.Concatenates [S524288x1, S524288x1] S524288x2 1
  scatter_S8192_S524288x1_S524288_n_0_0_1_wf : ScatterDims.WF S8192 S524288x1 S524288 [] [0] [0] 1
  gather_S8192_S524288x1_S524288_n_0_n_n_0_1_1_wf : GatherDims.WF S8192 S524288x1 S524288 [] [0] [] [0] [] 1 ![1]
  scatter_S8192x8192_S524288x2_S524288_n_01_01_1_wf : ScatterDims.WF S8192x8192 S524288x2 S524288 [] [0, 1] [0, 1] 1
  dot_S8192x8192_S8192x8192_S8192x8192_1_0_0_1_n_n_wf : DotDims.WF S8192x8192 S8192x8192 S8192x8192 [1] [0] [0] [1] [] []

variable [Facts₀]

def scatter_S8192_S524288x1_S524288_n_0_0_1 : ScatterDims S8192 S524288x1 S524288 where
  updateWindowDims := []
  insertedWindowDims := [0]
  scatterDimsToOperandDims := [0]
  indexVectorDim := 1
  wf := scatter_S8192_S524288x1_S524288_n_0_0_1_wf
def gather_S8192_S524288x1_S524288_n_0_n_n_0_1_1 : GatherDims S8192 S524288x1 S524288 where
  offsetDims := []
  collapsedSliceDims := [0]
  operandBatchingDims := []
  startIndicesBatchingDims := []
  startIndexMap := [0]
  indexVectorDim := 1
  sliceSizes := ![1]
  wf := gather_S8192_S524288x1_S524288_n_0_n_n_0_1_1_wf
def scatter_S8192x8192_S524288x2_S524288_n_01_01_1 : ScatterDims S8192x8192 S524288x2 S524288 where
  updateWindowDims := []
  insertedWindowDims := [0, 1]
  scatterDimsToOperandDims := [0, 1]
  indexVectorDim := 1
  wf := scatter_S8192x8192_S524288x2_S524288_n_01_01_1_wf
def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf

class Facts : Prop extends Facts₀ where

variable [Facts]
-- ==== Proof.K.Matmul0.lean ====
import proofs.«127820_j66348654788876_1_alg».proof.Proof.Gen.Kernel.Launch
import proofs.«127820_j66348654788876_1_alg».proof.Proof.Gen.Kernel.Skeleton
import proofs.«127820_j66348654788876_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The first matrix product (pipeline 0): a 1024-block product accumulated over the grid's last axis -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`: at a point whose last coordinate is 0 the block product added to the zero
    vector, elsewhere added to what the point before left. -/
def acc0 (c : Dev nD) : (n : ℕ) → n < cfg0.N → Vec F S1024x1024 .f32
  | 0, hn => k0_pay2 (iblk0 V c 0 ⟨0, hn⟩) (iblk0 V c 1 ⟨0, hn⟩) (k0_pay1 (F := F))
  | n + 1, hn =>
    if (n + 1) % 8 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_reset (c : Dev nD) (t : Fin cfg0.N) (h : t.val % 8 = 0) :
    acc0 V c t.val t.isLt = k0_pay2 (iblk0 V c 0 t) (iblk0 V c 1 t) (k0_pay1 (F := F)) := by
  obtain ⟨n, hn⟩ := t
  cases n with
  | zero => rfl
  | succ n => exact if_pos h

theorem acc0_step (c : Dev nD) (t : Fin cfg0.N) (h : ¬ t.val % 8 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-- The accumulator buffer of this pipeline. -/
abbrev scr0 : Memref sig .tc .vmem S1024x1024 .f32 := Memref.whole cc0_scratch0

/-- The scoped buffers that are neither a staging buffer of this pipeline nor its accumulator, each whole at some contents. -/
def others0 (c : Dev nD) : sProp 𝕄 :=
  bigSep ((((Finset.univ.filter fun b : Ref sig .tc => b.isScoped) \ Finset.univ.image (Pipeline.stageRef spec0))).erase cc0_scratch0)
    fun b => iprop(∃ f : Buf (Elt F) ((c : Thread nD τ).loc b), ((c : Thread nD τ).loc b) ↦{fullShare} f)

/-- The invariant before position `n`: before the first point every scoped buffer the pipeline does not stage at anything
    and the generator register at some state; afterwards the accumulator at what the point before left. -/
def Phi0 (c : Dev nD) : (n : ℕ) → n ≤ cfg0.N → sProp 𝕄
  | 0, _ => Pipeline.ΦA spec0 c
  | n + 1, hn => iprop(owns (c : Thread nD τ) scr0 fullShare (acc0 V c n hn) ∗ others0 (F := F) c ∗ (∃ r, prngReg c r))

theorem Phi0_zero (c : Dev nD) (n : ℕ) (h : n ≤ cfg0.N) (hz : n = 0) : Phi0 V c n h = Pipeline.ΦA spec0 c := by
  subst hz; rfl

/-- Before a point that is not the first: the accumulator at what the point before left. -/
theorem Phi0_pos (c : Dev nD) (n : ℕ) (h : n ≤ cfg0.N) (hz : n ≠ 0) :
    Phi0 V c n h = iprop(owns (c : Thread nD τ) scr0 fullShare (acc0 V c (n - 1) (by omega)) ∗ others0 (F := F) c ∗ (∃ r, prngReg c r)) := by
  cases n with
  | zero => exact absurd rfl hz
  | succ n => rfl

/-- The scoped rest is the accumulator buffer at some contents and the other buffers. -/
theorem scopedRest_split0 (c : Dev nD) :
    (Pipeline.scopedRest (Ix := Unit) (Name := ℕ) (U := UR sig nD τ) (Lvl := ℕ) spec0 c : sProp 𝕄)
      = iprop((∃ d, owns (c : Thread nD τ) scr0 fullShare d) ∗ others0 (F := F) c) := by
  unfold Pipeline.scopedRest others0
  rw [bigSep_erase (i := cc0_scratch0) (by decide)]
  simp only [scr0, owns_whole]
  rfl

/-- The proof data of pipeline 0 on core `c`, the input arrays held at the shares `q`. -/
def dat0 (q : Fin 3 → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q := q
  owed _ := 0

theorem A_eq0 (q : Fin 3 → PosShare TreeShare) (c : Dev nD) (w : Fin cfg0.W) : (dat0 V q c).A w = V c (Pipeline.arrRef spec0 w) := by
  dsimp only [dat0]
theorem after0_0 (q : Fin 3 → PosShare TreeShare) (c : Dev nD) (t : Fin cfg0.N) : (dat0 V q c).after 0 t = iblk0 V c 0 t := by dsimp only [dat0]
theorem after0_1 (q : Fin 3 → PosShare TreeShare) (c : Dev nD) (t : Fin cfg0.N) : (dat0 V q c).after 1 t = iblk0 V c 1 t := by dsimp only [dat0]
theorem after0_2 (q : Fin 3 → PosShare TreeShare) (c : Dev nD) (t : Fin cfg0.N) : (dat0 V q c).after 2 t = acc0 V c t.val t.isLt := by dsimp only [dat0]

/-! ## The body's branch conditions, and where the output window is idle -/

/-- The zero offsets of a whole-buffer access, spelt as a constant function. -/
theorem offs0_zero : (![0, 0] : Fin 2 → Nat) = fun _ => 0 := funext fun a => by fin_cases a <;> rfl

/-- The condition of the body's first conditional: the last grid coordinate is 0. -/
abbrev cnd0_a (i : grid0.Coords) : Prop := (Scalar.cmpi .ne (Scalar.extui (Scalar.cmpi .eq (BitVec.ofNat 32 (i 2).val) 0#32)) 0#32) = 1#1
/-- It holds at the points ≡ 0 (mod 8): the last axis is the fastest. -/
theorem hcnd0_a : ∀ t : Fin cfg0.N, cnd0_a (grid0.coords t) ↔ t.val % 8 = 0 :=
  (by decide +kernel : ∀ t : Fin grid0.N, cnd0_a (grid0.coords t) ↔ t.val % 8 = 0)

/-- The condition of the body's second conditional: the last grid coordinate is 7. -/
abbrev cnd0_b (i : grid0.Coords) : Prop := k0_cond2 i = 1#1
/-- It holds at the points ≡ 7 (mod 8). -/
theorem hcnd0_b : ∀ t : Fin cfg0.N, cnd0_b (grid0.coords t) ↔ t.val % 8 = 7 :=
  (by decide +kernel : ∀ t : Fin grid0.N, cnd0_b (grid0.coords t) ↔ t.val % 8 = 7)

/-- The input windows are never idle. -/
theorem live0_0 : ∀ t : Fin cfg0.N, cfg0.idle 0 (grid0.coords t) = false := by decide +kernel
theorem live0_1 : ∀ t : Fin cfg0.N, cfg0.idle 1 (grid0.coords t) = false := by decide +kernel
/-- The output window is idle exactly where the second conditional fails. -/
theorem idle0_2 : ∀ t : Fin cfg0.N, ¬ t.val % 8 = 7 → cfg0.idle 2 (grid0.coords t) = true :=
  (by decide +kernel : ∀ t : Fin grid0.N, ¬ t.val % 8 = 7 → cfg0.idle 2 (grid0.coords t) = true)
theorem live0_2 : ∀ t : Fin cfg0.N, t.val % 8 = 7 → cfg0.idle 2 (grid0.coords t) = false :=
  (by decide +kernel : ∀ t : Fin grid0.N, t.val % 8 = 7 → cfg0.idle 2 (grid0.coords t) = false)
/-- and there it is not written back. -/
theorem noflush0_2 (t : Fin cfg0.N) (h : ¬ t.val % 8 = 7) : (cfg0.win 2).flush t = false := by
  cases hf : (cfg0.win 2).flush t with
  | false => rfl
  | true => exact absurd ((flush0_2 t).mp hf) h

/-! ## The body's triple, case by case -/

set_option maxHeartbeats 1000000 in
/-- At a point whose last coordinate is 0 (and not 7): on whole memrefs, the inputs at `xa`, `xb`, the accumulator at
    anything, the body leaves the inputs as they were and the accumulator at the block product added to zero; the
    output's buffer is not touched. -/
theorem kernel0_first (c : Dev nD) (E : Set ℕ) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hca : cnd0_a i) (hcb : ¬ cnd0_b i) (xa xb : Vec F S1024x1024 .f32) (K : PUnit → sProp 𝕄) :
    iprop(owns (c : Thread nD τ) arg3 fullShare xa ∗ owns (c : Thread nD τ) arg4 fullShare xb ∗ (∃ d, owns (c : Thread nD τ) arg6 fullShare d)
        ∗ (iprop(owns (c : Thread nD τ) arg3 fullShare xa ∗ owns (c : Thread nD τ) arg4 fullShare xb
            ∗ owns (c : Thread nD τ) arg6 fullShare (k0_pay2 xa xb (k0_pay1 (F := F)))) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%fa, %hfa, Ha⟩, ⟨%fb, %hfb, Hb⟩, ⟨%ds, %fs, -, Hs⟩, Hk⟩
  subst hfa; subst hfb
  sl_exec (disch := first | exact hca | exact hcb)
  sl_step
  iapply Hk
  isplitl [Ha]
  · iexists fa; isplitr; · ipureintro; rfl
    iexact Ha
  isplitl [Hb]
  · iexists fb; isplitr; · ipureintro; rfl
    iexact Hb
  iexists _; isplitr
  swap; · iexact Hs
  ipureintro
  sl_unfold_words
  rw [View.read_writes_eq_canon _ _ _ (fun y => ⟨_, List.mem_cons_self, View.mem_set_unit_zero offs0_zero inb_S1024x1024_S1024x1024_0_0 y⟩)]
  rw [View.canon_cons_unit_zero offs0_zero]
  simp only [View.readAt_eq_ld, View.ld_unit_zero (S := S1024x1024) offs0_zero, View.readCov_unit_zero (S := S1024x1024) _ offs0_zero]

set_option maxHeartbeats 1000000 in
/-- At a point whose last coordinate is neither 0 nor 7: the inputs at `xa`, `xb`, the accumulator at `s`; the body
    leaves the inputs as they were and the accumulator at `s` plus the block product; the output's buffer is not touched. -/
theorem kernel0_mid (c : Dev nD) (E : Set ℕ) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hca : ¬ cnd0_a i) (hcb : ¬ cnd0_b i) (xa xb s : Vec F S1024x1024 .f32) (K : PUnit → sProp 𝕄) :
    iprop(owns (c : Thread nD τ) arg3 fullShare xa ∗ owns (c : Thread nD τ) arg4 fullShare xb ∗ owns (c : Thread nD τ) arg6 fullShare s
        ∗ (iprop(owns (c : Thread nD τ) arg3 fullShare xa ∗ owns (c : Thread nD τ) arg4 fullShare xb
            ∗ owns (c : Thread nD τ) arg6 fullShare (k0_pay2 xa xb s)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%fa, %hfa, Ha⟩, ⟨%fb, %hfb, Hb⟩, ⟨%fs, %hfs, Hs⟩, Hk⟩
  subst hfa; subst hfb; subst hfs
  sl_exec (disch := first | exact hca | exact hcb)
  sl_step
  iapply Hk
  isplitl [Ha]
  · iexists fa; isplitr; · ipureintro; rfl
    iexact Ha
  isplitl [Hb]
  · iexists fb; isplitr; · ipureintro; rfl
    iexact Hb
  iexists _; isplitr
  swap; · iexact Hs
  ipureintro
  sl_unfold_words
  rw [View.read_writes_eq_canon _ _ _ (fun y => ⟨_, List.mem_cons_self, View.mem_set_unit_zero offs0_zero inb_S1024x1024_S1024x1024_0_0 y⟩)]
  rw [View.canon_cons_unit_zero offs0_zero]
  simp only [View.readAt_eq_ld, View.ld_unit_zero (S := S1024x1024) offs0_zero, View.readCov_unit_zero (S := S1024x1024) _ offs0_zero]

set_option maxHeartbeats 1000000 in
/-- At a point whose last coordinate is 7 (and not 0): the inputs at `xa`, `xb`, the accumulator at `s`, the output's
    buffer at anything; the body leaves the inputs as they were and both the accumulator and the output's buffer at `s`
    plus the block product. -/
theorem kernel0_last (c : Dev nD) (E : Set ℕ) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hca : ¬ cnd0_a i) (hcb : cnd0_b i) (xa xb s : Vec F S1024x1024 .f32) (K : PUnit → sProp 𝕄) :
    iprop(owns (c : Thread nD τ) arg3 fullShare xa ∗ owns (c : Thread nD τ) arg4 fullShare xb ∗ (∃ d, owns (c : Thread nD τ) arg5 fullShare d)
        ∗ owns (c : Thread nD τ) arg6 fullShare s
        ∗ (iprop(owns (c : Thread nD τ) arg3 fullShare xa ∗ owns (c : Thread nD τ) arg4 fullShare xb
            ∗ owns (c : Thread nD τ) arg5 fullShare (k0_pay2 xa xb s)
            ∗ owns (c : Thread nD τ) arg6 fullShare (k0_pay2 xa xb s)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%fa, %hfa, Ha⟩, ⟨%fb, %hfb, Hb⟩, ⟨%dz, %fz, -, Hz⟩, ⟨%fs, %hfs, Hs⟩, Hk⟩
  subst hfa; subst hfb; subst hfs
  sl_exec (disch := first | exact hca | exact hcb)
  sl_step
  iapply Hk
  isplitl [Ha]
  · iexists fa; isplitr; · ipureintro; rfl
    iexact Ha
  isplitl [Hb]
  · iexists fb; isplitr; · ipureintro; rfl
    iexact Hb
  isplitl [Hz]
  · iexists _; isplitr
    swap; · iexact Hz
    ipureintro
    sl_unfold_words
    rw [View.read_writes_eq_canon _ _ _ (fun y => ⟨_, List.mem_cons_self, View.mem_set_unit_zero offs0_zero inb_S1024x1024_S1024x1024_0_0 y⟩)]
    rw [View.canon_cons_unit_zero offs0_zero]
    simp only [View.readAt_eq_ld, View.ld_unit_zero (S := S1024x1024) offs0_zero, View.readCov_unit_zero (S := S1024x1024) _ offs0_zero]
  iexists _; isplitr
  swap; · iexact Hs
  ipureintro
  sl_unfold_words
  rw [View.read_writes_eq_canon _ _ _ (fun y => ⟨_, List.mem_cons_self, View.mem_set_unit_zero offs0_zero inb_S1024x1024_S1024x1024_0_0 y⟩)]
  rw [View.canon_cons_unit_zero offs0_zero]
  simp only [View.readAt_eq_ld, View.ld_unit_zero (S := S1024x1024) offs0_zero, View.readCov_unit_zero (S := S1024x1024) _ offs0_zero]

/-! ## The body obligation, at a generic point -/

/-- After point `n` (before point `n + 1`): the accumulator at that point's contents. -/
theorem Phi0_succ (c : Dev nD) (n : ℕ) (hn : n < cfg0.N) :
    Phi0 V c (n + 1) hn = iprop(owns (c : Thread nD τ) scr0 fullShare (acc0 V c n hn) ∗ others0 (F := F) c ∗ (∃ r, prngReg c r)) := rfl

/-- The invariant at a point's start, restated at the point's position. -/
theorem Phi0_castSucc (q : Fin 3 → PosShare TreeShare) (c : Dev nD) (t : Fin cfg0.N) :
    (dat0 V q c).Φ t.castSucc = Phi0 V c t.val (Nat.le_of_lt t.isLt) := by
  dsimp only [dat0]; simp only [Fin.coe_castSucc]

/-- Before the first point the invariant holds the accumulator at anything, beside the other buffers and the register. -/
theorem PhiA0_eq (c : Dev nD) :
    (Pipeline.ΦA spec0 c : sProp 𝕄)
      = iprop(((∃ d, owns (c : Thread nD τ) scr0 fullShare d) ∗ others0 (F := F) c) ∗ (∃ r, prngReg c r)) := by
  unfold Pipeline.ΦA; rw [scopedRest_split0]

/-- Each input's current staging buffer holds its block at every point, fetched there or not: an input window is
    uncut, never idle, and the body leaves its block in place. -/
theorem before0_0 (q : Fin 3 → PosShare TreeShare) (c : Dev nD) (t : Fin cfg0.N) (d) : (dat0 V q c).before 0 t d = iblk0 V c 0 t :=
  ((dat0 V q c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (q : Fin 3 → PosShare TreeShare) (c : Dev nD) (t : Fin cfg0.N) (d) : (dat0 V q c).before 1 t d = iblk0 V c 1 t :=
  ((dat0 V q c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- What the body is called with at point `t`, the windows one by one, -/
def bodyPre0 (q : Fin 3 → PosShare TreeShare) (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d)))

/-- and what it returns. -/
def bodyPost0 (q : Fin 3 → PosShare TreeShare) (c : Dev nD) (t : Fin cfg0.N) : sProp 𝕄 :=
  iprop((dat0 V q c).Φ t.succ ∗ (dat0 V q c).owesAt () t.succ
    ∗ (dat0 V q c).leavesExact 0 t
    ∗ (dat0 V q c).leavesExact 1 t
    ∗ (dat0 V q c).leavesExact 2 t)

set_option maxHeartbeats 1600000 in
/-- The body at any point: the inputs' buffers hold their blocks; the point's position modulo 8 says which case of the
    body runs; the invariant hands the accumulator over at what the point before left (at anything before the first
    point) and takes it back at this point's value of the recursion; the output's buffer is handed back untouched
    where the window is idle, and at the accumulator's value where the last coordinate is 7. -/
theorem sound_body0 (q : Fin 3 → PosShare TreeShare) (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dat0 V q c).owesAt () t.succ = (dat0 V q c).owesAt () t.castSucc from rfl]
  rw [show (dat0 V q c).Φ t.succ = Phi0 V c (t.val + 1) t.isLt from rfl, Phi0_succ]
  rw [show (dat0 V q c).leavesExact 0 t = owns (c : Thread nD τ) (st0_0 t) fullShare ((dat0 V q c).after 0 t) from by
    unfold Dat.leavesExact; rw [live0_0 t], after0_0]
  rw [show (dat0 V q c).leavesExact 1 t = owns (c : Thread nD τ) (st0_1 t) fullShare ((dat0 V q c).after 1 t) from by
    unfold Dat.leavesExact; rw [live0_1 t], after0_1]
  have hN : t.val < 512 := lt_of_lt_of_eq t.isLt (show cfg0.N = 512 from N_0)
  by_cases hfst : t.val % 8 = 0
  · have h7 : ¬ t.val % 8 = 7 := by omega
    rw [Dat.leavesExact_idle (dat0 V q c) 2 t (idle0_2 t h7) (noflush0_2 t h7), acc0_reset V c t hfst]
    by_cases hz : t.val = 0
    · rw [Phi0_castSucc, Phi0_zero V c _ _ hz, PhiA0_eq]
      iintro ⟨⟨⟨Hs, Hr⟩, Hg⟩, Ho, ⟨%da, Ha⟩, ⟨%db, Hb⟩, Hz⟩
      iapply (kernel0_first c Set.univ (grid0.coords t) _ _ _ _ _ _ _ _ ((hcnd0_a t).mpr hfst) (fun h => h7 ((hcnd0_b t).mp h)) (iblk0 V c 0 t) (iblk0 V c 1 t) _)
      isplitl [Ha]; · iexact Ha
      isplitl [Hb]; · iexact Hb
      isplitl [Hs]; · iexact Hs
      iintro ⟨Ha, Hb, Hs⟩
      isplitl [Hs Hr Hg]
      · isplitl [Hs]; · iexact Hs
        isplitl [Hr]; · iexact Hr
        iexact Hg
      isplitl [Ho]; · iexact Ho
      isplitl [Ha]; · iexact Ha
      isplitl [Hb]; · iexact Hb
      iexact Hz
    · rw [Phi0_castSucc, Phi0_pos V c _ _ hz]
      iintro ⟨⟨Hs, Hr, Hg⟩, Ho, ⟨%da, Ha⟩, ⟨%db, Hb⟩, Hz⟩
      iapply (kernel0_first c Set.univ (grid0.coords t) _ _ _ _ _ _ _ _ ((hcnd0_a t).mpr hfst) (fun h => h7 ((hcnd0_b t).mp h)) (iblk0 V c 0 t) (iblk0 V c 1 t) _)
      isplitl [Ha]; · iexact Ha
      isplitl [Hb]; · iexact Hb
      isplitl [Hs]; · iexists _; iexact Hs
      iintro ⟨Ha, Hb, Hs⟩
      isplitl [Hs Hr Hg]
      · isplitl [Hs]; · iexact Hs
        isplitl [Hr]; · iexact Hr
        iexact Hg
      isplitl [Ho]; · iexact Ho
      isplitl [Ha]; · iexact Ha
      isplitl [Hb]; · iexact Hb
      iexact Hz
  · have hz : t.val ≠ 0 := fun e => hfst (by rw [e])
    rw [acc0_step V c t hfst, Phi0_castSucc, Phi0_pos V c _ _ hz]
    by_cases h7 : t.val % 8 = 7
    · rw [show (dat0 V q c).leavesExact 2 t = owns (c : Thread nD τ) (st0_2 t) fullShare ((dat0 V q c).after 2 t) from by
        unfold Dat.leavesExact; rw [live0_2 t h7], after0_2, acc0_step V c t hfst]
      iintro ⟨⟨Hs, Hr, Hg⟩, Ho, ⟨%da, Ha⟩, ⟨%db, Hb⟩, ⟨%dz, Hz⟩⟩
      iapply (kernel0_last c Set.univ (grid0.coords t) _ _ _ _ _ _ _ _ (fun h => hfst ((hcnd0_a t).mp h)) ((hcnd0_b t).mpr h7) (iblk0 V c 0 t) (iblk0 V c 1 t)
        (acc0 V c (t.val - 1) (Nat.lt_of_le_of_lt (Nat.sub_le _ _) t.isLt)) _)
      isplitl [Ha]; · iexact Ha
      isplitl [Hb]; · iexact Hb
      isplitl [Hz]; · iexists _; iexact Hz
      isplitl [Hs]; · iexact Hs
      iintro ⟨Ha, Hb, Hz, Hs⟩
      isplitl [Hs Hr Hg]
      · isplitl [Hs]; · iexact Hs
        isplitl [Hr]; · iexact Hr
        iexact Hg
      isplitl [Ho]; · iexact Ho
      isplitl [Ha]; · iexact Ha
      isplitl [Hb]; · iexact Hb
      iexact Hz
    · rw [Dat.leavesExact_idle (dat0 V q c) 2 t (idle0_2 t h7) (noflush0_2 t h7)]
      iintro ⟨⟨Hs, Hr, Hg⟩, Ho, ⟨%da, Ha⟩, ⟨%db, Hb⟩, Hz⟩
      iapply (kernel0_mid c Set.univ (grid0.coords t) _ _ _ _ _ _ _ _ (fun h => hfst ((hcnd0_a t).mp h)) (fun h => h7 ((hcnd0_b t).mp h)) (iblk0 V c 0 t) (iblk0 V c 1 t)
        (acc0 V c (t.val - 1) (Nat.lt_of_le_of_lt (Nat.sub_le _ _) t.isLt)) _)
      isplitl [Ha]; · iexact Ha
      isplitl [Hb]; · iexact Hb
      isplitl [Hs]; · iexact Hs
      iintro ⟨Ha, Hb, Hs⟩
      isplitl [Hs Hr Hg]
      · isplitl [Hs]; · iexact Hs
        isplitl [Hr]; · iexact Hr
        iexact Hg
      isplitl [Ho]; · iexact Ho
      isplitl [Ha]; · iexact Ha
      isplitl [Hb]; · iexact Hb
      iexact Hz

/-- The body obligation of pipeline 0, at every point. -/
theorem body_obligation0 (q : Fin 3 → PosShare TreeShare) (c : Dev nD) :
    BodyObligation (dat0 (F := F) V q c) (defs₀ (F := F)) Variants.none () Set.univ := fun t => by
  rw [bigSep_W0, bigSep_W0]
  exact sound_body0 V q c t

/-- What the region is entered with makes the invariant before the first point. -/
theorem hin0 (q : Fin 3 → PosShare TreeShare) (c : Dev nD) :
    (iprop((∃ r, prngReg c r) ∗ Pipeline.scopedRest (Ix := Unit) (Name := ℕ) (U := UR sig nD τ) (Lvl := ℕ) spec0 c) : sProp 𝕄) ⊢ (dat0 V q c).Φ 0 := by
  rw [show (dat0 V q c).Φ 0 = Phi0 V c 0 (Nat.zero_le _) from rfl, Phi0_zero V c 0 _ rfl]
  unfold Pipeline.ΦA
  iintro ⟨Hg, Hs⟩
  isplitl [Hs]; · iexact Hs
  iexact Hg

/-- The invariant after the last point gives the scoped buffers and the generator register back. -/
theorem hout0 (q : Fin 3 → PosShare TreeShare) (c : Dev nD) :
    (dat0 V q c).Φ (Fin.last cfg0.N) ⊢ (iprop((∃ r, prngReg c r) ∗ Pipeline.scopedRest (Ix := Unit) (Name := ℕ) (U := UR sig nD τ) (Lvl := ℕ) spec0 c) : sProp 𝕄) := by
  rw [show (dat0 V q c).Φ (Fin.last cfg0.N) = Phi0 V c (Fin.last cfg0.N).val (Nat.le_of_lt_succ (Fin.last cfg0.N).isLt) from rfl,
    Phi0_pos V c _ _ (by rw [Fin.val_last]; have : cfg0.N = 512 := N_0; omega), scopedRest_split0]
  iintro ⟨Hs, Ho, Hg⟩
  isplitl [Hg]; · iexact Hg
  isplitl [Hs]; · iexists _; iexact Hs
  iexact Ho

end Cert.Kernel.Hand

end
-- ==== Proof.K.Matmul1.lean ====
import proofs.«127820_j66348654788876_1_alg».proof.Proof.Gen.Kernel.Launch
import proofs.«127820_j66348654788876_1_alg».proof.Proof.Gen.Kernel.Skeleton
import proofs.«127820_j66348654788876_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The second matrix product (pipeline 1): a 1024-block product accumulated over the grid's last axis -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: at a point whose last coordinate is 0 the block product added to the zero
    vector, elsewhere added to what the point before left. -/
def acc1 (c : Dev nD) : (n : ℕ) → n < cfg1.N → Vec F S1024x1024 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_reset (c : Dev nD) (t : Fin cfg1.N) (h : t.val % 8 = 0) :
    acc1 V c t.val t.isLt = k1_pay2 (iblk1 V c 0 t) (iblk1 V c 1 t) (k1_pay1 (F := F)) := by
  obtain ⟨n, hn⟩ := t
  cases n with
  | zero => rfl
  | succ n => exact if_pos h

theorem acc1_step (c : Dev nD) (t : Fin cfg1.N) (h : ¬ t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- The accumulator buffer of this pipeline. -/
abbrev scr1 : Memref sig .tc .vmem S1024x1024 .f32 := Memref.whole cc1_scratch0

/-- The scoped buffers that are neither a staging buffer of this pipeline nor its accumulator, each whole at some contents. -/
def others1 (c : Dev nD) : sProp 𝕄 :=
  bigSep ((((Finset.univ.filter fun b : Ref sig .tc => b.isScoped) \ Finset.univ.image (Pipeline.stageRef spec1))).erase cc1_scratch0)
    fun b => iprop(∃ f : Buf (Elt F) ((c : Thread nD τ).loc b), ((c : Thread nD τ).loc b) ↦{fullShare} f)

/-- The invariant before position `n`: before the first point every scoped buffer the pipeline does not stage at anything
    and the generator register at some state; afterwards the accumulator at what the point before left. -/
def Phi1 (c : Dev nD) : (n : ℕ) → n ≤ cfg1.N → sProp 𝕄
  | 0, _ => Pipeline.ΦA spec1 c
  | n + 1, hn => iprop(owns (c : Thread nD τ) scr1 fullShare (acc1 V c n hn) ∗ others1 (F := F) c ∗ (∃ r, prngReg c r))

theorem Phi1_zero (c : Dev nD) (n : ℕ) (h : n ≤ cfg1.N) (hz : n = 0) : Phi1 V c n h = Pipeline.ΦA spec1 c := by
  subst hz; rfl

/-- Before a point that is not the first: the accumulator at what the point before left. -/
theorem Phi1_pos (c : Dev nD) (n : ℕ) (h : n ≤ cfg1.N) (hz : n ≠ 0) :
    Phi1 V c n h = iprop(owns (c : Thread nD τ) scr1 fullShare (acc1 V c (n - 1) (by omega)) ∗ others1 (F := F) c ∗ (∃ r, prngReg c r)) := by
  cases n with
  | zero => exact absurd rfl hz
  | succ n => rfl

/-- The scoped rest is the accumulator buffer at some contents and the other buffers. -/
theorem scopedRest_split1 (c : Dev nD) :
    (Pipeline.scopedRest (Ix := Unit) (Name := ℕ) (U := UR sig nD τ) (Lvl := ℕ) spec1 c : sProp 𝕄)
      = iprop((∃ d, owns (c : Thread nD τ) scr1 fullShare d) ∗ others1 (F := F) c) := by
  unfold Pipeline.scopedRest others1
  rw [bigSep_erase (i := cc1_scratch0) (by decide)]
  simp only [scr1, owns_whole]
  rfl

/-- The proof data of pipeline 1 on core `c`, the input arrays held at the shares `q`. -/
def dat1 (q : Fin 3 → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q := q
  owed _ := 0

theorem A_eq1 (q : Fin 3 → PosShare TreeShare) (c : Dev nD) (w : Fin cfg1.W) : (dat1 V q c).A w = V c (Pipeline.arrRef spec1 w) := by
  dsimp only [dat1]
theorem after1_0 (q : Fin 3 → PosShare TreeShare) (c : Dev nD) (t : Fin cfg1.N) : (dat1 V q c).after 0 t = iblk1 V c 0 t := by dsimp only [dat1]
theorem after1_1 (q : Fin 3 → PosShare TreeShare) (c : Dev nD) (t : Fin cfg1.N) : (dat1 V q c).after 1 t = iblk1 V c 1 t := by dsimp only [dat1]
theorem after1_2 (q : Fin 3 → PosShare TreeShare) (c : Dev nD) (t : Fin cfg1.N) : (dat1 V q c).after 2 t = acc1 V c t.val t.isLt := by dsimp only [dat1]

/-! ## The body's branch conditions, and where the output window is idle -/

/-- The zero offsets of a whole-buffer access, spelt as a constant function. -/
theorem offs1_zero : (![0, 0] : Fin 2 → Nat) = fun _ => 0 := funext fun a => by fin_cases a <;> rfl

/-- The condition of the body's first conditional: the last grid coordinate is 0. -/
abbrev cnd1_a (i : grid1.Coords) : Prop := (Scalar.cmpi .ne (Scalar.extui (Scalar.cmpi .eq (BitVec.ofNat 32 (i 2).val) 0#32)) 0#32) = 1#1
/-- It holds at the points ≡ 0 (mod 8): the last axis is the fastest. -/
theorem hcnd1_a : ∀ t : Fin cfg1.N, cnd1_a (grid1.coords t) ↔ t.val % 8 = 0 :=
  (by decide +kernel : ∀ t : Fin grid1.N, cnd1_a (grid1.coords t) ↔ t.val % 8 = 0)

/-- The condition of the body's second conditional: the last grid coordinate is 7. -/
abbrev cnd1_b (i : grid1.Coords) : Prop := k1_cond2 i = 1#1
/-- It holds at the points ≡ 7 (mod 8). -/
theorem hcnd1_b : ∀ t : Fin cfg1.N, cnd1_b (grid1.coords t) ↔ t.val % 8 = 7 :=
  (by decide +kernel : ∀ t : Fin grid1.N, cnd1_b (grid1.coords t) ↔ t.val % 8 = 7)

/-- The input windows are never idle. -/
theorem live1_0 : ∀ t : Fin cfg1.N, cfg1.idle 0 (grid1.coords t) = false := by decide +kernel
theorem live1_1 : ∀ t : Fin cfg1.N, cfg1.idle 1 (grid1.coords t) = false := by decide +kernel
/-- The output window is idle exactly where the second conditional fails. -/
theorem idle1_2 : ∀ t : Fin cfg1.N, ¬ t.val % 8 = 7 → cfg1.idle 2 (grid1.coords t) = true :=
  (by decide +kernel : ∀ t : Fin grid1.N, ¬ t.val % 8 = 7 → cfg1.idle 2 (grid1.coords t) = true)
theorem live1_2 : ∀ t : Fin cfg1.N, t.val % 8 = 7 → cfg1.idle 2 (grid1.coords t) = false :=
  (by decide +kernel : ∀ t : Fin grid1.N, t.val % 8 = 7 → cfg1.idle 2 (grid1.coords t) = false)
/-- and there it is not written back. -/
theorem noflush1_2 (t : Fin cfg1.N) (h : ¬ t.val % 8 = 7) : (cfg1.win 2).flush t = false := by
  cases hf : (cfg1.win 2).flush t with
  | false => rfl
  | true => exact absurd ((flush1_2 t).mp hf) h

/-! ## The body's triple, case by case -/

set_option maxHeartbeats 1000000 in
/-- At a point whose last coordinate is 0 (and not 7): on whole memrefs, the inputs at `xa`, `xb`, the accumulator at
    anything, the body leaves the inputs as they were and the accumulator at the block product added to zero; the
    output's buffer is not touched. -/
theorem kernel1_first (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hca : cnd1_a i) (hcb : ¬ cnd1_b i) (xa xb : Vec F S1024x1024 .f32) (K : PUnit → sProp 𝕄) :
    iprop(owns (c : Thread nD τ) arg3 fullShare xa ∗ owns (c : Thread nD τ) arg4 fullShare xb ∗ (∃ d, owns (c : Thread nD τ) arg6 fullShare d)
        ∗ (iprop(owns (c : Thread nD τ) arg3 fullShare xa ∗ owns (c : Thread nD τ) arg4 fullShare xb
            ∗ owns (c : Thread nD τ) arg6 fullShare (k1_pay2 xa xb (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%fa, %hfa, Ha⟩, ⟨%fb, %hfb, Hb⟩, ⟨%ds, %fs, -, Hs⟩, Hk⟩
  subst hfa; subst hfb
  sl_exec (disch := first | exact hca | exact hcb)
  sl_step
  iapply Hk
  isplitl [Ha]
  · iexists fa; isplitr; · ipureintro; rfl
    iexact Ha
  isplitl [Hb]
  · iexists fb; isplitr; · ipureintro; rfl
    iexact Hb
  iexists _; isplitr
  swap; · iexact Hs
  ipureintro
  sl_unfold_words
  rw [View.read_writes_eq_canon _ _ _ (fun y => ⟨_, List.mem_cons_self, View.mem_set_unit_zero offs1_zero inb_S1024x1024_S1024x1024_0_0 y⟩)]
  rw [View.canon_cons_unit_zero offs1_zero]
  simp only [View.readAt_eq_ld, View.ld_unit_zero (S := S1024x1024) offs1_zero, View.readCov_unit_zero (S := S1024x1024) _ offs1_zero]

set_option maxHeartbeats 1000000 in
/-- At a point whose last coordinate is neither 0 nor 7: the inputs at `xa`, `xb`, the accumulator at `s`; the body
    leaves the inputs as they were and the accumulator at `s` plus the block product; the output's buffer is not touched. -/
theorem kernel1_mid (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hca : ¬ cnd1_a i) (hcb : ¬ cnd1_b i) (xa xb s : Vec F S1024x1024 .f32) (K : PUnit → sProp 𝕄) :
    iprop(owns (c : Thread nD τ) arg3 fullShare xa ∗ owns (c : Thread nD τ) arg4 fullShare xb ∗ owns (c : Thread nD τ) arg6 fullShare s
        ∗ (iprop(owns (c : Thread nD τ) arg3 fullShare xa ∗ owns (c : Thread nD τ) arg4 fullShare xb
            ∗ owns (c : Thread nD τ) arg6 fullShare (k1_pay2 xa xb s)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%fa, %hfa, Ha⟩, ⟨%fb, %hfb, Hb⟩, ⟨%fs, %hfs, Hs⟩, Hk⟩
  subst hfa; subst hfb; subst hfs
  sl_exec (disch := first | exact hca | exact hcb)
  sl_step
  iapply Hk
  isplitl [Ha]
  · iexists fa; isplitr; · ipureintro; rfl
    iexact Ha
  isplitl [Hb]
  · iexists fb; isplitr; · ipureintro; rfl
    iexact Hb
  iexists _; isplitr
  swap; · iexact Hs
  ipureintro
  sl_unfold_words
  rw [View.read_writes_eq_canon _ _ _ (fun y => ⟨_, List.mem_cons_self, View.mem_set_unit_zero offs1_zero inb_S1024x1024_S1024x1024_0_0 y⟩)]
  rw [View.canon_cons_unit_zero offs1_zero]
  simp only [View.readAt_eq_ld, View.ld_unit_zero (S := S1024x1024) offs1_zero, View.readCov_unit_zero (S := S1024x1024) _ offs1_zero]

set_option maxHeartbeats 1000000 in
/-- At a point whose last coordinate is 7 (and not 0): the inputs at `xa`, `xb`, the accumulator at `s`, the output's
    buffer at anything; the body leaves the inputs as they were and both the accumulator and the output's buffer at `s`
    plus the block product. -/
theorem kernel1_last (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hca : ¬ cnd1_a i) (hcb : cnd1_b i) (xa xb s : Vec F S1024x1024 .f32) (K : PUnit → sProp 𝕄) :
    iprop(owns (c : Thread nD τ) arg3 fullShare xa ∗ owns (c : Thread nD τ) arg4 fullShare xb ∗ (∃ d, owns (c : Thread nD τ) arg5 fullShare d)
        ∗ owns (c : Thread nD τ) arg6 fullShare s
        ∗ (iprop(owns (c : Thread nD τ) arg3 fullShare xa ∗ owns (c : Thread nD τ) arg4 fullShare xb
            ∗ owns (c : Thread nD τ) arg5 fullShare (k1_pay2 xa xb s)
            ∗ owns (c : Thread nD τ) arg6 fullShare (k1_pay2 xa xb s)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%fa, %hfa, Ha⟩, ⟨%fb, %hfb, Hb⟩, ⟨%dz, %fz, -, Hz⟩, ⟨%fs, %hfs, Hs⟩, Hk⟩
  subst hfa; subst hfb; subst hfs
  sl_exec (disch := first | exact hca | exact hcb)
  sl_step
  iapply Hk
  isplitl [Ha]
  · iexists fa; isplitr; · ipureintro; rfl
    iexact Ha
  isplitl [Hb]
  · iexists fb; isplitr; · ipureintro; rfl
    iexact Hb
  isplitl [Hz]
  · iexists _; isplitr
    swap; · iexact Hz
    ipureintro
    sl_unfold_words
    rw [View.read_writes_eq_canon _ _ _ (fun y => ⟨_, List.mem_cons_self, View.mem_set_unit_zero offs1_zero inb_S1024x1024_S1024x1024_0_0 y⟩)]
    rw [View.canon_cons_unit_zero offs1_zero]
    simp only [View.readAt_eq_ld, View.ld_unit_zero (S := S1024x1024) offs1_zero, View.readCov_unit_zero (S := S1024x1024) _ offs1_zero]
  iexists _; isplitr
  swap; · iexact Hs
  ipureintro
  sl_unfold_words
  rw [View.read_writes_eq_canon _ _ _ (fun y => ⟨_, List.mem_cons_self, View.mem_set_unit_zero offs1_zero inb_S1024x1024_S1024x1024_0_0 y⟩)]
  rw [View.canon_cons_unit_zero offs1_zero]
  simp only [View.readAt_eq_ld, View.ld_unit_zero (S := S1024x1024) offs1_zero, View.readCov_unit_zero (S := S1024x1024) _ offs1_zero]

/-! ## The body obligation, at a generic point -/

/-- After point `n` (before point `n + 1`): the accumulator at that point's contents. -/
theorem Phi1_succ (c : Dev nD) (n : ℕ) (hn : n < cfg1.N) :
    Phi1 V c (n + 1) hn = iprop(owns (c : Thread nD τ) scr1 fullShare (acc1 V c n hn) ∗ others1 (F := F) c ∗ (∃ r, prngReg c r)) := rfl

/-- The invariant at a point's start, restated at the point's position. -/
theorem Phi1_castSucc (q : Fin 3 → PosShare TreeShare) (c : Dev nD) (t : Fin cfg1.N) :
    (dat1 V q c).Φ t.castSucc = Phi1 V c t.val (Nat.le_of_lt t.isLt) := by
  dsimp only [dat1]; simp only [Fin.coe_castSucc]

/-- Before the first point the invariant holds the accumulator at anything, beside the other buffers and the register. -/
theorem PhiA1_eq (c : Dev nD) :
    (Pipeline.ΦA spec1 c : sProp 𝕄)
      = iprop(((∃ d, owns (c : Thread nD τ) scr1 fullShare d) ∗ others1 (F := F) c) ∗ (∃ r, prngReg c r)) := by
  unfold Pipeline.ΦA; rw [scopedRest_split1]

/-- Each input's current staging buffer holds its block at every point, fetched there or not: an input window is
    uncut, never idle, and the body leaves its block in place. -/
theorem before1_0 (q : Fin 3 → PosShare TreeShare) (c : Dev nD) (t : Fin cfg1.N) (d) : (dat1 V q c).before 0 t d = iblk1 V c 0 t :=
  ((dat1 V q c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (q : Fin 3 → PosShare TreeShare) (c : Dev nD) (t : Fin cfg1.N) (d) : (dat1 V q c).before 1 t d = iblk1 V c 1 t :=
  ((dat1 V q c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- What the body is called with at point `t`, the windows one by one, -/
def bodyPre1 (q : Fin 3 → PosShare TreeShare) (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d)))

/-- and what it returns. -/
def bodyPost1 (q : Fin 3 → PosShare TreeShare) (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t)

set_option maxHeartbeats 1600000 in
/-- The body at any point: the inputs' buffers hold their blocks; the point's position modulo 8 says which case of the
    body runs; the invariant hands the accumulator over at what the point before left (at anything before the first
    point) and takes it back at this point's value of the recursion; the output's buffer is handed back untouched
    where the window is idle, and at the accumulator's value where the last coordinate is 7. -/
theorem sound_body1 (q : Fin 3 → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).owesAt () t.succ = (dat1 V q c).owesAt () t.castSucc from rfl]
  rw [show (dat1 V q c).Φ t.succ = Phi1 V c (t.val + 1) t.isLt from rfl, Phi1_succ]
  rw [show (dat1 V q c).leavesExact 0 t = owns (c : Thread nD τ) (st1_0 t) fullShare ((dat1 V q c).after 0 t) from by
    unfold Dat.leavesExact; rw [live1_0 t], after1_0]
  rw [show (dat1 V q c).leavesExact 1 t = owns (c : Thread nD τ) (st1_1 t) fullShare ((dat1 V q c).after 1 t) from by
    unfold Dat.leavesExact; rw [live1_1 t], after1_1]
  have hN : t.val < 512 := lt_of_lt_of_eq t.isLt (show cfg1.N = 512 from N_1)
  by_cases hfst : t.val % 8 = 0
  · have h7 : ¬ t.val % 8 = 7 := by omega
    rw [Dat.leavesExact_idle (dat1 V q c) 2 t (idle1_2 t h7) (noflush1_2 t h7), acc1_reset V c t hfst]
    by_cases hz : t.val = 0
    · rw [Phi1_castSucc, Phi1_zero V c _ _ hz, PhiA1_eq]
      iintro ⟨⟨⟨Hs, Hr⟩, Hg⟩, Ho, ⟨%da, Ha⟩, ⟨%db, Hb⟩, Hz⟩
      iapply (kernel1_first c Set.univ (grid1.coords t) _ _ _ _ _ _ _ _ ((hcnd1_a t).mpr hfst) (fun h => h7 ((hcnd1_b t).mp h)) (iblk1 V c 0 t) (iblk1 V c 1 t) _)
      isplitl [Ha]; · iexact Ha
      isplitl [Hb]; · iexact Hb
      isplitl [Hs]; · iexact Hs
      iintro ⟨Ha, Hb, Hs⟩
      isplitl [Hs Hr Hg]
      · isplitl [Hs]; · iexact Hs
        isplitl [Hr]; · iexact Hr
        iexact Hg
      isplitl [Ho]; · iexact Ho
      isplitl [Ha]; · iexact Ha
      isplitl [Hb]; · iexact Hb
      iexact Hz
    · rw [Phi1_castSucc, Phi1_pos V c _ _ hz]
      iintro ⟨⟨Hs, Hr, Hg⟩, Ho, ⟨%da, Ha⟩, ⟨%db, Hb⟩, Hz⟩
      iapply (kernel1_first c Set.univ (grid1.coords t) _ _ _ _ _ _ _ _ ((hcnd1_a t).mpr hfst) (fun h => h7 ((hcnd1_b t).mp h)) (iblk1 V c 0 t) (iblk1 V c 1 t) _)
      isplitl [Ha]; · iexact Ha
      isplitl [Hb]; · iexact Hb
      isplitl [Hs]; · iexists _; iexact Hs
      iintro ⟨Ha, Hb, Hs⟩
      isplitl [Hs Hr Hg]
      · isplitl [Hs]; · iexact Hs
        isplitl [Hr]; · iexact Hr
        iexact Hg
      isplitl [Ho]; · iexact Ho
      isplitl [Ha]; · iexact Ha
      isplitl [Hb]; · iexact Hb
      iexact Hz
  · have hz : t.val ≠ 0 := fun e => hfst (by rw [e])
    rw [acc1_step V c t hfst, Phi1_castSucc, Phi1_pos V c _ _ hz]
    by_cases h7 : t.val % 8 = 7
    · rw [show (dat1 V q c).leavesExact 2 t = owns (c : Thread nD τ) (st1_2 t) fullShare ((dat1 V q c).after 2 t) from by
        unfold Dat.leavesExact; rw [live1_2 t h7], after1_2, acc1_step V c t hfst]
      iintro ⟨⟨Hs, Hr, Hg⟩, Ho, ⟨%da, Ha⟩, ⟨%db, Hb⟩, ⟨%dz, Hz⟩⟩
      iapply (kernel1_last c Set.univ (grid1.coords t) _ _ _ _ _ _ _ _ (fun h => hfst ((hcnd1_a t).mp h)) ((hcnd1_b t).mpr h7) (iblk1 V c 0 t) (iblk1 V c 1 t)
        (acc1 V c (t.val - 1) (Nat.lt_of_le_of_lt (Nat.sub_le _ _) t.isLt)) _)
      isplitl [Ha]; · iexact Ha
      isplitl [Hb]; · iexact Hb
      isplitl [Hz]; · iexists _; iexact Hz
      isplitl [Hs]; · iexact Hs
      iintro ⟨Ha, Hb, Hz, Hs⟩
      isplitl [Hs Hr Hg]
      · isplitl [Hs]; · iexact Hs
        isplitl [Hr]; · iexact Hr
        iexact Hg
      isplitl [Ho]; · iexact Ho
      isplitl [Ha]; · iexact Ha
      isplitl [Hb]; · iexact Hb
      iexact Hz
    · rw [Dat.leavesExact_idle (dat1 V q c) 2 t (idle1_2 t h7) (noflush1_2 t h7)]
      iintro ⟨⟨Hs, Hr, Hg⟩, Ho, ⟨%da, Ha⟩, ⟨%db, Hb⟩, Hz⟩
      iapply (kernel1_mid c Set.univ (grid1.coords t) _ _ _ _ _ _ _ _ (fun h => hfst ((hcnd1_a t).mp h)) (fun h => h7 ((hcnd1_b t).mp h)) (iblk1 V c 0 t) (iblk1 V c 1 t)
        (acc1 V c (t.val - 1) (Nat.lt_of_le_of_lt (Nat.sub_le _ _) t.isLt)) _)
      isplitl [Ha]; · iexact Ha
      isplitl [Hb]; · iexact Hb
      isplitl [Hs]; · iexact Hs
      iintro ⟨Ha, Hb, Hs⟩
      isplitl [Hs Hr Hg]
      · isplitl [Hs]; · iexact Hs
        isplitl [Hr]; · iexact Hr
        iexact Hg
      isplitl [Ho]; · iexact Ho
      isplitl [Ha]; · iexact Ha
      isplitl [Hb]; · iexact Hb
      iexact Hz

/-- The body obligation of pipeline 1, at every point. -/
theorem body_obligation1 (q : Fin 3 → PosShare TreeShare) (c : Dev nD) :
    BodyObligation (dat1 (F := F) V q c) (defs₀ (F := F)) Variants.none () Set.univ := fun t => by
  rw [bigSep_W1, bigSep_W1]
  exact sound_body1 V q c t

/-- What the region is entered with makes the invariant before the first point. -/
theorem hin1 (q : Fin 3 → PosShare TreeShare) (c : Dev nD) :
    (iprop((∃ r, prngReg c r) ∗ Pipeline.scopedRest (Ix := Unit) (Name := ℕ) (U := UR sig nD τ) (Lvl := ℕ) spec1 c) : sProp 𝕄) ⊢ (dat1 V q c).Φ 0 := by
  rw [show (dat1 V q c).Φ 0 = Phi1 V c 0 (Nat.zero_le _) from rfl, Phi1_zero V c 0 _ rfl]
  unfold Pipeline.ΦA
  iintro ⟨Hg, Hs⟩
  isplitl [Hs]; · iexact Hs
  iexact Hg

/-- The invariant after the last point gives the scoped buffers and the generator register back. -/
theorem hout1 (q : Fin 3 → PosShare TreeShare) (c : Dev nD) :
    (dat1 V q c).Φ (Fin.last cfg1.N) ⊢ (iprop((∃ r, prngReg c r) ∗ Pipeline.scopedRest (Ix := Unit) (Name := ℕ) (U := UR sig nD τ) (Lvl := ℕ) spec1 c) : sProp 𝕄) := by
  rw [show (dat1 V q c).Φ (Fin.last cfg1.N) = Phi1 V c (Fin.last cfg1.N).val (Nat.le_of_lt_succ (Fin.last cfg1.N).isLt) from rfl,
    Phi1_pos V c _ _ (by rw [Fin.val_last]; have : cfg1.N = 512 := N_1; omega), scopedRest_split1]
  iintro ⟨Hs, Ho, Hg⟩
  isplitl [Hg]; · iexact Hg
  isplitl [Hs]; · iexists _; iexact Hs
  iexact Ho

end Cert.Kernel.Hand

end
-- ==== Proof.K.Combine.lean ====
import proofs.«127820_j66348654788876_1_alg».proof.Proof.Gen.Kernel.Launch
import proofs.«127820_j66348654788876_1_alg».proof.Proof.Gen.Kernel.Skeleton
import proofs.«127820_j66348654788876_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The recombination (pipeline 2): one pointwise expression of three 512-blocks per grid point -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2 : Rect S512x512 := Rect.unit (s := S512x512) ![0, 0] S512x512.size inb_S512x512_S512x512_0_0

/-- The output block the body leaves at a point with coordinates `i`, from the three input blocks: its one store. -/
def out2_3 (i : grid2.Coords) (x0 x1 x2 : Vec F S512x512 .f32) : Vec F S512x512 .f32 :=
  View.canon [⟨r2, k2_pay1 i (View.ld x0 r2) (View.ld x1 r2) (View.ld x2 r2)⟩]

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (grid2.coords t) (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (grid2.coords t) (iblk2 V c 0 t) (iblk2 V c 1 t) (iblk2 V c 2 t) := by dsimp only [dat2]

/-- Every input window of pipeline 2 is fetched at every point, so whatever its staging buffer held before, the body
    finds the window's block in it. -/
theorem before2_0 (c : Dev nD) (t : Fin cfg2.N) (d) : (dat2 V c).before 0 t d = iblk2 V c 0 t := by
  rw [(dat2 V c).before_fetched 0 t (fetch2_0 t) d]
  unfold Dat.fetched Dat.blockOf iblk2; rw [A_eq2]; try rfl
theorem before2_1 (c : Dev nD) (t : Fin cfg2.N) (d) : (dat2 V c).before 1 t d = iblk2 V c 1 t := by
  rw [(dat2 V c).before_fetched 1 t (fetch2_1 t) d]
  unfold Dat.fetched Dat.blockOf iblk2; rw [A_eq2]; try rfl
theorem before2_2 (c : Dev nD) (t : Fin cfg2.N) (d) : (dat2 V c).before 2 t d = iblk2 V c 2 t := by
  rw [(dat2 V c).before_fetched 2 t (fetch2_2 t) d]
  unfold Dat.fetched Dat.blockOf iblk2; rw [A_eq2]; try rfl

/-- The one store of the body is through the whole-buffer rectangle, which covers every index of the block. -/
theorem cover2_3 (p : Vec F S512x512 .f32) (y : S512x512.Idx) :
    ∃ pc ∈ ([⟨r2, p⟩] : List (View.Piece (Elt F) S512x512 .f32)), y ∈ pc.1.set :=
  View.cover_of_tiled [⟨r2, p⟩] S512x512.size (by rfl) y

set_option maxHeartbeats 1000000 in
/-- The body at any grid coordinates `i`, on whole memrefs: the three inputs at contents `x0 x1 x2` (left as they
    were), the output at anything, which it leaves at `out2_3 i x0 x1 x2`. Three loads, a load of the output whose value
    is dropped, one store. -/
theorem sound_kernel2 (c : Dev nD) (E : Set ℕ) (i : grid2.Coords)
    (arg2 : Memref sig .tc .vmem S512x512 .f32) (harg2 : arg2.IsWhole)
    (arg3 : Memref sig .tc .vmem S512x512 .f32) (harg3 : arg3.IsWhole)
    (arg4 : Memref sig .tc .vmem S512x512 .f32) (harg4 : arg4.IsWhole)
    (arg5 : Memref sig .tc .vmem S512x512 .f32) (harg5 : arg5.IsWhole)
    (x0 x1 x2 : Vec F S512x512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (out2_3 i x0 x1 x2)) -∗ K ⟨⟩))
      ⊢ wp frame (wpE (defs₀ (F := F)) Variants.none c none) E
          (cc2__combine_kernel i arg2 harg2 arg3 harg3 arg4 harg4 arg5 harg5) K := by
  simp only [cc2__combine_kernel_eq_skeleton]; unfold cc2__combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- What the body is called with at point `t`: the invariant, the core's tallies, and the four staging buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: each input buffer holds its window's block, so the kernel's triple applies at the point's
    coordinates; the invariant and the tallies are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 2, at every point. -/
theorem body_obligation2 (c : Dev nD) :
    BodyObligation (dat2 (F := F) V c) (defs₀ (F := F)) Variants.none () Set.univ := fun t => by
  rw [bigSep_W2, bigSep_W2]
  exact sound_body2 V c t

end Cert.Kernel.Hand

end
-- ==== Proof.K.Run.lean ====
import proofs.«127820_j66348654788876_1_alg».proof.Proof.Gen.Kernel.Launch
import proofs.«127820_j66348654788876_1_alg».proof.Proof.Gen.Kernel.Skeleton
import proofs.«127820_j66348654788876_1_alg».proof.Proof.Gen.Kernel.Points
import proofs.«127820_j66348654788876_1_alg».proof.Proof.Gen.Kernel.Regions
import proofs.«127820_j66348654788876_1_alg».proof.Proof.K.Matmul0
import proofs.«127820_j66348654788876_1_alg».proof.Proof.K.Matmul1
import proofs.«127820_j66348654788876_1_alg».proof.Proof.K.Combine
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's four segments (the host stretch, then the three pipelines) from the launch to the return -/

/-- The shares the first product's windows hold their arrays at: its two input windows read ONE array, half each. -/
def q0 : Fin 3 → PosShare TreeShare := fun | 0 => (fullShare : PosShare TreeShare).left | 1 => (fullShare : PosShare TreeShare).right | 2 => fullShare | ⟨_ + 3, h⟩ => absurd h (Nat.not_lt.2 (Nat.le_add_left _ _))
/-- The second product's arrays are distinct: each at the full share. -/
def q1 : Fin 3 → PosShare TreeShare := fun _ => fullShare

/-- Core `c`'s buffers at launch. -/
abbrev W0 : Dev nD → Valuation τ sig (Elt F) := fun c b => m ((c : Dev nD), b)
/-- After the host stretch: the normalized adjacency matrix sits in `main_v45`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first product: `main_v46` at what its write-backs leave, every other buffer as before. -/
def W2 (c : Dev nD) : Valuation τ sig (Elt F) :=
  Function.update (W1 m c) (Proc.devRef .tc main_v46) ((dat0 (V1 m) q0 c).arrAt 2 cfg0.N)
abbrev V2 : (c : Dev nD) → (b : Ref sig .tc) → Buf (Elt F) ((c : Thread nD τ).loc b) := fun c b => W2 m c b
/-- After the second product: `main_v47` at what its write-backs leave. -/
def W3 (c : Dev nD) : Valuation τ sig (Elt F) :=
  Function.update (W2 m c) (Proc.devRef .tc main_v47) ((dat1 (V2 m) q1 c).arrAt 2 cfg1.N)
abbrev V3 : (c : Dev nD) → (b : Ref sig .tc) → Buf (Elt F) ((c : Thread nD τ).loc b) := fun c b => W3 m c b
/-- After the recombination: `main_v48` at what its write-backs leave. -/
def W4 (c : Dev nD) : Valuation τ sig (Elt F) :=
  Function.update (W3 m c) (Proc.devRef .tc main_v48) ((dat2 (V3 m) c).arrAt 3 cfg2.N)

theorem W2_main_v46 (c : Dev nD) : W2 m c (Proc.devRef .tc main_v46) = (dat0 (V1 m) q0 c).arrAt 2 cfg0.N := by
  unfold W2; exact Function.update_self ..
theorem W2_of_ne (c : Dev nD) (b : Ref sig .tc) (hb : b ≠ main_v46) : W2 m c (Proc.devRef .tc b) = W1 m c (Proc.devRef .tc b) := by
  unfold W2; exact Function.update_of_ne (StableHlo.devRef_ne_of_ne hb) ..
theorem W3_main_v47 (c : Dev nD) : W3 m c (Proc.devRef .tc main_v47) = (dat1 (V2 m) q1 c).arrAt 2 cfg1.N := by
  unfold W3; exact Function.update_self ..
theorem W3_of_ne (c : Dev nD) (b : Ref sig .tc) (hb : b ≠ main_v47) : W3 m c (Proc.devRef .tc b) = W2 m c (Proc.devRef .tc b) := by
  unfold W3; exact Function.update_of_ne (StableHlo.devRef_ne_of_ne hb) ..
theorem W4_main_v48 (c : Dev nD) : W4 m c (Proc.devRef .tc main_v48) = (dat2 (V3 m) c).arrAt 3 cfg2.N := by
  unfold W4; exact Function.update_self ..
theorem W4_of_ne (c : Dev nD) (b : Ref sig .tc) (hb : b ≠ main_v48) : W4 m c (Proc.devRef .tc b) = W3 m c (Proc.devRef .tc b) := by
  unfold W4; exact Function.update_of_ne (StableHlo.devRef_ne_of_ne hb) ..

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) q0 c
  | ⟨1, _⟩ => fun c => dat1 (V2 m) q1 c
  | ⟨2, _⟩ => fun c => dat2 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- The thread state at a boundary: every unscoped buffer at the boundary's contents, and the rest. -/
abbrev T (W : Dev nD → Valuation τ sig (Elt F)) (c : Dev nD) : sProp 𝕄 :=
  iprop(StableHlo.held (c : Thread nD τ) (Pipeline.ucRefs τ sig) (W c) ∗ R c)
/-- The host stretch as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
/-- The last thread state without the dues. -/
abbrev Tₙ (c : Dev nD) : sProp 𝕄 := iprop(StableHlo.held (c : Thread nD τ) (Pipeline.ucRefs τ sig) (W4 m c) ∗ ∃ r, prngReg c r)

/-! ## What each region leaves in its arrays, and what it leaves alone -/

/-- At the second product's exit each of its arrays holds what the pipeline leaves: the inputs as entered, the output its write-backs. -/
theorem hF1 (c : Dev nD) : (w : Fin cfg1.W) → (dat1 (V2 m) q1 c).arrAt w cfg1.N = V3 m c (Pipeline.arrRef spec1 w)
  | ⟨0, _⟩ => ((dat1 (V2 m) q1 c).arrAt_in 0 rfl _).trans ((A_eq1 (V2 m) q1 c 0).trans (W3_of_ne m c main_v45 (by decide)).symm)
  | ⟨1, _⟩ => ((dat1 (V2 m) q1 c).arrAt_in 1 rfl _).trans ((A_eq1 (V2 m) q1 c 1).trans (W3_of_ne m c main_v46 (by decide)).symm)
  | ⟨2, _⟩ => (W3_main_v47 m c).symm
/-- Every other buffer holds what it held at the entry. -/
theorem hrest1 (c : Dev nD) : ∀ b, b ∉ Finset.univ.image (Pipeline.arrRef spec1) → V3 m c b = V2 m c b :=
  fun b hb => W3_of_ne m c b fun e => hb (Finset.mem_image.mpr ⟨2, Finset.mem_univ _, e.symm⟩)

/-- The same of the recombination. -/
theorem hF2 (c : Dev nD) : (w : Fin cfg2.W) → (dat2 (V3 m) c).arrAt w cfg2.N = W4 m c (Proc.devRef .tc (Pipeline.arrRef spec2 w))
  | ⟨0, _⟩ => ((dat2 (V3 m) c).arrAt_in 0 rfl _).trans ((A_eq2 (V3 m) c 0).trans (W4_of_ne m c main_v45 (by decide)).symm)
  | ⟨1, _⟩ => ((dat2 (V3 m) c).arrAt_in 1 rfl _).trans ((A_eq2 (V3 m) c 1).trans (W4_of_ne m c main_v46 (by decide)).symm)
  | ⟨2, _⟩ => ((dat2 (V3 m) c).arrAt_in 2 rfl _).trans ((A_eq2 (V3 m) c 2).trans (W4_of_ne m c main_v47 (by decide)).symm)
  | ⟨3, _⟩ => (W4_main_v48 m c).symm
theorem hrest2 (c : Dev nD) : ∀ b : Ref sig .tc, b ∉ Finset.univ.image (Pipeline.arrRef spec2) → W4 m c (Proc.devRef .tc b) = V3 m c b :=
  fun b hb => W4_of_ne m c b fun e => hb (Finset.mem_image.mpr ⟨3, Finset.mem_univ _, e.symm⟩)

/-! ## The first product's arrays: two windows on one buffer -/

/-- The buffers behind the first product's arrays. -/
theorem img0 : Finset.univ.image (Pipeline.arrRef spec0) = ({main_v45, main_v46} : Finset (Ref sig .tc)) := by decide

/-- Those buffers one by one, each whole at the full share. -/
theorem arrBufs0 (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v45) ↦{fullShare} V main_v45) ∗ (((c : Thread nD τ).loc main_v46) ↦{fullShare} V main_v46)) := by
  unfold Pipeline.arrBufs
  rw [img0, bigSep_insert (by decide), bigSep_singleton]
  rfl

/-- The first product's arrays window by window: both input windows on the one buffer, half of it each; the output's whole. -/
theorem arrays0 (V : (c : Dev nD) → (b : Ref sig .tc) → Buf (Elt F) ((c : Thread nD τ).loc b)) (c : Dev nD)
    (G : (w : Fin cfg0.W) → Buf (Elt F) ((cfg0.win w).arr.view.loc (c : Thread nD τ))) :
    ((dat0 V q0 c).arrays G : sProp 𝕄) = iprop((((c : Thread nD τ).loc main_v45) ↦{(fullShare : PosShare TreeShare).left} G 0)
      ∗ (((c : Thread nD τ).loc main_v45) ↦{(fullShare : PosShare TreeShare).right} G 1) ∗ (((c : Thread nD τ).loc main_v46) ↦{fullShare} G 2)) := by
  unfold Dat.arrays
  rw [bigSep_W0, (arr_whole0 0).set_eq_univ, (arr_whole0 2).set_eq_univ]
  rfl

/-- The unscoped buffers at the first product's entry: its arrays' buffers and the rest. -/
theorem held_split0 (c : Dev nD) (W : Valuation τ sig (Elt F)) :
    (StableHlo.held (c : Thread nD τ) (Pipeline.ucRefs τ sig) W : sProp 𝕄)
      = iprop(((((c : Thread nD τ).loc main_v45) ↦{fullShare} W (Proc.devRef .tc main_v45)) ∗ (((c : Thread nD τ).loc main_v46) ↦{fullShare} W (Proc.devRef .tc main_v46)))
        ∗ Pipeline.unscopedRest (Ix := Unit) (Name := ℕ) (U := UR sig nD τ) (Lvl := ℕ) spec0 c (fun b => W b)) := by
  rw [← arrBufs0 c (fun b => W b)]
  exact (Pipeline.unscopedBufs_held c W).symm.trans (Pipeline.unscopedBufs_split₀ cfgs 0 winFacts₀0.arr_unscoped c (fun b => W b))

/-- ENTRY of the first product: the one input buffer's full share is split between the two windows that read it. -/
theorem entry0 (c : Dev nD) : (StableHlo.held (c : Thread nD τ) (Pipeline.ucRefs τ sig) (W1 m c) : sProp 𝕄)
    ⊢ iprop((dat0 (V1 m) q0 c).arrays ((dat0 (V1 m) q0 c).arrAt · 0)
        ∗ Pipeline.unscopedRest (Ix := Unit) (Name := ℕ) (U := UR sig nD τ) (Lvl := ℕ) spec0 c (V1 m c)) := by
  rw [held_split0, arrays0]
  iintro ⟨⟨H45, H46⟩, Hrest⟩
  ihave H := (pointsTo_share (PosShare.mem_left_op_right fullShare)).1 $$ H45
  icases H with ⟨Hl, Hr⟩
  isplitr [Hrest]
  · isplitl [Hl]; · iexact Hl
    isplitl [Hr]; · iexact Hr
    iexact H46
  iexact Hrest

/-- EXIT of the first product: the halves joined back, the output's buffer at what the write-backs leave. -/
theorem exit0 (c : Dev nD) : iprop((dat0 (V1 m) q0 c).arrays ((dat0 (V1 m) q0 c).arrAt · cfg0.N)
        ∗ Pipeline.unscopedRest (Ix := Unit) (Name := ℕ) (U := UR sig nD τ) (Lvl := ℕ) spec0 c (V1 m c))
    ⊢ (StableHlo.held (c : Thread nD τ) (Pipeline.ucRefs τ sig) (W2 m c) : sProp 𝕄) := by
  have h0 : (dat0 (V1 m) q0 c).arrAt 0 cfg0.N = W2 m c (Proc.devRef .tc main_v45) :=
    ((dat0 (V1 m) q0 c).arrAt_in 0 rfl _).trans ((A_eq0 (V1 m) q0 c 0).trans (W2_of_ne m c main_v45 (by decide)).symm)
  have h1 : (dat0 (V1 m) q0 c).arrAt 1 cfg0.N = W2 m c (Proc.devRef .tc main_v45) :=
    ((dat0 (V1 m) q0 c).arrAt_in 1 rfl _).trans ((A_eq0 (V1 m) q0 c 1).trans (W2_of_ne m c main_v45 (by decide)).symm)
  have h2 : (dat0 (V1 m) q0 c).arrAt 2 cfg0.N = W2 m c (Proc.devRef .tc main_v46) := (W2_main_v46 m c).symm
  have hr : (Pipeline.unscopedRest (Ix := Unit) (Name := ℕ) (U := UR sig nD τ) (Lvl := ℕ) spec0 c (V1 m c) : sProp 𝕄)
      = Pipeline.unscopedRest spec0 c (fun b => W2 m c b) := by
    unfold Pipeline.unscopedRest
    exact bigSep_congr fun b hb => by
      beta_reduce
      rw [show W2 m c (Proc.devRef .tc b) = W1 m c (Proc.devRef .tc b) from
        W2_of_ne m c b fun e => (Finset.mem_sdiff.mp hb).2 (Finset.mem_image.mpr ⟨2, Finset.mem_univ _, e.symm⟩)]
  rw [held_split0, arrays0, h0, h1, h2, hr]
  iintro ⟨⟨Hl, Hr, H46⟩, Hrest⟩
  isplitr [Hrest]
  · isplitl [Hl Hr]
    · iapply (pointsTo_share (PosShare.mem_left_op_right fullShare)).2
      isplitl [Hl]; · iexact Hl
      iexact Hr
    iexact H46
  iexact Hrest

/-! ## The regions as segments -/

set_option backward.isDefEq.respectTransparency.types false in
/-- The first product over the thread state: entered from every unscoped buffer at W1, left at W2. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) q0 c).loose
  hwaits := Pipeline.hwaits_of_owed_zero _ _ _ _ L lv 0 fun _ _ => rfl
  pre c := T (W1 m) c
  post c := T (W2 m) c
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) q0 c)
    iintro ⟨Hp, -, Hr⟩
    isplitl [Hp]; · iexact Hp
    iexact Hr
  hout c := by
    rw [Pipeline.ownSems0_none]
    refine (hout0 (V1 m) q0 c).trans ?_
    iintro ⟨Hp, Hr⟩
    isplitl [Hp]; · iexact Hp
    isplitr; · iempintro
    iexact Hr
  hexit c := by
    iintro ⟨Ha, HO, HY, Hrest⟩
    imodintro
    isplitl [Ha Hrest]
    · iapply (exit0 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second product over the thread state: entered from every unscoped buffer at W2, left at W3. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) q1 c).loose
  hwaits := Pipeline.hwaits_of_owed_zero _ _ _ _ L lv 1 fun _ _ => rfl
  pre c := T (W2 m) c
  post c := T (W3 m) c
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) q1 c)
    iintro ⟨Hp, -, Hr⟩
    isplitl [Hp]; · iexact Hp
    iexact Hr
  hout c := by
    rw [Pipeline.ownSems0_none]
    refine (hout1 (V2 m) q1 c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The recombination over the thread state: entered from every unscoped buffer at W3, left at W4. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := T (W3 m) c
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (fun b => W4 m c (Proc.devRef .tc b)) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: the host stretch from the launch contents, then a region per pipeline. -/
abbrev segs : List (Pipeline.Seg (pcfgs (F := F)) adm (pdats m) () defs₀ 𝒱₀ L lv) :=
  [ .host (hseg0 m), .region (reg0 m), .region (reg1 m), .region (reg2 m) ]
/-- @main is the run of the segments. -/
theorem main_run (c : Dev nD) : main (F := F) c = Pipeline.Seg.run (segs m) := (main_chain c).trans (by chain_rfl)

/-- THE RUN: from any memory with zero counters every weakly fair execution of @main terminates, nothing faulting, and
    the final memory holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.K.Frame.lean ====
import proofs.«127820_j66348654788876_1_alg».proof.Proof.Gen.Kernel.Regions
import proofs.«127820_j66348654788876_1_alg».proof.Proof.K.Run

set_option maxRecDepth 16384

noncomputable section

/-! # The frame: no item of @main writes an argument

The run leaves every unscoped buffer at the last boundary's contents; an argument is written by no host operation
and by no pipeline, so it is read there as launched. -/

namespace Cert.Kernel.Hand

open Cert.Kernel Cert.Kernel.Gen Idealize.ShloMosaic Idealize.ShloMosaic.TcCoe Idealize.SL.Sem

variable {F : FTy → Type} [FloatOps F]
variable (m : (ℓ : Loc nD τ sig) → Buf (Elt F) ℓ)

/-- A buffer no host operation and no pipeline writes ends as launched. -/
theorem W4_kept (c : Dev nD) (r : Ref sig .tc) (h46 : r ≠ main_v46) (h47 : r ≠ main_v47) (h48 : r ≠ main_v48)
    (hW : r ∉ (hostOps0_W : List (Ref sig .tc))) :
    W4 m c (Proc.devRef .tc r) = m ((c : Thread nD τ).loc r) :=
  (W4_of_ne m c r h48).trans <| (W3_of_ne m c r h47).trans <| (W2_of_ne m c r h46).trans <|
    StableHlo.after_of_writes_sub hostOps0 _ hostOps0_writes hW

/-- THE FRAME at any instance: every weakly fair execution terminates, nothing faulting, the arguments as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide))⟩)
    (run_all m ρ)

end Cert.Kernel.Hand

end
-- ==== Proof.KI.Matmul0.lean ====
import proofs.«127820_j66348654788876_1_alg».proof.Proof.Gen.KernelIdeal.Launch
import proofs.«127820_j66348654788876_1_alg».proof.Proof.Gen.KernelIdeal.Skeleton
import proofs.«127820_j66348654788876_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The first matrix product (pipeline 0): a 1024-block product accumulated over the grid's last axis -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`: at a point whose last coordinate is 0 the block product added to the zero
    vector, elsewhere added to what the point before left. -/
def acc0 (c : Dev nD) : (n : ℕ) → n < cfg0.N → Vec F S1024x1024 .f32
  | 0, hn => k0_pay2 (iblk0 V c 0 ⟨0, hn⟩) (iblk0 V c 1 ⟨0, hn⟩) (k0_pay1 (F := F))
  | n + 1, hn =>
    if (n + 1) % 8 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_reset (c : Dev nD) (t : Fin cfg0.N) (h : t.val % 8 = 0) :
    acc0 V c t.val t.isLt = k0_pay2 (iblk0 V c 0 t) (iblk0 V c 1 t) (k0_pay1 (F := F)) := by
  obtain ⟨n, hn⟩ := t
  cases n with
  | zero => rfl
  | succ n => exact if_pos h

theorem acc0_step (c : Dev nD) (t : Fin cfg0.N) (h : ¬ t.val % 8 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-- The accumulator buffer of this pipeline. -/
abbrev scr0 : Memref sig .tc .vmem S1024x1024 .f32 := Memref.whole cc0_scratch0

/-- The scoped buffers that are neither a staging buffer of this pipeline nor its accumulator, each whole at some contents. -/
def others0 (c : Dev nD) : sProp 𝕄 :=
  bigSep ((((Finset.univ.filter fun b : Ref sig .tc => b.isScoped) \ Finset.univ.image (Pipeline.stageRef spec0))).erase cc0_scratch0)
    fun b => iprop(∃ f : Buf (Elt F) ((c : Thread nD τ).loc b), ((c : Thread nD τ).loc b) ↦{fullShare} f)

/-- The invariant before position `n`: before the first point every scoped buffer the pipeline does not stage at anything
    and the generator register at some state; afterwards the accumulator at what the point before left. -/
def Phi0 (c : Dev nD) : (n : ℕ) → n ≤ cfg0.N → sProp 𝕄
  | 0, _ => Pipeline.ΦA spec0 c
  | n + 1, hn => iprop(owns (c : Thread nD τ) scr0 fullShare (acc0 V c n hn) ∗ others0 (F := F) c ∗ (∃ r, prngReg c r))

theorem Phi0_zero (c : Dev nD) (n : ℕ) (h : n ≤ cfg0.N) (hz : n = 0) : Phi0 V c n h = Pipeline.ΦA spec0 c := by
  subst hz; rfl

/-- Before a point that is not the first: the accumulator at what the point before left. -/
theorem Phi0_pos (c : Dev nD) (n : ℕ) (h : n ≤ cfg0.N) (hz : n ≠ 0) :
    Phi0 V c n h = iprop(owns (c : Thread nD τ) scr0 fullShare (acc0 V c (n - 1) (by omega)) ∗ others0 (F := F) c ∗ (∃ r, prngReg c r)) := by
  cases n with
  | zero => exact absurd rfl hz
  | succ n => rfl

/-- The scoped rest is the accumulator buffer at some contents and the other buffers. -/
theorem scopedRest_split0 (c : Dev nD) :
    (Pipeline.scopedRest (Ix := Unit) (Name := ℕ) (U := UR sig nD τ) (Lvl := ℕ) spec0 c : sProp 𝕄)
      = iprop((∃ d, owns (c : Thread nD τ) scr0 fullShare d) ∗ others0 (F := F) c) := by
  unfold Pipeline.scopedRest others0
  rw [bigSep_erase (i := cc0_scratch0) (by decide)]
  simp only [scr0, owns_whole]
  rfl

/-- The proof data of pipeline 0 on core `c`, the input arrays held at the shares `q`. -/
def dat0 (q : Fin 3 → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := Phi0 V c t.val (Nat.le_of_lt_succ t.isLt)
  q := q
  owed _ := 0

theorem A_eq0 (q : Fin 3 → PosShare TreeShare) (c : Dev nD) (w : Fin cfg0.W) : (dat0 V q c).A w = V c (Pipeline.arrRef spec0 w) := by
  dsimp only [dat0]
theorem after0_0 (q : Fin 3 → PosShare TreeShare) (c : Dev nD) (t : Fin cfg0.N) : (dat0 V q c).after 0 t = iblk0 V c 0 t := by dsimp only [dat0]
theorem after0_1 (q : Fin 3 → PosShare TreeShare) (c : Dev nD) (t : Fin cfg0.N) : (dat0 V q c).after 1 t = iblk0 V c 1 t := by dsimp only [dat0]
theorem after0_2 (q : Fin 3 → PosShare TreeShare) (c : Dev nD) (t : Fin cfg0.N) : (dat0 V q c).after 2 t = acc0 V c t.val t.isLt := by dsimp only [dat0]

/-! ## The body's branch conditions, and where the output window is idle -/

/-- The zero offsets of a whole-buffer access, spelt as a constant function. -/
theorem offs0_zero : (![0, 0] : Fin 2 → Nat) = fun _ => 0 := funext fun a => by fin_cases a <;> rfl

/-- The condition of the body's first conditional: the last grid coordinate is 0. -/
abbrev cnd0_a (i : grid0.Coords) : Prop := (Scalar.cmpi .ne (Scalar.extui (Scalar.cmpi .eq (BitVec.ofNat 32 (i 2).val) 0#32)) 0#32) = 1#1
/-- It holds at the points ≡ 0 (mod 8): the last axis is the fastest. -/
theorem hcnd0_a : ∀ t : Fin cfg0.N, cnd0_a (grid0.coords t) ↔ t.val % 8 = 0 :=
  (by decide +kernel : ∀ t : Fin grid0.N, cnd0_a (grid0.coords t) ↔ t.val % 8 = 0)

/-- The condition of the body's second conditional: the last grid coordinate is 7. -/
abbrev cnd0_b (i : grid0.Coords) : Prop := k0_cond2 i = 1#1
/-- It holds at the points ≡ 7 (mod 8). -/
theorem hcnd0_b : ∀ t : Fin cfg0.N, cnd0_b (grid0.coords t) ↔ t.val % 8 = 7 :=
  (by decide +kernel : ∀ t : Fin grid0.N, cnd0_b (grid0.coords t) ↔ t.val % 8 = 7)

/-- The input windows are never idle. -/
theorem live0_0 : ∀ t : Fin cfg0.N, cfg0.idle 0 (grid0.coords t) = false := by decide +kernel
theorem live0_1 : ∀ t : Fin cfg0.N, cfg0.idle 1 (grid0.coords t) = false := by decide +kernel
/-- The output window is idle exactly where the second conditional fails. -/
theorem idle0_2 : ∀ t : Fin cfg0.N, ¬ t.val % 8 = 7 → cfg0.idle 2 (grid0.coords t) = true :=
  (by decide +kernel : ∀ t : Fin grid0.N, ¬ t.val % 8 = 7 → cfg0.idle 2 (grid0.coords t) = true)
theorem live0_2 : ∀ t : Fin cfg0.N, t.val % 8 = 7 → cfg0.idle 2 (grid0.coords t) = false :=
  (by decide +kernel : ∀ t : Fin grid0.N, t.val % 8 = 7 → cfg0.idle 2 (grid0.coords t) = false)
/-- and there it is not written back. -/
theorem noflush0_2 (t : Fin cfg0.N) (h : ¬ t.val % 8 = 7) : (cfg0.win 2).flush t = false := by
  cases hf : (cfg0.win 2).flush t with
  | false => rfl
  | true => exact absurd ((flush0_2 t).mp hf) h

/-! ## The body's triple, case by case -/

set_option maxHeartbeats 1000000 in
/-- At a point whose last coordinate is 0 (and not 7): on whole memrefs, the inputs at `xa`, `xb`, the accumulator at
    anything, the body leaves the inputs as they were and the accumulator at the block product added to zero; the
    output's buffer is not touched. -/
theorem kernel0_first (c : Dev nD) (E : Set ℕ) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hca : cnd0_a i) (hcb : ¬ cnd0_b i) (xa xb : Vec F S1024x1024 .f32) (K : PUnit → sProp 𝕄) :
    iprop(owns (c : Thread nD τ) arg3 fullShare xa ∗ owns (c : Thread nD τ) arg4 fullShare xb ∗ (∃ d, owns (c : Thread nD τ) arg6 fullShare d)
        ∗ (iprop(owns (c : Thread nD τ) arg3 fullShare xa ∗ owns (c : Thread nD τ) arg4 fullShare xb
            ∗ owns (c : Thread nD τ) arg6 fullShare (k0_pay2 xa xb (k0_pay1 (F := F)))) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%fa, %hfa, Ha⟩, ⟨%fb, %hfb, Hb⟩, ⟨%ds, %fs, -, Hs⟩, Hk⟩
  subst hfa; subst hfb
  sl_exec (disch := first | exact hca | exact hcb)
  sl_step
  iapply Hk
  isplitl [Ha]
  · iexists fa; isplitr; · ipureintro; rfl
    iexact Ha
  isplitl [Hb]
  · iexists fb; isplitr; · ipureintro; rfl
    iexact Hb
  iexists _; isplitr
  swap; · iexact Hs
  ipureintro
  sl_unfold_words
  rw [View.read_writes_eq_canon _ _ _ (fun y => ⟨_, List.mem_cons_self, View.mem_set_unit_zero offs0_zero inb_S1024x1024_S1024x1024_0_0 y⟩)]
  rw [View.canon_cons_unit_zero offs0_zero]
  simp only [View.readAt_eq_ld, View.ld_unit_zero (S := S1024x1024) offs0_zero, View.readCov_unit_zero (S := S1024x1024) _ offs0_zero]

set_option maxHeartbeats 1000000 in
/-- At a point whose last coordinate is neither 0 nor 7: the inputs at `xa`, `xb`, the accumulator at `s`; the body
    leaves the inputs as they were and the accumulator at `s` plus the block product; the output's buffer is not touched. -/
theorem kernel0_mid (c : Dev nD) (E : Set ℕ) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hca : ¬ cnd0_a i) (hcb : ¬ cnd0_b i) (xa xb s : Vec F S1024x1024 .f32) (K : PUnit → sProp 𝕄) :
    iprop(owns (c : Thread nD τ) arg3 fullShare xa ∗ owns (c : Thread nD τ) arg4 fullShare xb ∗ owns (c : Thread nD τ) arg6 fullShare s
        ∗ (iprop(owns (c : Thread nD τ) arg3 fullShare xa ∗ owns (c : Thread nD τ) arg4 fullShare xb
            ∗ owns (c : Thread nD τ) arg6 fullShare (k0_pay2 xa xb s)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%fa, %hfa, Ha⟩, ⟨%fb, %hfb, Hb⟩, ⟨%fs, %hfs, Hs⟩, Hk⟩
  subst hfa; subst hfb; subst hfs
  sl_exec (disch := first | exact hca | exact hcb)
  sl_step
  iapply Hk
  isplitl [Ha]
  · iexists fa; isplitr; · ipureintro; rfl
    iexact Ha
  isplitl [Hb]
  · iexists fb; isplitr; · ipureintro; rfl
    iexact Hb
  iexists _; isplitr
  swap; · iexact Hs
  ipureintro
  sl_unfold_words
  rw [View.read_writes_eq_canon _ _ _ (fun y => ⟨_, List.mem_cons_self, View.mem_set_unit_zero offs0_zero inb_S1024x1024_S1024x1024_0_0 y⟩)]
  rw [View.canon_cons_unit_zero offs0_zero]
  simp only [View.readAt_eq_ld, View.ld_unit_zero (S := S1024x1024) offs0_zero, View.readCov_unit_zero (S := S1024x1024) _ offs0_zero]

set_option maxHeartbeats 1000000 in
/-- At a point whose last coordinate is 7 (and not 0): the inputs at `xa`, `xb`, the accumulator at `s`, the output's
    buffer at anything; the body leaves the inputs as they were and both the accumulator and the output's buffer at `s`
    plus the block product. -/
theorem kernel0_last (c : Dev nD) (E : Set ℕ) (i : grid0.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hca : ¬ cnd0_a i) (hcb : cnd0_b i) (xa xb s : Vec F S1024x1024 .f32) (K : PUnit → sProp 𝕄) :
    iprop(owns (c : Thread nD τ) arg3 fullShare xa ∗ owns (c : Thread nD τ) arg4 fullShare xb ∗ (∃ d, owns (c : Thread nD τ) arg5 fullShare d)
        ∗ owns (c : Thread nD τ) arg6 fullShare s
        ∗ (iprop(owns (c : Thread nD τ) arg3 fullShare xa ∗ owns (c : Thread nD τ) arg4 fullShare xb
            ∗ owns (c : Thread nD τ) arg5 fullShare (k0_pay2 xa xb s)
            ∗ owns (c : Thread nD τ) arg6 fullShare (k0_pay2 xa xb s)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%fa, %hfa, Ha⟩, ⟨%fb, %hfb, Hb⟩, ⟨%dz, %fz, -, Hz⟩, ⟨%fs, %hfs, Hs⟩, Hk⟩
  subst hfa; subst hfb; subst hfs
  sl_exec (disch := first | exact hca | exact hcb)
  sl_step
  iapply Hk
  isplitl [Ha]
  · iexists fa; isplitr; · ipureintro; rfl
    iexact Ha
  isplitl [Hb]
  · iexists fb; isplitr; · ipureintro; rfl
    iexact Hb
  isplitl [Hz]
  · iexists _; isplitr
    swap; · iexact Hz
    ipureintro
    sl_unfold_words
    rw [View.read_writes_eq_canon _ _ _ (fun y => ⟨_, List.mem_cons_self, View.mem_set_unit_zero offs0_zero inb_S1024x1024_S1024x1024_0_0 y⟩)]
    rw [View.canon_cons_unit_zero offs0_zero]
    simp only [View.readAt_eq_ld, View.ld_unit_zero (S := S1024x1024) offs0_zero, View.readCov_unit_zero (S := S1024x1024) _ offs0_zero]
  iexists _; isplitr
  swap; · iexact Hs
  ipureintro
  sl_unfold_words
  rw [View.read_writes_eq_canon _ _ _ (fun y => ⟨_, List.mem_cons_self, View.mem_set_unit_zero offs0_zero inb_S1024x1024_S1024x1024_0_0 y⟩)]
  rw [View.canon_cons_unit_zero offs0_zero]
  simp only [View.readAt_eq_ld, View.ld_unit_zero (S := S1024x1024) offs0_zero, View.readCov_unit_zero (S := S1024x1024) _ offs0_zero]

/-! ## The body obligation, at a generic point -/

/-- After point `n` (before point `n + 1`): the accumulator at that point's contents. -/
theorem Phi0_succ (c : Dev nD) (n : ℕ) (hn : n < cfg0.N) :
    Phi0 V c (n + 1) hn = iprop(owns (c : Thread nD τ) scr0 fullShare (acc0 V c n hn) ∗ others0 (F := F) c ∗ (∃ r, prngReg c r)) := rfl

/-- The invariant at a point's start, restated at the point's position. -/
theorem Phi0_castSucc (q : Fin 3 → PosShare TreeShare) (c : Dev nD) (t : Fin cfg0.N) :
    (dat0 V q c).Φ t.castSucc = Phi0 V c t.val (Nat.le_of_lt t.isLt) := by
  dsimp only [dat0]; simp only [Fin.coe_castSucc]

/-- Before the first point the invariant holds the accumulator at anything, beside the other buffers and the register. -/
theorem PhiA0_eq (c : Dev nD) :
    (Pipeline.ΦA spec0 c : sProp 𝕄)
      = iprop(((∃ d, owns (c : Thread nD τ) scr0 fullShare d) ∗ others0 (F := F) c) ∗ (∃ r, prngReg c r)) := by
  unfold Pipeline.ΦA; rw [scopedRest_split0]

/-- Each input's current staging buffer holds its block at every point, fetched there or not: an input window is
    uncut, never idle, and the body leaves its block in place. -/
theorem before0_0 (q : Fin 3 → PosShare TreeShare) (c : Dev nD) (t : Fin cfg0.N) (d) : (dat0 V q c).before 0 t d = iblk0 V c 0 t :=
  ((dat0 V q c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (q : Fin 3 → PosShare TreeShare) (c : Dev nD) (t : Fin cfg0.N) (d) : (dat0 V q c).before 1 t d = iblk0 V c 1 t :=
  ((dat0 V q c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- What the body is called with at point `t`, the windows one by one, -/
def bodyPre0 (q : Fin 3 → PosShare TreeShare) (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d)))

/-- and what it returns. -/
def bodyPost0 (q : Fin 3 → PosShare TreeShare) (c : Dev nD) (t : Fin cfg0.N) : sProp 𝕄 :=
  iprop((dat0 V q c).Φ t.succ ∗ (dat0 V q c).owesAt () t.succ
    ∗ (dat0 V q c).leavesExact 0 t
    ∗ (dat0 V q c).leavesExact 1 t
    ∗ (dat0 V q c).leavesExact 2 t)

set_option maxHeartbeats 1600000 in
/-- The body at any point: the inputs' buffers hold their blocks; the point's position modulo 8 says which case of the
    body runs; the invariant hands the accumulator over at what the point before left (at anything before the first
    point) and takes it back at this point's value of the recursion; the output's buffer is handed back untouched
    where the window is idle, and at the accumulator's value where the last coordinate is 7. -/
theorem sound_body0 (q : Fin 3 → PosShare TreeShare) (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1]
  rw [show (dat0 V q c).owesAt () t.succ = (dat0 V q c).owesAt () t.castSucc from rfl]
  rw [show (dat0 V q c).Φ t.succ = Phi0 V c (t.val + 1) t.isLt from rfl, Phi0_succ]
  rw [show (dat0 V q c).leavesExact 0 t = owns (c : Thread nD τ) (st0_0 t) fullShare ((dat0 V q c).after 0 t) from by
    unfold Dat.leavesExact; rw [live0_0 t], after0_0]
  rw [show (dat0 V q c).leavesExact 1 t = owns (c : Thread nD τ) (st0_1 t) fullShare ((dat0 V q c).after 1 t) from by
    unfold Dat.leavesExact; rw [live0_1 t], after0_1]
  have hN : t.val < 512 := lt_of_lt_of_eq t.isLt (show cfg0.N = 512 from N_0)
  by_cases hfst : t.val % 8 = 0
  · have h7 : ¬ t.val % 8 = 7 := by omega
    rw [Dat.leavesExact_idle (dat0 V q c) 2 t (idle0_2 t h7) (noflush0_2 t h7), acc0_reset V c t hfst]
    by_cases hz : t.val = 0
    · rw [Phi0_castSucc, Phi0_zero V c _ _ hz, PhiA0_eq]
      iintro ⟨⟨⟨Hs, Hr⟩, Hg⟩, Ho, ⟨%da, Ha⟩, ⟨%db, Hb⟩, Hz⟩
      iapply (kernel0_first c Set.univ (grid0.coords t) _ _ _ _ _ _ _ _ ((hcnd0_a t).mpr hfst) (fun h => h7 ((hcnd0_b t).mp h)) (iblk0 V c 0 t) (iblk0 V c 1 t) _)
      isplitl [Ha]; · iexact Ha
      isplitl [Hb]; · iexact Hb
      isplitl [Hs]; · iexact Hs
      iintro ⟨Ha, Hb, Hs⟩
      isplitl [Hs Hr Hg]
      · isplitl [Hs]; · iexact Hs
        isplitl [Hr]; · iexact Hr
        iexact Hg
      isplitl [Ho]; · iexact Ho
      isplitl [Ha]; · iexact Ha
      isplitl [Hb]; · iexact Hb
      iexact Hz
    · rw [Phi0_castSucc, Phi0_pos V c _ _ hz]
      iintro ⟨⟨Hs, Hr, Hg⟩, Ho, ⟨%da, Ha⟩, ⟨%db, Hb⟩, Hz⟩
      iapply (kernel0_first c Set.univ (grid0.coords t) _ _ _ _ _ _ _ _ ((hcnd0_a t).mpr hfst) (fun h => h7 ((hcnd0_b t).mp h)) (iblk0 V c 0 t) (iblk0 V c 1 t) _)
      isplitl [Ha]; · iexact Ha
      isplitl [Hb]; · iexact Hb
      isplitl [Hs]; · iexists _; iexact Hs
      iintro ⟨Ha, Hb, Hs⟩
      isplitl [Hs Hr Hg]
      · isplitl [Hs]; · iexact Hs
        isplitl [Hr]; · iexact Hr
        iexact Hg
      isplitl [Ho]; · iexact Ho
      isplitl [Ha]; · iexact Ha
      isplitl [Hb]; · iexact Hb
      iexact Hz
  · have hz : t.val ≠ 0 := fun e => hfst (by rw [e])
    rw [acc0_step V c t hfst, Phi0_castSucc, Phi0_pos V c _ _ hz]
    by_cases h7 : t.val % 8 = 7
    · rw [show (dat0 V q c).leavesExact 2 t = owns (c : Thread nD τ) (st0_2 t) fullShare ((dat0 V q c).after 2 t) from by
        unfold Dat.leavesExact; rw [live0_2 t h7], after0_2, acc0_step V c t hfst]
      iintro ⟨⟨Hs, Hr, Hg⟩, Ho, ⟨%da, Ha⟩, ⟨%db, Hb⟩, ⟨%dz, Hz⟩⟩
      iapply (kernel0_last c Set.univ (grid0.coords t) _ _ _ _ _ _ _ _ (fun h => hfst ((hcnd0_a t).mp h)) ((hcnd0_b t).mpr h7) (iblk0 V c 0 t) (iblk0 V c 1 t)
        (acc0 V c (t.val - 1) (Nat.lt_of_le_of_lt (Nat.sub_le _ _) t.isLt)) _)
      isplitl [Ha]; · iexact Ha
      isplitl [Hb]; · iexact Hb
      isplitl [Hz]; · iexists _; iexact Hz
      isplitl [Hs]; · iexact Hs
      iintro ⟨Ha, Hb, Hz, Hs⟩
      isplitl [Hs Hr Hg]
      · isplitl [Hs]; · iexact Hs
        isplitl [Hr]; · iexact Hr
        iexact Hg
      isplitl [Ho]; · iexact Ho
      isplitl [Ha]; · iexact Ha
      isplitl [Hb]; · iexact Hb
      iexact Hz
    · rw [Dat.leavesExact_idle (dat0 V q c) 2 t (idle0_2 t h7) (noflush0_2 t h7)]
      iintro ⟨⟨Hs, Hr, Hg⟩, Ho, ⟨%da, Ha⟩, ⟨%db, Hb⟩, Hz⟩
      iapply (kernel0_mid c Set.univ (grid0.coords t) _ _ _ _ _ _ _ _ (fun h => hfst ((hcnd0_a t).mp h)) (fun h => h7 ((hcnd0_b t).mp h)) (iblk0 V c 0 t) (iblk0 V c 1 t)
        (acc0 V c (t.val - 1) (Nat.lt_of_le_of_lt (Nat.sub_le _ _) t.isLt)) _)
      isplitl [Ha]; · iexact Ha
      isplitl [Hb]; · iexact Hb
      isplitl [Hs]; · iexact Hs
      iintro ⟨Ha, Hb, Hs⟩
      isplitl [Hs Hr Hg]
      · isplitl [Hs]; · iexact Hs
        isplitl [Hr]; · iexact Hr
        iexact Hg
      isplitl [Ho]; · iexact Ho
      isplitl [Ha]; · iexact Ha
      isplitl [Hb]; · iexact Hb
      iexact Hz

/-- The body obligation of pipeline 0, at every point. -/
theorem body_obligation0 (q : Fin 3 → PosShare TreeShare) (c : Dev nD) :
    BodyObligation (dat0 (F := F) V q c) (defs₀ (F := F)) Variants.none () Set.univ := fun t => by
  rw [bigSep_W0, bigSep_W0]
  exact sound_body0 V q c t

/-- What the region is entered with makes the invariant before the first point. -/
theorem hin0 (q : Fin 3 → PosShare TreeShare) (c : Dev nD) :
    (iprop((∃ r, prngReg c r) ∗ Pipeline.scopedRest (Ix := Unit) (Name := ℕ) (U := UR sig nD τ) (Lvl := ℕ) spec0 c) : sProp 𝕄) ⊢ (dat0 V q c).Φ 0 := by
  rw [show (dat0 V q c).Φ 0 = Phi0 V c 0 (Nat.zero_le _) from rfl, Phi0_zero V c 0 _ rfl]
  unfold Pipeline.ΦA
  iintro ⟨Hg, Hs⟩
  isplitl [Hs]; · iexact Hs
  iexact Hg

/-- The invariant after the last point gives the scoped buffers and the generator register back. -/
theorem hout0 (q : Fin 3 → PosShare TreeShare) (c : Dev nD) :
    (dat0 V q c).Φ (Fin.last cfg0.N) ⊢ (iprop((∃ r, prngReg c r) ∗ Pipeline.scopedRest (Ix := Unit) (Name := ℕ) (U := UR sig nD τ) (Lvl := ℕ) spec0 c) : sProp 𝕄) := by
  rw [show (dat0 V q c).Φ (Fin.last cfg0.N) = Phi0 V c (Fin.last cfg0.N).val (Nat.le_of_lt_succ (Fin.last cfg0.N).isLt) from rfl,
    Phi0_pos V c _ _ (by rw [Fin.val_last]; have : cfg0.N = 512 := N_0; omega), scopedRest_split0]
  iintro ⟨Hs, Ho, Hg⟩
  isplitl [Hg]; · iexact Hg
  isplitl [Hs]; · iexists _; iexact Hs
  iexact Ho

end Cert.KernelIdeal.Hand

end
-- ==== Proof.KI.Matmul1.lean ====
import proofs.«127820_j66348654788876_1_alg».proof.Proof.Gen.KernelIdeal.Launch
import proofs.«127820_j66348654788876_1_alg».proof.Proof.Gen.KernelIdeal.Skeleton
import proofs.«127820_j66348654788876_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The second matrix product (pipeline 1): a 1024-block product accumulated over the grid's last axis -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: at a point whose last coordinate is 0 the block product added to the zero
    vector, elsewhere added to what the point before left. -/
def acc1 (c : Dev nD) : (n : ℕ) → n < cfg1.N → Vec F S1024x1024 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_reset (c : Dev nD) (t : Fin cfg1.N) (h : t.val % 8 = 0) :
    acc1 V c t.val t.isLt = k1_pay2 (iblk1 V c 0 t) (iblk1 V c 1 t) (k1_pay1 (F := F)) := by
  obtain ⟨n, hn⟩ := t
  cases n with
  | zero => rfl
  | succ n => exact if_pos h

theorem acc1_step (c : Dev nD) (t : Fin cfg1.N) (h : ¬ t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- The accumulator buffer of this pipeline. -/
abbrev scr1 : Memref sig .tc .vmem S1024x1024 .f32 := Memref.whole cc1_scratch0

/-- The scoped buffers that are neither a staging buffer of this pipeline nor its accumulator, each whole at some contents. -/
def others1 (c : Dev nD) : sProp 𝕄 :=
  bigSep ((((Finset.univ.filter fun b : Ref sig .tc => b.isScoped) \ Finset.univ.image (Pipeline.stageRef spec1))).erase cc1_scratch0)
    fun b => iprop(∃ f : Buf (Elt F) ((c : Thread nD τ).loc b), ((c : Thread nD τ).loc b) ↦{fullShare} f)

/-- The invariant before position `n`: before the first point every scoped buffer the pipeline does not stage at anything
    and the generator register at some state; afterwards the accumulator at what the point before left. -/
def Phi1 (c : Dev nD) : (n : ℕ) → n ≤ cfg1.N → sProp 𝕄
  | 0, _ => Pipeline.ΦA spec1 c
  | n + 1, hn => iprop(owns (c : Thread nD τ) scr1 fullShare (acc1 V c n hn) ∗ others1 (F := F) c ∗ (∃ r, prngReg c r))

theorem Phi1_zero (c : Dev nD) (n : ℕ) (h : n ≤ cfg1.N) (hz : n = 0) : Phi1 V c n h = Pipeline.ΦA spec1 c := by
  subst hz; rfl

/-- Before a point that is not the first: the accumulator at what the point before left. -/
theorem Phi1_pos (c : Dev nD) (n : ℕ) (h : n ≤ cfg1.N) (hz : n ≠ 0) :
    Phi1 V c n h = iprop(owns (c : Thread nD τ) scr1 fullShare (acc1 V c (n - 1) (by omega)) ∗ others1 (F := F) c ∗ (∃ r, prngReg c r)) := by
  cases n with
  | zero => exact absurd rfl hz
  | succ n => rfl

/-- The scoped rest is the accumulator buffer at some contents and the other buffers. -/
theorem scopedRest_split1 (c : Dev nD) :
    (Pipeline.scopedRest (Ix := Unit) (Name := ℕ) (U := UR sig nD τ) (Lvl := ℕ) spec1 c : sProp 𝕄)
      = iprop((∃ d, owns (c : Thread nD τ) scr1 fullShare d) ∗ others1 (F := F) c) := by
  unfold Pipeline.scopedRest others1
  rw [bigSep_erase (i := cc1_scratch0) (by decide)]
  simp only [scr1, owns_whole]
  rfl

/-- The proof data of pipeline 1 on core `c`, the input arrays held at the shares `q`. -/
def dat1 (q : Fin 3 → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q := q
  owed _ := 0

theorem A_eq1 (q : Fin 3 → PosShare TreeShare) (c : Dev nD) (w : Fin cfg1.W) : (dat1 V q c).A w = V c (Pipeline.arrRef spec1 w) := by
  dsimp only [dat1]
theorem after1_0 (q : Fin 3 → PosShare TreeShare) (c : Dev nD) (t : Fin cfg1.N) : (dat1 V q c).after 0 t = iblk1 V c 0 t := by dsimp only [dat1]
theorem after1_1 (q : Fin 3 → PosShare TreeShare) (c : Dev nD) (t : Fin cfg1.N) : (dat1 V q c).after 1 t = iblk1 V c 1 t := by dsimp only [dat1]
theorem after1_2 (q : Fin 3 → PosShare TreeShare) (c : Dev nD) (t : Fin cfg1.N) : (dat1 V q c).after 2 t = acc1 V c t.val t.isLt := by dsimp only [dat1]

/-! ## The body's branch conditions, and where the output window is idle -/

/-- The zero offsets of a whole-buffer access, spelt as a constant function. -/
theorem offs1_zero : (![0, 0] : Fin 2 → Nat) = fun _ => 0 := funext fun a => by fin_cases a <;> rfl

/-- The condition of the body's first conditional: the last grid coordinate is 0. -/
abbrev cnd1_a (i : grid1.Coords) : Prop := (Scalar.cmpi .ne (Scalar.extui (Scalar.cmpi .eq (BitVec.ofNat 32 (i 2).val) 0#32)) 0#32) = 1#1
/-- It holds at the points ≡ 0 (mod 8): the last axis is the fastest. -/
theorem hcnd1_a : ∀ t : Fin cfg1.N, cnd1_a (grid1.coords t) ↔ t.val % 8 = 0 :=
  (by decide +kernel : ∀ t : Fin grid1.N, cnd1_a (grid1.coords t) ↔ t.val % 8 = 0)

/-- The condition of the body's second conditional: the last grid coordinate is 7. -/
abbrev cnd1_b (i : grid1.Coords) : Prop := k1_cond2 i = 1#1
/-- It holds at the points ≡ 7 (mod 8). -/
theorem hcnd1_b : ∀ t : Fin cfg1.N, cnd1_b (grid1.coords t) ↔ t.val % 8 = 7 :=
  (by decide +kernel : ∀ t : Fin grid1.N, cnd1_b (grid1.coords t) ↔ t.val % 8 = 7)

/-- The input windows are never idle. -/
theorem live1_0 : ∀ t : Fin cfg1.N, cfg1.idle 0 (grid1.coords t) = false := by decide +kernel
theorem live1_1 : ∀ t : Fin cfg1.N, cfg1.idle 1 (grid1.coords t) = false := by decide +kernel
/-- The output window is idle exactly where the second conditional fails. -/
theorem idle1_2 : ∀ t : Fin cfg1.N, ¬ t.val % 8 = 7 → cfg1.idle 2 (grid1.coords t) = true :=
  (by decide +kernel : ∀ t : Fin grid1.N, ¬ t.val % 8 = 7 → cfg1.idle 2 (grid1.coords t) = true)
theorem live1_2 : ∀ t : Fin cfg1.N, t.val % 8 = 7 → cfg1.idle 2 (grid1.coords t) = false :=
  (by decide +kernel : ∀ t : Fin grid1.N, t.val % 8 = 7 → cfg1.idle 2 (grid1.coords t) = false)
/-- and there it is not written back. -/
theorem noflush1_2 (t : Fin cfg1.N) (h : ¬ t.val % 8 = 7) : (cfg1.win 2).flush t = false := by
  cases hf : (cfg1.win 2).flush t with
  | false => rfl
  | true => exact absurd ((flush1_2 t).mp hf) h

/-! ## The body's triple, case by case -/

set_option maxHeartbeats 1000000 in
/-- At a point whose last coordinate is 0 (and not 7): on whole memrefs, the inputs at `xa`, `xb`, the accumulator at
    anything, the body leaves the inputs as they were and the accumulator at the block product added to zero; the
    output's buffer is not touched. -/
theorem kernel1_first (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hca : cnd1_a i) (hcb : ¬ cnd1_b i) (xa xb : Vec F S1024x1024 .f32) (K : PUnit → sProp 𝕄) :
    iprop(owns (c : Thread nD τ) arg3 fullShare xa ∗ owns (c : Thread nD τ) arg4 fullShare xb ∗ (∃ d, owns (c : Thread nD τ) arg6 fullShare d)
        ∗ (iprop(owns (c : Thread nD τ) arg3 fullShare xa ∗ owns (c : Thread nD τ) arg4 fullShare xb
            ∗ owns (c : Thread nD τ) arg6 fullShare (k1_pay2 xa xb (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%fa, %hfa, Ha⟩, ⟨%fb, %hfb, Hb⟩, ⟨%ds, %fs, -, Hs⟩, Hk⟩
  subst hfa; subst hfb
  sl_exec (disch := first | exact hca | exact hcb)
  sl_step
  iapply Hk
  isplitl [Ha]
  · iexists fa; isplitr; · ipureintro; rfl
    iexact Ha
  isplitl [Hb]
  · iexists fb; isplitr; · ipureintro; rfl
    iexact Hb
  iexists _; isplitr
  swap; · iexact Hs
  ipureintro
  sl_unfold_words
  rw [View.read_writes_eq_canon _ _ _ (fun y => ⟨_, List.mem_cons_self, View.mem_set_unit_zero offs1_zero inb_S1024x1024_S1024x1024_0_0 y⟩)]
  rw [View.canon_cons_unit_zero offs1_zero]
  simp only [View.readAt_eq_ld, View.ld_unit_zero (S := S1024x1024) offs1_zero, View.readCov_unit_zero (S := S1024x1024) _ offs1_zero]

set_option maxHeartbeats 1000000 in
/-- At a point whose last coordinate is neither 0 nor 7: the inputs at `xa`, `xb`, the accumulator at `s`; the body
    leaves the inputs as they were and the accumulator at `s` plus the block product; the output's buffer is not touched. -/
theorem kernel1_mid (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hca : ¬ cnd1_a i) (hcb : ¬ cnd1_b i) (xa xb s : Vec F S1024x1024 .f32) (K : PUnit → sProp 𝕄) :
    iprop(owns (c : Thread nD τ) arg3 fullShare xa ∗ owns (c : Thread nD τ) arg4 fullShare xb ∗ owns (c : Thread nD τ) arg6 fullShare s
        ∗ (iprop(owns (c : Thread nD τ) arg3 fullShare xa ∗ owns (c : Thread nD τ) arg4 fullShare xb
            ∗ owns (c : Thread nD τ) arg6 fullShare (k1_pay2 xa xb s)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%fa, %hfa, Ha⟩, ⟨%fb, %hfb, Hb⟩, ⟨%fs, %hfs, Hs⟩, Hk⟩
  subst hfa; subst hfb; subst hfs
  sl_exec (disch := first | exact hca | exact hcb)
  sl_step
  iapply Hk
  isplitl [Ha]
  · iexists fa; isplitr; · ipureintro; rfl
    iexact Ha
  isplitl [Hb]
  · iexists fb; isplitr; · ipureintro; rfl
    iexact Hb
  iexists _; isplitr
  swap; · iexact Hs
  ipureintro
  sl_unfold_words
  rw [View.read_writes_eq_canon _ _ _ (fun y => ⟨_, List.mem_cons_self, View.mem_set_unit_zero offs1_zero inb_S1024x1024_S1024x1024_0_0 y⟩)]
  rw [View.canon_cons_unit_zero offs1_zero]
  simp only [View.readAt_eq_ld, View.ld_unit_zero (S := S1024x1024) offs1_zero, View.readCov_unit_zero (S := S1024x1024) _ offs1_zero]

set_option maxHeartbeats 1000000 in
/-- At a point whose last coordinate is 7 (and not 0): the inputs at `xa`, `xb`, the accumulator at `s`, the output's
    buffer at anything; the body leaves the inputs as they were and both the accumulator and the output's buffer at `s`
    plus the block product. -/
theorem kernel1_last (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1024x1024 .f32) (harg5 : arg5.IsWhole) (arg6 : Memref sig .tc .vmem S1024x1024 .f32) (harg6 : arg6.IsWhole)
    (hca : ¬ cnd1_a i) (hcb : cnd1_b i) (xa xb s : Vec F S1024x1024 .f32) (K : PUnit → sProp 𝕄) :
    iprop(owns (c : Thread nD τ) arg3 fullShare xa ∗ owns (c : Thread nD τ) arg4 fullShare xb ∗ (∃ d, owns (c : Thread nD τ) arg5 fullShare d)
        ∗ owns (c : Thread nD τ) arg6 fullShare s
        ∗ (iprop(owns (c : Thread nD τ) arg3 fullShare xa ∗ owns (c : Thread nD τ) arg4 fullShare xb
            ∗ owns (c : Thread nD τ) arg5 fullShare (k1_pay2 xa xb s)
            ∗ owns (c : Thread nD τ) arg6 fullShare (k1_pay2 xa xb s)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%fa, %hfa, Ha⟩, ⟨%fb, %hfb, Hb⟩, ⟨%dz, %fz, -, Hz⟩, ⟨%fs, %hfs, Hs⟩, Hk⟩
  subst hfa; subst hfb; subst hfs
  sl_exec (disch := first | exact hca | exact hcb)
  sl_step
  iapply Hk
  isplitl [Ha]
  · iexists fa; isplitr; · ipureintro; rfl
    iexact Ha
  isplitl [Hb]
  · iexists fb; isplitr; · ipureintro; rfl
    iexact Hb
  isplitl [Hz]
  · iexists _; isplitr
    swap; · iexact Hz
    ipureintro
    sl_unfold_words
    rw [View.read_writes_eq_canon _ _ _ (fun y => ⟨_, List.mem_cons_self, View.mem_set_unit_zero offs1_zero inb_S1024x1024_S1024x1024_0_0 y⟩)]
    rw [View.canon_cons_unit_zero offs1_zero]
    simp only [View.readAt_eq_ld, View.ld_unit_zero (S := S1024x1024) offs1_zero, View.readCov_unit_zero (S := S1024x1024) _ offs1_zero]
  iexists _; isplitr
  swap; · iexact Hs
  ipureintro
  sl_unfold_words
  rw [View.read_writes_eq_canon _ _ _ (fun y => ⟨_, List.mem_cons_self, View.mem_set_unit_zero offs1_zero inb_S1024x1024_S1024x1024_0_0 y⟩)]
  rw [View.canon_cons_unit_zero offs1_zero]
  simp only [View.readAt_eq_ld, View.ld_unit_zero (S := S1024x1024) offs1_zero, View.readCov_unit_zero (S := S1024x1024) _ offs1_zero]

/-! ## The body obligation, at a generic point -/

/-- After point `n` (before point `n + 1`): the accumulator at that point's contents. -/
theorem Phi1_succ (c : Dev nD) (n : ℕ) (hn : n < cfg1.N) :
    Phi1 V c (n + 1) hn = iprop(owns (c : Thread nD τ) scr1 fullShare (acc1 V c n hn) ∗ others1 (F := F) c ∗ (∃ r, prngReg c r)) := rfl

/-- The invariant at a point's start, restated at the point's position. -/
theorem Phi1_castSucc (q : Fin 3 → PosShare TreeShare) (c : Dev nD) (t : Fin cfg1.N) :
    (dat1 V q c).Φ t.castSucc = Phi1 V c t.val (Nat.le_of_lt t.isLt) := by
  dsimp only [dat1]; simp only [Fin.coe_castSucc]

/-- Before the first point the invariant holds the accumulator at anything, beside the other buffers and the register. -/
theorem PhiA1_eq (c : Dev nD) :
    (Pipeline.ΦA spec1 c : sProp 𝕄)
      = iprop(((∃ d, owns (c : Thread nD τ) scr1 fullShare d) ∗ others1 (F := F) c) ∗ (∃ r, prngReg c r)) := by
  unfold Pipeline.ΦA; rw [scopedRest_split1]

/-- Each input's current staging buffer holds its block at every point, fetched there or not: an input window is
    uncut, never idle, and the body leaves its block in place. -/
theorem before1_0 (q : Fin 3 → PosShare TreeShare) (c : Dev nD) (t : Fin cfg1.N) (d) : (dat1 V q c).before 0 t d = iblk1 V c 0 t :=
  ((dat1 V q c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (q : Fin 3 → PosShare TreeShare) (c : Dev nD) (t : Fin cfg1.N) (d) : (dat1 V q c).before 1 t d = iblk1 V c 1 t :=
  ((dat1 V q c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- What the body is called with at point `t`, the windows one by one, -/
def bodyPre1 (q : Fin 3 → PosShare TreeShare) (c : Dev nD) (t : Fin cfg1.N) : sProp 𝕄 :=
  iprop((dat1 V q c).Φ t.castSucc ∗ (dat1 V q c).owesAt () t.castSucc
    ∗ (∃ d, owns (c : Thread nD τ) (st1_0 t) fullShare ((dat1 V q c).before 0 t d))
    ∗ (∃ d, owns (c : Thread nD τ) (st1_1 t) fullShare ((dat1 V q c).before 1 t d))
    ∗ (∃ d, owns (c : Thread nD τ) (st1_2 t) fullShare ((dat1 V q c).before 2 t d)))

/-- and what it returns. -/
def bodyPost1 (q : Fin 3 → PosShare TreeShare) (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t)

set_option maxHeartbeats 1600000 in
/-- The body at any point: the inputs' buffers hold their blocks; the point's position modulo 8 says which case of the
    body runs; the invariant hands the accumulator over at what the point before left (at anything before the first
    point) and takes it back at this point's value of the recursion; the output's buffer is handed back untouched
    where the window is idle, and at the accumulator's value where the last coordinate is 7. -/
theorem sound_body1 (q : Fin 3 → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1]
  rw [show (dat1 V q c).owesAt () t.succ = (dat1 V q c).owesAt () t.castSucc from rfl]
  rw [show (dat1 V q c).Φ t.succ = Phi1 V c (t.val + 1) t.isLt from rfl, Phi1_succ]
  rw [show (dat1 V q c).leavesExact 0 t = owns (c : Thread nD τ) (st1_0 t) fullShare ((dat1 V q c).after 0 t) from by
    unfold Dat.leavesExact; rw [live1_0 t], after1_0]
  rw [show (dat1 V q c).leavesExact 1 t = owns (c : Thread nD τ) (st1_1 t) fullShare ((dat1 V q c).after 1 t) from by
    unfold Dat.leavesExact; rw [live1_1 t], after1_1]
  have hN : t.val < 512 := lt_of_lt_of_eq t.isLt (show cfg1.N = 512 from N_1)
  by_cases hfst : t.val % 8 = 0
  · have h7 : ¬ t.val % 8 = 7 := by omega
    rw [Dat.leavesExact_idle (dat1 V q c) 2 t (idle1_2 t h7) (noflush1_2 t h7), acc1_reset V c t hfst]
    by_cases hz : t.val = 0
    · rw [Phi1_castSucc, Phi1_zero V c _ _ hz, PhiA1_eq]
      iintro ⟨⟨⟨Hs, Hr⟩, Hg⟩, Ho, ⟨%da, Ha⟩, ⟨%db, Hb⟩, Hz⟩
      iapply (kernel1_first c Set.univ (grid1.coords t) _ _ _ _ _ _ _ _ ((hcnd1_a t).mpr hfst) (fun h => h7 ((hcnd1_b t).mp h)) (iblk1 V c 0 t) (iblk1 V c 1 t) _)
      isplitl [Ha]; · iexact Ha
      isplitl [Hb]; · iexact Hb
      isplitl [Hs]; · iexact Hs
      iintro ⟨Ha, Hb, Hs⟩
      isplitl [Hs Hr Hg]
      · isplitl [Hs]; · iexact Hs
        isplitl [Hr]; · iexact Hr
        iexact Hg
      isplitl [Ho]; · iexact Ho
      isplitl [Ha]; · iexact Ha
      isplitl [Hb]; · iexact Hb
      iexact Hz
    · rw [Phi1_castSucc, Phi1_pos V c _ _ hz]
      iintro ⟨⟨Hs, Hr, Hg⟩, Ho, ⟨%da, Ha⟩, ⟨%db, Hb⟩, Hz⟩
      iapply (kernel1_first c Set.univ (grid1.coords t) _ _ _ _ _ _ _ _ ((hcnd1_a t).mpr hfst) (fun h => h7 ((hcnd1_b t).mp h)) (iblk1 V c 0 t) (iblk1 V c 1 t) _)
      isplitl [Ha]; · iexact Ha
      isplitl [Hb]; · iexact Hb
      isplitl [Hs]; · iexists _; iexact Hs
      iintro ⟨Ha, Hb, Hs⟩
      isplitl [Hs Hr Hg]
      · isplitl [Hs]; · iexact Hs
        isplitl [Hr]; · iexact Hr
        iexact Hg
      isplitl [Ho]; · iexact Ho
      isplitl [Ha]; · iexact Ha
      isplitl [Hb]; · iexact Hb
      iexact Hz
  · have hz : t.val ≠ 0 := fun e => hfst (by rw [e])
    rw [acc1_step V c t hfst, Phi1_castSucc, Phi1_pos V c _ _ hz]
    by_cases h7 : t.val % 8 = 7
    · rw [show (dat1 V q c).leavesExact 2 t = owns (c : Thread nD τ) (st1_2 t) fullShare ((dat1 V q c).after 2 t) from by
        unfold Dat.leavesExact; rw [live1_2 t h7], after1_2, acc1_step V c t hfst]
      iintro ⟨⟨Hs, Hr, Hg⟩, Ho, ⟨%da, Ha⟩, ⟨%db, Hb⟩, ⟨%dz, Hz⟩⟩
      iapply (kernel1_last c Set.univ (grid1.coords t) _ _ _ _ _ _ _ _ (fun h => hfst ((hcnd1_a t).mp h)) ((hcnd1_b t).mpr h7) (iblk1 V c 0 t) (iblk1 V c 1 t)
        (acc1 V c (t.val - 1) (Nat.lt_of_le_of_lt (Nat.sub_le _ _) t.isLt)) _)
      isplitl [Ha]; · iexact Ha
      isplitl [Hb]; · iexact Hb
      isplitl [Hz]; · iexists _; iexact Hz
      isplitl [Hs]; · iexact Hs
      iintro ⟨Ha, Hb, Hz, Hs⟩
      isplitl [Hs Hr Hg]
      · isplitl [Hs]; · iexact Hs
        isplitl [Hr]; · iexact Hr
        iexact Hg
      isplitl [Ho]; · iexact Ho
      isplitl [Ha]; · iexact Ha
      isplitl [Hb]; · iexact Hb
      iexact Hz
    · rw [Dat.leavesExact_idle (dat1 V q c) 2 t (idle1_2 t h7) (noflush1_2 t h7)]
      iintro ⟨⟨Hs, Hr, Hg⟩, Ho, ⟨%da, Ha⟩, ⟨%db, Hb⟩, Hz⟩
      iapply (kernel1_mid c Set.univ (grid1.coords t) _ _ _ _ _ _ _ _ (fun h => hfst ((hcnd1_a t).mp h)) (fun h => h7 ((hcnd1_b t).mp h)) (iblk1 V c 0 t) (iblk1 V c 1 t)
        (acc1 V c (t.val - 1) (Nat.lt_of_le_of_lt (Nat.sub_le _ _) t.isLt)) _)
      isplitl [Ha]; · iexact Ha
      isplitl [Hb]; · iexact Hb
      isplitl [Hs]; · iexact Hs
      iintro ⟨Ha, Hb, Hs⟩
      isplitl [Hs Hr Hg]
      · isplitl [Hs]; · iexact Hs
        isplitl [Hr]; · iexact Hr
        iexact Hg
      isplitl [Ho]; · iexact Ho
      isplitl [Ha]; · iexact Ha
      isplitl [Hb]; · iexact Hb
      iexact Hz

/-- The body obligation of pipeline 1, at every point. -/
theorem body_obligation1 (q : Fin 3 → PosShare TreeShare) (c : Dev nD) :
    BodyObligation (dat1 (F := F) V q c) (defs₀ (F := F)) Variants.none () Set.univ := fun t => by
  rw [bigSep_W1, bigSep_W1]
  exact sound_body1 V q c t

/-- What the region is entered with makes the invariant before the first point. -/
theorem hin1 (q : Fin 3 → PosShare TreeShare) (c : Dev nD) :
    (iprop((∃ r, prngReg c r) ∗ Pipeline.scopedRest (Ix := Unit) (Name := ℕ) (U := UR sig nD τ) (Lvl := ℕ) spec1 c) : sProp 𝕄) ⊢ (dat1 V q c).Φ 0 := by
  rw [show (dat1 V q c).Φ 0 = Phi1 V c 0 (Nat.zero_le _) from rfl, Phi1_zero V c 0 _ rfl]
  unfold Pipeline.ΦA
  iintro ⟨Hg, Hs⟩
  isplitl [Hs]; · iexact Hs
  iexact Hg

/-- The invariant after the last point gives the scoped buffers and the generator register back. -/
theorem hout1 (q : Fin 3 → PosShare TreeShare) (c : Dev nD) :
    (dat1 V q c).Φ (Fin.last cfg1.N) ⊢ (iprop((∃ r, prngReg c r) ∗ Pipeline.scopedRest (Ix := Unit) (Name := ℕ) (U := UR sig nD τ) (Lvl := ℕ) spec1 c) : sProp 𝕄) := by
  rw [show (dat1 V q c).Φ (Fin.last cfg1.N) = Phi1 V c (Fin.last cfg1.N).val (Nat.le_of_lt_succ (Fin.last cfg1.N).isLt) from rfl,
    Phi1_pos V c _ _ (by rw [Fin.val_last]; have : cfg1.N = 512 := N_1; omega), scopedRest_split1]
  iintro ⟨Hs, Ho, Hg⟩
  isplitl [Hg]; · iexact Hg
  isplitl [Hs]; · iexists _; iexact Hs
  iexact Ho

end Cert.KernelIdeal.Hand

end
-- ==== Proof.KI.Combine.lean ====
import proofs.«127820_j66348654788876_1_alg».proof.Proof.Gen.KernelIdeal.Launch
import proofs.«127820_j66348654788876_1_alg».proof.Proof.Gen.KernelIdeal.Skeleton
import proofs.«127820_j66348654788876_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The recombination (pipeline 2): one pointwise expression of three 512-blocks per grid point -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2 : Rect S512x512 := Rect.unit (s := S512x512) ![0, 0] S512x512.size inb_S512x512_S512x512_0_0

/-- The output block the body leaves at a point with coordinates `i`, from the three input blocks: its one store. -/
def out2_3 (i : grid2.Coords) (x0 x1 x2 : Vec F S512x512 .f32) : Vec F S512x512 .f32 :=
  View.canon [⟨r2, k2_pay1 i (View.ld x0 r2) (View.ld x1 r2) (View.ld x2 r2)⟩]

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (grid2.coords t) (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (grid2.coords t) (iblk2 V c 0 t) (iblk2 V c 1 t) (iblk2 V c 2 t) := by dsimp only [dat2]

/-- Every input window of pipeline 2 is fetched at every point, so whatever its staging buffer held before, the body
    finds the window's block in it. -/
theorem before2_0 (c : Dev nD) (t : Fin cfg2.N) (d) : (dat2 V c).before 0 t d = iblk2 V c 0 t := by
  rw [(dat2 V c).before_fetched 0 t (fetch2_0 t) d]
  unfold Dat.fetched Dat.blockOf iblk2; rw [A_eq2]; try rfl
theorem before2_1 (c : Dev nD) (t : Fin cfg2.N) (d) : (dat2 V c).before 1 t d = iblk2 V c 1 t := by
  rw [(dat2 V c).before_fetched 1 t (fetch2_1 t) d]
  unfold Dat.fetched Dat.blockOf iblk2; rw [A_eq2]; try rfl
theorem before2_2 (c : Dev nD) (t : Fin cfg2.N) (d) : (dat2 V c).before 2 t d = iblk2 V c 2 t := by
  rw [(dat2 V c).before_fetched 2 t (fetch2_2 t) d]
  unfold Dat.fetched Dat.blockOf iblk2; rw [A_eq2]; try rfl

/-- The one store of the body is through the whole-buffer rectangle, which covers every index of the block. -/
theorem cover2_3 (p : Vec F S512x512 .f32) (y : S512x512.Idx) :
    ∃ pc ∈ ([⟨r2, p⟩] : List (View.Piece (Elt F) S512x512 .f32)), y ∈ pc.1.set :=
  View.cover_of_tiled [⟨r2, p⟩] S512x512.size (by rfl) y

set_option maxHeartbeats 1000000 in
/-- The body at any grid coordinates `i`, on whole memrefs: the three inputs at contents `x0 x1 x2` (left as they
    were), the output at anything, which it leaves at `out2_3 i x0 x1 x2`. Three loads, a load of the output whose value
    is dropped, one store. -/
theorem sound_kernel2 (c : Dev nD) (E : Set ℕ) (i : grid2.Coords)
    (arg2 : Memref sig .tc .vmem S512x512 .f32) (harg2 : arg2.IsWhole)
    (arg3 : Memref sig .tc .vmem S512x512 .f32) (harg3 : arg3.IsWhole)
    (arg4 : Memref sig .tc .vmem S512x512 .f32) (harg4 : arg4.IsWhole)
    (arg5 : Memref sig .tc .vmem S512x512 .f32) (harg5 : arg5.IsWhole)
    (x0 x1 x2 : Vec F S512x512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (out2_3 i x0 x1 x2)) -∗ K ⟨⟩))
      ⊢ wp frame (wpE (defs₀ (F := F)) Variants.none c none) E
          (cc2__combine_kernel i arg2 harg2 arg3 harg3 arg4 harg4 arg5 harg5) K := by
  simp only [cc2__combine_kernel_eq_skeleton]; unfold cc2__combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- What the body is called with at point `t`: the invariant, the core's tallies, and the four staging buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: each input buffer holds its window's block, so the kernel's triple applies at the point's
    coordinates; the invariant and the tallies are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of pipeline 2, at every point. -/
theorem body_obligation2 (c : Dev nD) :
    BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«127820_j66348654788876_1_alg».proof.Proof.Gen.KernelIdeal.Launch
import proofs.«127820_j66348654788876_1_alg».proof.Proof.Gen.KernelIdeal.Skeleton
import proofs.«127820_j66348654788876_1_alg».proof.Proof.Gen.KernelIdeal.Points
import proofs.«127820_j66348654788876_1_alg».proof.Proof.Gen.KernelIdeal.Regions
import proofs.«127820_j66348654788876_1_alg».proof.Proof.KI.Matmul0
import proofs.«127820_j66348654788876_1_alg».proof.Proof.KI.Matmul1
import proofs.«127820_j66348654788876_1_alg».proof.Proof.KI.Combine
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's four segments (the host stretch, then the three pipelines) from the launch to the return -/

/-- The shares the first product's windows hold their arrays at: its two input windows read ONE array, half each. -/
def q0 : Fin 3 → PosShare TreeShare := fun | 0 => (fullShare : PosShare TreeShare).left | 1 => (fullShare : PosShare TreeShare).right | 2 => fullShare | ⟨_ + 3, h⟩ => absurd h (Nat.not_lt.2 (Nat.le_add_left _ _))
/-- The second product's arrays are distinct: each at the full share. -/
def q1 : Fin 3 → PosShare TreeShare := fun _ => fullShare

/-- Core `c`'s buffers at launch. -/
abbrev W0 : Dev nD → Valuation τ sig (Elt F) := fun c b => m ((c : Dev nD), b)
/-- After the host stretch: the normalized adjacency matrix sits in `main_v45`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first product: `main_v46` at what its write-backs leave, every other buffer as before. -/
def W2 (c : Dev nD) : Valuation τ sig (Elt F) :=
  Function.update (W1 m c) (Proc.devRef .tc main_v46) ((dat0 (V1 m) q0 c).arrAt 2 cfg0.N)
abbrev V2 : (c : Dev nD) → (b : Ref sig .tc) → Buf (Elt F) ((c : Thread nD τ).loc b) := fun c b => W2 m c b
/-- After the second product: `main_v47` at what its write-backs leave. -/
def W3 (c : Dev nD) : Valuation τ sig (Elt F) :=
  Function.update (W2 m c) (Proc.devRef .tc main_v47) ((dat1 (V2 m) q1 c).arrAt 2 cfg1.N)
abbrev V3 : (c : Dev nD) → (b : Ref sig .tc) → Buf (Elt F) ((c : Thread nD τ).loc b) := fun c b => W3 m c b
/-- After the recombination: `main_v48` at what its write-backs leave. -/
def W4 (c : Dev nD) : Valuation τ sig (Elt F) :=
  Function.update (W3 m c) (Proc.devRef .tc main_v48) ((dat2 (V3 m) c).arrAt 3 cfg2.N)

theorem W2_main_v46 (c : Dev nD) : W2 m c (Proc.devRef .tc main_v46) = (dat0 (V1 m) q0 c).arrAt 2 cfg0.N := by
  unfold W2; exact Function.update_self ..
theorem W2_of_ne (c : Dev nD) (b : Ref sig .tc) (hb : b ≠ main_v46) : W2 m c (Proc.devRef .tc b) = W1 m c (Proc.devRef .tc b) := by
  unfold W2; exact Function.update_of_ne (StableHlo.devRef_ne_of_ne hb) ..
theorem W3_main_v47 (c : Dev nD) : W3 m c (Proc.devRef .tc main_v47) = (dat1 (V2 m) q1 c).arrAt 2 cfg1.N := by
  unfold W3; exact Function.update_self ..
theorem W3_of_ne (c : Dev nD) (b : Ref sig .tc) (hb : b ≠ main_v47) : W3 m c (Proc.devRef .tc b) = W2 m c (Proc.devRef .tc b) := by
  unfold W3; exact Function.update_of_ne (StableHlo.devRef_ne_of_ne hb) ..
theorem W4_main_v48 (c : Dev nD) : W4 m c (Proc.devRef .tc main_v48) = (dat2 (V3 m) c).arrAt 3 cfg2.N := by
  unfold W4; exact Function.update_self ..
theorem W4_of_ne (c : Dev nD) (b : Ref sig .tc) (hb : b ≠ main_v48) : W4 m c (Proc.devRef .tc b) = W3 m c (Proc.devRef .tc b) := by
  unfold W4; exact Function.update_of_ne (StableHlo.devRef_ne_of_ne hb) ..

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) q0 c
  | ⟨1, _⟩ => fun c => dat1 (V2 m) q1 c
  | ⟨2, _⟩ => fun c => dat2 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- The thread state at a boundary: every unscoped buffer at the boundary's contents, and the rest. -/
abbrev T (W : Dev nD → Valuation τ sig (Elt F)) (c : Dev nD) : sProp 𝕄 :=
  iprop(StableHlo.held (c : Thread nD τ) (Pipeline.ucRefs τ sig) (W c) ∗ R c)
/-- The host stretch as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R
/-- The last thread state without the dues. -/
abbrev Tₙ (c : Dev nD) : sProp 𝕄 := iprop(StableHlo.held (c : Thread nD τ) (Pipeline.ucRefs τ sig) (W4 m c) ∗ ∃ r, prngReg c r)

/-! ## What each region leaves in its arrays, and what it leaves alone -/

/-- At the second product's exit each of its arrays holds what the pipeline leaves: the inputs as entered, the output its write-backs. -/
theorem hF1 (c : Dev nD) : (w : Fin cfg1.W) → (dat1 (V2 m) q1 c).arrAt w cfg1.N = V3 m c (Pipeline.arrRef spec1 w)
  | ⟨0, _⟩ => ((dat1 (V2 m) q1 c).arrAt_in 0 rfl _).trans ((A_eq1 (V2 m) q1 c 0).trans (W3_of_ne m c main_v45 (by decide)).symm)
  | ⟨1, _⟩ => ((dat1 (V2 m) q1 c).arrAt_in 1 rfl _).trans ((A_eq1 (V2 m) q1 c 1).trans (W3_of_ne m c main_v46 (by decide)).symm)
  | ⟨2, _⟩ => (W3_main_v47 m c).symm
/-- Every other buffer holds what it held at the entry. -/
theorem hrest1 (c : Dev nD) : ∀ b, b ∉ Finset.univ.image (Pipeline.arrRef spec1) → V3 m c b = V2 m c b :=
  fun b hb => W3_of_ne m c b fun e => hb (Finset.mem_image.mpr ⟨2, Finset.mem_univ _, e.symm⟩)

/-- The same of the recombination. -/
theorem hF2 (c : Dev nD) : (w : Fin cfg2.W) → (dat2 (V3 m) c).arrAt w cfg2.N = W4 m c (Proc.devRef .tc (Pipeline.arrRef spec2 w))
  | ⟨0, _⟩ => ((dat2 (V3 m) c).arrAt_in 0 rfl _).trans ((A_eq2 (V3 m) c 0).trans (W4_of_ne m c main_v45 (by decide)).symm)
  | ⟨1, _⟩ => ((dat2 (V3 m) c).arrAt_in 1 rfl _).trans ((A_eq2 (V3 m) c 1).trans (W4_of_ne m c main_v46 (by decide)).symm)
  | ⟨2, _⟩ => ((dat2 (V3 m) c).arrAt_in 2 rfl _).trans ((A_eq2 (V3 m) c 2).trans (W4_of_ne m c main_v47 (by decide)).symm)
  | ⟨3, _⟩ => (W4_main_v48 m c).symm
theorem hrest2 (c : Dev nD) : ∀ b : Ref sig .tc, b ∉ Finset.univ.image (Pipeline.arrRef spec2) → W4 m c (Proc.devRef .tc b) = V3 m c b :=
  fun b hb => W4_of_ne m c b fun e => hb (Finset.mem_image.mpr ⟨3, Finset.mem_univ _, e.symm⟩)

/-! ## The first product's arrays: two windows on one buffer -/

/-- The buffers behind the first product's arrays. -/
theorem img0 : Finset.univ.image (Pipeline.arrRef spec0) = ({main_v45, main_v46} : Finset (Ref sig .tc)) := by decide

/-- Those buffers one by one, each whole at the full share. -/
theorem arrBufs0 (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v45) ↦{fullShare} V main_v45) ∗ (((c : Thread nD τ).loc main_v46) ↦{fullShare} V main_v46)) := by
  unfold Pipeline.arrBufs
  rw [img0, bigSep_insert (by decide), bigSep_singleton]
  rfl

/-- The first product's arrays window by window: both input windows on the one buffer, half of it each; the output's whole. -/
theorem arrays0 (V : (c : Dev nD) → (b : Ref sig .tc) → Buf (Elt F) ((c : Thread nD τ).loc b)) (c : Dev nD)
    (G : (w : Fin cfg0.W) → Buf (Elt F) ((cfg0.win w).arr.view.loc (c : Thread nD τ))) :
    ((dat0 V q0 c).arrays G : sProp 𝕄) = iprop((((c : Thread nD τ).loc main_v45) ↦{(fullShare : PosShare TreeShare).left} G 0)
      ∗ (((c : Thread nD τ).loc main_v45) ↦{(fullShare : PosShare TreeShare).right} G 1) ∗ (((c : Thread nD τ).loc main_v46) ↦{fullShare} G 2)) := by
  unfold Dat.arrays
  rw [bigSep_W0, (arr_whole0 0).set_eq_univ, (arr_whole0 2).set_eq_univ]
  rfl

/-- The unscoped buffers at the first product's entry: its arrays' buffers and the rest. -/
theorem held_split0 (c : Dev nD) (W : Valuation τ sig (Elt F)) :
    (StableHlo.held (c : Thread nD τ) (Pipeline.ucRefs τ sig) W : sProp 𝕄)
      = iprop(((((c : Thread nD τ).loc main_v45) ↦{fullShare} W (Proc.devRef .tc main_v45)) ∗ (((c : Thread nD τ).loc main_v46) ↦{fullShare} W (Proc.devRef .tc main_v46)))
        ∗ Pipeline.unscopedRest (Ix := Unit) (Name := ℕ) (U := UR sig nD τ) (Lvl := ℕ) spec0 c (fun b => W b)) := by
  rw [← arrBufs0 c (fun b => W b)]
  exact (Pipeline.unscopedBufs_held c W).symm.trans (Pipeline.unscopedBufs_split₀ cfgs 0 winFacts₀0.arr_unscoped c (fun b => W b))

/-- ENTRY of the first product: the one input buffer's full share is split between the two windows that read it. -/
theorem entry0 (c : Dev nD) : (StableHlo.held (c : Thread nD τ) (Pipeline.ucRefs τ sig) (W1 m c) : sProp 𝕄)
    ⊢ iprop((dat0 (V1 m) q0 c).arrays ((dat0 (V1 m) q0 c).arrAt · 0)
        ∗ Pipeline.unscopedRest (Ix := Unit) (Name := ℕ) (U := UR sig nD τ) (Lvl := ℕ) spec0 c (V1 m c)) := by
  rw [held_split0, arrays0]
  iintro ⟨⟨H45, H46⟩, Hrest⟩
  ihave H := (pointsTo_share (PosShare.mem_left_op_right fullShare)).1 $$ H45
  icases H with ⟨Hl, Hr⟩
  isplitr [Hrest]
  · isplitl [Hl]; · iexact Hl
    isplitl [Hr]; · iexact Hr
    iexact H46
  iexact Hrest

/-- EXIT of the first product: the halves joined back, the output's buffer at what the write-backs leave. -/
theorem exit0 (c : Dev nD) : iprop((dat0 (V1 m) q0 c).arrays ((dat0 (V1 m) q0 c).arrAt · cfg0.N)
        ∗ Pipeline.unscopedRest (Ix := Unit) (Name := ℕ) (U := UR sig nD τ) (Lvl := ℕ) spec0 c (V1 m c))
    ⊢ (StableHlo.held (c : Thread nD τ) (Pipeline.ucRefs τ sig) (W2 m c) : sProp 𝕄) := by
  have h0 : (dat0 (V1 m) q0 c).arrAt 0 cfg0.N = W2 m c (Proc.devRef .tc main_v45) :=
    ((dat0 (V1 m) q0 c).arrAt_in 0 rfl _).trans ((A_eq0 (V1 m) q0 c 0).trans (W2_of_ne m c main_v45 (by decide)).symm)
  have h1 : (dat0 (V1 m) q0 c).arrAt 1 cfg0.N = W2 m c (Proc.devRef .tc main_v45) :=
    ((dat0 (V1 m) q0 c).arrAt_in 1 rfl _).trans ((A_eq0 (V1 m) q0 c 1).trans (W2_of_ne m c main_v45 (by decide)).symm)
  have h2 : (dat0 (V1 m) q0 c).arrAt 2 cfg0.N = W2 m c (Proc.devRef .tc main_v46) := (W2_main_v46 m c).symm
  have hr : (Pipeline.unscopedRest (Ix := Unit) (Name := ℕ) (U := UR sig nD τ) (Lvl := ℕ) spec0 c (V1 m c) : sProp 𝕄)
      = Pipeline.unscopedRest spec0 c (fun b => W2 m c b) := by
    unfold Pipeline.unscopedRest
    exact bigSep_congr fun b hb => by
      beta_reduce
      rw [show W2 m c (Proc.devRef .tc b) = W1 m c (Proc.devRef .tc b) from
        W2_of_ne m c b fun e => (Finset.mem_sdiff.mp hb).2 (Finset.mem_image.mpr ⟨2, Finset.mem_univ _, e.symm⟩)]
  rw [held_split0, arrays0, h0, h1, h2, hr]
  iintro ⟨⟨Hl, Hr, H46⟩, Hrest⟩
  isplitr [Hrest]
  · isplitl [Hl Hr]
    · iapply (pointsTo_share (PosShare.mem_left_op_right fullShare)).2
      isplitl [Hl]; · iexact Hl
      iexact Hr
    iexact H46
  iexact Hrest

/-! ## The regions as segments -/

set_option backward.isDefEq.respectTransparency.types false in
/-- The first product over the thread state: entered from every unscoped buffer at W1, left at W2. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V1 m) q0 c).loose
  hwaits := Pipeline.hwaits_of_owed_zero _ _ _ _ L lv 0 fun _ _ => rfl
  pre c := T (W1 m) c
  post c := T (W2 m) c
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    iintro ⟨⟨Hub, Hp, HO⟩, -, -⟩
    ihave H := (entry0 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) q0 c)
    iintro ⟨Hp, -, Hr⟩
    isplitl [Hp]; · iexact Hp
    iexact Hr
  hout c := by
    rw [Pipeline.ownSems0_none]
    refine (hout0 (V1 m) q0 c).trans ?_
    iintro ⟨Hp, Hr⟩
    isplitl [Hp]; · iexact Hp
    isplitr; · iempintro
    iexact Hr
  hexit c := by
    iintro ⟨Ha, HO, HY, Hrest⟩
    imodintro
    isplitl [Ha Hrest]
    · iapply (exit0 m c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second product over the thread state: entered from every unscoped buffer at W2, left at W3. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) q1 c).loose
  hwaits := Pipeline.hwaits_of_owed_zero _ _ _ _ L lv 1 fun _ _ => rfl
  pre c := T (W2 m) c
  post c := T (W3 m) c
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) q1 c)
    iintro ⟨Hp, -, Hr⟩
    isplitl [Hp]; · iexact Hp
    iexact Hr
  hout c := by
    rw [Pipeline.ownSems0_none]
    refine (hout1 (V2 m) q1 c).trans ?_
    iintro ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The recombination over the thread state: entered from every unscoped buffer at W3, left at W4. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := T (W3 m) c
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (fun b => W4 m c (Proc.devRef .tc b)) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: the host stretch from the launch contents, then a region per pipeline. -/
abbrev segs : List (Pipeline.Seg (pcfgs (F := F)) adm (pdats m) () defs₀ 𝒱₀ L lv) :=
  [ .host (hseg0 m), .region (reg0 m), .region (reg1 m), .region (reg2 m) ]
/-- @main is the run of the segments. -/
theorem main_run (c : Dev nD) : main (F := F) c = Pipeline.Seg.run (segs m) := (main_chain c).trans (by chain_rfl)

/-- THE RUN: from any memory with zero counters every weakly fair execution of @main terminates, nothing faulting, and
    the final memory holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KI.Frame.lean ====
import proofs.«127820_j66348654788876_1_alg».proof.Proof.Gen.KernelIdeal.Regions
import proofs.«127820_j66348654788876_1_alg».proof.Proof.KI.Run

set_option maxRecDepth 16384

noncomputable section

/-! # The frame: no item of @main writes an argument

The run leaves every unscoped buffer at the last boundary's contents; an argument is written by no host operation
and by no pipeline, so it is read there as launched. -/

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- A buffer no host operation and no pipeline writes ends as launched. -/
theorem W4_kept (c : Dev nD) (r : Ref sig .tc) (h46 : r ≠ main_v46) (h47 : r ≠ main_v47) (h48 : r ≠ main_v48)
    (hW : r ∉ (hostOps0_W : List (Ref sig .tc))) :
    W4 m c (Proc.devRef .tc r) = m ((c : Thread nD τ).loc r) :=
  (W4_of_ne m c r h48).trans <| (W3_of_ne m c r h47).trans <| (W2_of_ne m c r h46).trans <|
    StableHlo.after_of_writes_sub hostOps0 _ hostOps0_writes hW

/-- THE FRAME at any instance: every weakly fair execution terminates, nothing faulting, the arguments as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide))⟩)
    (run_all m ρ)

end Cert.KernelIdeal.Hand

end
-- ==== Proof.KI.Spec.lean ====
import Idealize.ShloMosaic.PureOps.Ideal
import Idealize.ShloMosaic.Lib.ValueIdx

noncomputable section

/-! # What both programs compute, on the extended reals

With `A` the normalized adjacency matrix (8192 × 8192), both programs return
`θ · (A + A·A + A·(A·A)) + α · I`, the matrix products plain sums over the contracted axis, `θ` and `α` the
two float literals both programs spell. -/

namespace Cert.Spec

open Idealize.ShloMosaic Idealize.ShloMosaic.ValueIdx

/-- The shape of the square matrices. -/
abbrev SN : Shape := ⟨2, ![8192, 8192]⟩

/-- Entry `(r, c)` of a matrix given as a function of rank-2 indices. -/
abbrev at2 (A : SN.Idx → EReal) (r c : Fin 8192) : EReal := A (ix2 r c)

/-- The matrix product: entry `i` is the sum over the contracted axis. -/
def matmulAt (A B : SN.Idx → EReal) : SN.Idx → EReal :=
  fun i => ∑ k : Fin 8192, at2 A ⟨(i 0).val, (i 0).isLt⟩ k * at2 B k ⟨(i 1).val, (i 1).isLt⟩

/-- The recombination: `θ · ((A + B) + C) + α · [row = column]`. -/
def combineAt (A B C : SN.Idx → EReal) : SN.Idx → EReal :=
  fun i => Ideal.ofBits .f32 0x3E75C28F#32 * ((A i + B i) + C i)
    + Ideal.ofBits .f32 0x3ECCCCCD#32 * (if (i 0).val = (i 1).val then (1 : EReal) else 0)

/-- The whole result from the adjacency matrix. -/
def resultAt (A : SN.Idx → EReal) : SN.Idx → EReal :=
  combineAt A (matmulAt A A) (matmulAt A (matmulAt A A))

end Cert.Spec

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.KI.MatmulValue.lean ====
import proofs.«127820_j66348654788876_1_alg».proof.Proof.Gen.KernelIdeal.Launch
import proofs.«127820_j66348654788876_1_alg».proof.Proof.Gen.KernelIdeal.Skeleton
import proofs.«127820_j66348654788876_1_alg».proof.Proof.Gen.KernelIdeal.Points
import proofs.«127820_j66348654788876_1_alg».proof.Proof.KI.Matmul0
import proofs.«127820_j66348654788876_1_alg».proof.Proof.KI.Matmul1
import proofs.«127820_j66348654788876_1_alg».proof.Proof.KI.Spec
import proofs.«127820_j66348654788876_1_alg».proof.Proof.LibMatmulAt
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

local notation "𝕄" => MT nD τ sig Unit (Elt F) ℕ (UR sig nD τ) ℕ

/-! # The two matrix products on the extended reals

The grid point `(i, j, k)` adds the product of block `(i, k)` of the left array and block `(k, j)` of the right array
to the accumulator; the point `k = 7` writes the accumulator to block `(i, j)` of the result. On the extended reals
addition is associative and commutative, so the eight block sums are the one sum over the contracted axis. -/

variable (V : (c : Dev nD) → (b : Ref sig .tc) → Buf (Elt Ideal) ((c : Thread nD τ).loc b))

/-! ## One block step at an entry -/

/-- The zero block the accumulator is reset to. -/
theorem pay1_at0 (i : S1024x1024.Idx) : k0_pay1 (F := Ideal) i = 0 := by
  unfold k0_pay1
  rw [shapeCast_self]
  exact Ideal.ofBits_zero_f32

/-- A block step adds, at an entry, the row-by-column sum of the two blocks. -/
theorem pay2_at0 (a b s : Vec Ideal S1024x1024 .f32) (p r : Fin 1024) :
    k0_pay2 a b s (ix2 p r) = s (ix2 p r) + ∑ kk : Fin 1024, a (ix2 p kk) * b (ix2 kk r) := by
  unfold k0_pay2
  simp only [shapeCast_self]
  rw [addf_apply]
  congr 1
  exact Cert.LibMatmulAt.matmul_zero_at dot_S1024x1024_S1024x1024_S1024x1024_1_0_0_1_n_n rfl rfl rfl rfl rfl rfl none _ _ p r

/-- The second product's zero block. -/
theorem pay1_at1 (i : S1024x1024.Idx) : k1_pay1 (F := Ideal) i = 0 := by
  unfold k1_pay1
  rw [shapeCast_self]
  exact Ideal.ofBits_zero_f32

/-- The second product's block step adds, at an entry, the row-by-column sum of the two blocks. -/
theorem pay2_at1 (a b s : Vec Ideal S1024x1024 .f32) (p r : Fin 1024) :
    k1_pay2 a b s (ix2 p r) = s (ix2 p r) + ∑ kk : Fin 1024, a (ix2 p kk) * b (ix2 kk r) := by
  unfold k1_pay2
  simp only [shapeCast_self]
  rw [addf_apply]
  congr 1
  exact Cert.LibMatmulAt.matmul_zero_at dot_S1024x1024_S1024x1024_S1024x1024_1_0_0_1_n_n rfl rfl rfl rfl rfl rfl none _ _ p r

/-! ## The eight block steps of one output block are the sum over the whole contracted axis -/

/-- The square arrays' shape and the blocks' shape, by their literal extents. -/
abbrev Arr : Type := Cert.Spec.SN.Idx → EReal
abbrev Blk : Type := S1024x1024.Idx → EReal

/-- An entry of an array depends on the two coordinates' values only. -/
theorem arr_congr (A : Arr) {a a' b b' : Fin 8192} (ha : a.val = a'.val) (hb : b.val = b'.val) :
    A (ix2 a b) = A (ix2 a' b') := by
  rw [Fin.ext ha, Fin.ext hb]

/-- The left operand's block at point `n = (i, j, k)`: block `(i, k)`. -/
def blkL (A : Arr) (n : ℕ) : Blk := fun y =>
  A (ix2 ⟨1024 * (n / 64 % 8) + (y 0).val, by have h : (y 0).val < 1024 := (y 0).isLt; omega⟩
      ⟨1024 * (n % 8) + (y 1).val, by have h : (y 1).val < 1024 := (y 1).isLt; omega⟩)

/-- The right operand's block at point `n = (i, j, k)`: block `(k, j)`. -/
def blkR (B : Arr) (n : ℕ) : Blk := fun y =>
  B (ix2 ⟨1024 * (n % 8) + (y 0).val, by have h : (y 0).val < 1024 := (y 0).isLt; omega⟩
      ⟨1024 * (n / 8 % 8) + (y 1).val, by have h : (y 1).val < 1024 := (y 1).isLt; omega⟩)

/-- The contracted axis cut into eight runs of 1024: a sum over it is the sum over the runs of the sums inside. -/
theorem sum_runs (G : Fin 8192 → EReal) :
    ∑ k : Fin 8192, G k
      = ∑ s ∈ Finset.range 8, ∑ kk : Fin 1024, (if h : 1024 * s + kk.val < 8192 then G ⟨1024 * s + kk.val, h⟩ else 0) := by
  rw [Finset.sum_range, ← Equiv.sum_comp (finProdFinEquiv : Fin 8 × Fin 1024 ≃ Fin 8192), Fintype.sum_prod_type]
  refine Finset.sum_congr rfl fun s _ => Finset.sum_congr rfl fun kk _ => ?_
  have hs : s.val < 8 := s.isLt
  have hk : kk.val < 1024 := kk.isLt
  rw [dif_pos (by omega)]
  congr 1
  apply Fin.ext
  show kk.val + 1024 * s.val = 1024 * s.val + kk.val
  omega

/-- A quantity over the grid's points that is reset to one block step from zero where the last coordinate is 0, and
    steps from the point before elsewhere, holds at a point whose last coordinate is 7 the whole product's entries. -/
theorem fold_at {N : ℕ} (A B : Arr) (f : (n : ℕ) → n < N → Blk) (step : Blk → Blk → Blk → Blk) (zero : Blk)
    (hzero : ∀ i, zero i = 0)
    (hstep : ∀ (a b s : Blk) (p r : Fin 1024), step a b s (ix2 p r) = s (ix2 p r) + ∑ kk : Fin 1024, a (ix2 p kk) * b (ix2 kk r))
    (h0 : ∀ (n : ℕ) (h : n < N), n % 8 = 0 → f n h = step (blkL A n) (blkR B n) zero)
    (hs : ∀ (n : ℕ) (h : n + 1 < N), ¬ (n + 1) % 8 = 0 →
      f (n + 1) h = step (blkL A (n + 1)) (blkR B (n + 1)) (f n (Nat.lt_of_succ_lt h)))
    (t : ℕ) (ht : t < N) (h7 : t % 8 = 7) (p r : Fin 1024) :
    f t ht (ix2 p r)
      = ∑ k : Fin 8192, A (ix2 ⟨1024 * (t / 64 % 8) + p.val, by have := p.isLt; omega⟩ k)
          * B (ix2 k ⟨1024 * (t / 8 % 8) + r.val, by have := r.isLt; omega⟩) := by
  have h' : 8 * (t / 8) + t % 8 < N := by omega
  rw [Pipeline.eq_accAt_of_mod f 8 (fun n _ => step (blkL A n) (blkR B n) zero)
    (fun n _ acc => step (blkL A n) (blkR B n) acc) h0 hs (by norm_num) t ht h']
  rw [Pipeline.accAt_add_apply (fun n _ => step (blkL A n) (blkR B n) zero)
    (fun n _ acc => step (blkL A n) (blkR B n) acc) (fun _ => (0 : EReal))
    (fun n i => ∑ kk : Fin 1024, blkL A n (ix2 (i 0) kk) * blkR B n (ix2 kk (i 1))) (8 * (t / 8)) 7
    (fun _ i => by
      obtain ⟨p', r', rfl⟩ : ∃ (p' r' : Fin 1024), i = ix2 p' r' := ⟨i 0, i 1, eq_ix2 i⟩
      show step (blkL A _) (blkR B _) zero (ix2 p' r') = _
      rw [hstep, hzero])
    (fun n _ acc i _ _ => by
      obtain ⟨p', r', rfl⟩ : ∃ (p' r' : Fin 1024), i = ix2 p' r' := ⟨i 0, i 1, eq_ix2 i⟩
      show step (blkL A n) (blkR B n) acc (ix2 p' r') = _
      rw [hstep])
    (t % 8) (by omega) h' (ix2 p r)]
  rw [zero_add, h7, sum_runs]
  refine Finset.sum_congr rfl fun s hs => Finset.sum_congr rfl fun kk _ => ?_
  have hs8 : s < 8 := Finset.mem_range.mp hs
  have hk : kk.val < 1024 := kk.isLt
  rw [dif_pos (by omega)]
  unfold blkL blkR
  congr 1
  · exact arr_congr A (by show 1024 * ((8 * (t / 8) + s) / 64 % 8) + p.val = 1024 * (t / 64 % 8) + p.val; omega)
      (by show 1024 * ((8 * (t / 8) + s) % 8) + kk.val = 1024 * s + kk.val; omega)
  · exact arr_congr B (by show 1024 * ((8 * (t / 8) + s) % 8) + kk.val = 1024 * s + kk.val; omega)
      (by show 1024 * ((8 * (t / 8) + s) / 8 % 8) + r.val = 1024 * (t / 8 % 8) + r.val; omega)

/-! ## The first product: its blocks, its accumulator at the points that write back, and the result array -/

/-- The printed index maps at the grid's points (the last axis is the fastest). -/
theorem idx0 : ∀ t : Fin cfg0.N,
    win0_0.index t (0 : Fin 2) = t.val / 64 % 8 ∧ win0_0.index t (1 : Fin 2) = t.val % 8
    ∧ win0_1.index t (0 : Fin 2) = t.val % 8 ∧ win0_1.index t (1 : Fin 2) = t.val / 8 % 8
    ∧ win0_2.index t (0 : Fin 2) = t.val / 64 % 8 ∧ win0_2.index t (1 : Fin 2) = t.val / 8 % 8 :=
  (by decide +kernel : ∀ t : Fin grid0.N, _)

/-- The left window's block at a point, read off the array. -/
theorem iblk0_L (c : Dev nD) (t : Fin cfg0.N) : iblk0 V c 0 t = blkL (V c main_v45) t.val := by
  obtain ⟨e0, e1, -, -, -, -⟩ := idx0 t
  funext y
  show V c main_v45 (((cfg0.win 0).blk t).view.emb y) = V c main_v45 (ix2 _ _)
  congr 1
  funext a; apply Fin.ext
  match a with
  | ⟨0, _⟩ => show win0_0.index t (0 : Fin 2) * 1024 + 1 * (y 0).val = 1024 * (t.val / 64 % 8) + (y 0).val; omega
  | ⟨1, _⟩ => show win0_0.index t (1 : Fin 2) * 1024 + 1 * (y 1).val = 1024 * (t.val % 8) + (y 1).val; omega

/-- The right window's block at a point, read off the array. -/
theorem iblk0_R (c : Dev nD) (t : Fin cfg0.N) : iblk0 V c 1 t = blkR (V c main_v45) t.val := by
  obtain ⟨-, -, e0, e1, -, -⟩ := idx0 t
  funext y
  show V c main_v45 (((cfg0.win 1).blk t).view.emb y) = V c main_v45 (ix2 _ _)
  congr 1
  funext a; apply Fin.ext
  match a with
  | ⟨0, _⟩ => show win0_1.index t (0 : Fin 2) * 1024 + 1 * (y 0).val = 1024 * (t.val % 8) + (y 0).val; omega
  | ⟨1, _⟩ => show win0_1.index t (1 : Fin 2) * 1024 + 1 * (y 1).val = 1024 * (t.val / 8 % 8) + (y 1).val; omega

/-- The accumulator at a point that writes back: the whole product's entries of its block. -/
theorem acc0_at (c : Dev nD) (t : Fin cfg0.N) (h7 : t.val % 8 = 7) (p r : Fin 1024) :
    acc0 V c t.val t.isLt (ix2 p r)
      = Cert.Spec.matmulAt (V c main_v45) (V c main_v45)
          (ix2 ⟨1024 * (t.val / 64 % 8) + p.val, by have := p.isLt; omega⟩
            ⟨1024 * (t.val / 8 % 8) + r.val, by have := r.isLt; omega⟩) :=
  fold_at (V c main_v45) (V c main_v45) (acc0 V c) (k0_pay2 (F := Ideal)) (k0_pay1 (F := Ideal)) pay1_at0 pay2_at0
    (fun n h hn => (acc0_reset V c ⟨n, h⟩ hn).trans (by rw [iblk0_L, iblk0_R]))
    (fun n h hn => (acc0_step V c ⟨n + 1, h⟩ hn).trans (by rw [iblk0_L, iblk0_R]; rfl))
    t.val t.isLt h7 p r

/-- What a point that writes back writes is its block of the product. -/
theorem flushed0_2 (q : Fin 3 → PosShare TreeShare) (c : Dev nD) (t : Fin cfg0.N) (hf : (cfg0.win 2).flush t = true) :
    (dat0 V q c).flushed 2 t
      = ((cfg0.win 2).blk t).view.read (Elt Ideal) (Cert.Spec.matmulAt (V c main_v45) (V c main_v45)) := by
  have h7 := (flush0_2 t).mp hf
  obtain ⟨-, -, -, -, e0, e1⟩ := idx0 t
  have key : ∀ y : S1024x1024.Idx, acc0 V c t.val t.isLt y
      = Cert.Spec.matmulAt (V c main_v45) (V c main_v45) (((cfg0.win 2).blk t).view.emb y) := by
    intro y
    obtain ⟨p, r, rfl⟩ : ∃ (p r : Fin 1024), y = ix2 p r := ⟨y 0, y 1, eq_ix2 y⟩
    rw [acc0_at V c t h7 p r]
    congr 1
    funext a; apply Fin.ext
    match a with
    | ⟨0, _⟩ => show 1024 * (t.val / 64 % 8) + p.val = win0_2.index t (0 : Fin 2) * 1024 + 1 * p.val; omega
    | ⟨1, _⟩ => show 1024 * (t.val / 8 % 8) + r.val = win0_2.index t (1 : Fin 2) * 1024 + 1 * r.val; omega
  show (cfg0.win 2).cut (grid0.coords t) ((dat0 V q c).after 2 t) = _
  rw [after0_2]
  exact funext key

/-- An index of the result array is in a point's block iff each coordinate is in the block's range. -/
theorem mem_blk0_2 (t : Fin cfg0.N) (i : Cert.Spec.SN.Idx) :
    i ∈ ((cfg0.win 2).blk t).view.set
      ↔ ∀ a : Fin 2, win0_2.index t a * S1024x1024.size a ≤ (i a).val
          ∧ (i a).val < win0_2.index t a * S1024x1024.size a + S1024x1024.size a := by
  show i ∈ ((View.whole main_v46).slice (win0_2.rect t)).set ↔ _
  rw [View.set_slice_whole, Rect.mem_set_unit]
  exact Iff.rfl

/-- Every index of the result array is in the block of a point that writes back. -/
theorem cover0_2 (i : Cert.Spec.SN.Idx) :
    ∃ t : Fin cfg0.N, (cfg0.win 2).flush t = true ∧ i ∈ ((cfg0.win 2).blk t).view.set := by
  have h0 : (i 0).val < 8192 := (i 0).isLt
  have h1 : (i 1).val < 8192 := (i 1).isLt
  have hN : 64 * ((i 0).val / 1024) + 8 * ((i 1).val / 1024) + 7 < cfg0.N := by
    show _ < 512
    omega
  refine ⟨⟨_, hN⟩, (flush0_2 _).mpr (by show (64 * ((i 0).val / 1024) + 8 * ((i 1).val / 1024) + 7) % 8 = 7; omega), ?_⟩
  obtain ⟨-, -, -, -, e0, e1⟩ := idx0 ⟨_, hN⟩
  have e0' : win0_2.index ⟨_, hN⟩ (0 : Fin 2) = (64 * ((i 0).val / 1024) + 8 * ((i 1).val / 1024) + 7) / 64 % 8 := e0
  have e1' : win0_2.index ⟨_, hN⟩ (1 : Fin 2) = (64 * ((i 0).val / 1024) + 8 * ((i 1).val / 1024) + 7) / 8 % 8 := e1
  rw [mem_blk0_2]
  intro a
  match a with
  | ⟨0, _⟩ =>
    show win0_2.index ⟨_, hN⟩ (0 : Fin 2) * 1024 ≤ (i 0).val ∧ (i 0).val < win0_2.index ⟨_, hN⟩ (0 : Fin 2) * 1024 + 1024
    omega
  | ⟨1, _⟩ =>
    show win0_2.index ⟨_, hN⟩ (1 : Fin 2) * 1024 ≤ (i 1).val ∧ (i 1).val < win0_2.index ⟨_, hN⟩ (1 : Fin 2) * 1024 + 1024
    omega

/-- After the first pipeline its result array holds the matrix product of the adjacency array with itself. -/
theorem arrAt0_2 (q : Fin 3 → PosShare TreeShare) (c : Dev nD) :
    ((dat0 (F := Ideal) V q c).arrAt 2 cfg0.N : Cert.Spec.SN.Idx → EReal)
      = Cert.Spec.matmulAt (V c main_v45) (V c main_v45) :=
  (dat0 V q c).arrAt_eq_of_cover 2 (Cert.Spec.matmulAt (V c main_v45) (V c main_v45))
    (fun t hf => flushed0_2 V q c t hf) cover0_2

/-! ## The second product, the same way: its right operand is the first product's result array -/

/-- The printed index maps at the grid's points (the last axis is the fastest). -/
theorem idx1 : ∀ t : Fin cfg1.N,
    win1_0.index t (0 : Fin 2) = t.val / 64 % 8 ∧ win1_0.index t (1 : Fin 2) = t.val % 8
    ∧ win1_1.index t (0 : Fin 2) = t.val % 8 ∧ win1_1.index t (1 : Fin 2) = t.val / 8 % 8
    ∧ win1_2.index t (0 : Fin 2) = t.val / 64 % 8 ∧ win1_2.index t (1 : Fin 2) = t.val / 8 % 8 :=
  (by decide +kernel : ∀ t : Fin grid1.N, _)

/-- The left window's block at a point, read off the array. -/
theorem iblk1_L (c : Dev nD) (t : Fin cfg1.N) : iblk1 V c 0 t = blkL (V c main_v45) t.val := by
  obtain ⟨e0, e1, -, -, -, -⟩ := idx1 t
  funext y
  show V c main_v45 (((cfg1.win 0).blk t).view.emb y) = V c main_v45 (ix2 _ _)
  congr 1
  funext a; apply Fin.ext
  match a with
  | ⟨0, _⟩ => show win1_0.index t (0 : Fin 2) * 1024 + 1 * (y 0).val = 1024 * (t.val / 64 % 8) + (y 0).val; omega
  | ⟨1, _⟩ => show win1_0.index t (1 : Fin 2) * 1024 + 1 * (y 1).val = 1024 * (t.val % 8) + (y 1).val; omega

/-- The right window's block at a point, read off the array. -/
theorem iblk1_R (c : Dev nD) (t : Fin cfg1.N) : iblk1 V c 1 t = blkR (V c main_v46) t.val := by
  obtain ⟨-, -, e0, e1, -, -⟩ := idx1 t
  funext y
  show V c main_v46 (((cfg1.win 1).blk t).view.emb y) = V c main_v46 (ix2 _ _)
  congr 1
  funext a; apply Fin.ext
  match a with
  | ⟨0, _⟩ => show win1_1.index t (0 : Fin 2) * 1024 + 1 * (y 0).val = 1024 * (t.val % 8) + (y 0).val; omega
  | ⟨1, _⟩ => show win1_1.index t (1 : Fin 2) * 1024 + 1 * (y 1).val = 1024 * (t.val / 8 % 8) + (y 1).val; omega

/-- The accumulator at a point that writes back: the whole product's entries of its block. -/
theorem acc1_at (c : Dev nD) (t : Fin cfg1.N) (h7 : t.val % 8 = 7) (p r : Fin 1024) :
    acc1 V c t.val t.isLt (ix2 p r)
      = Cert.Spec.matmulAt (V c main_v45) (V c main_v46)
          (ix2 ⟨1024 * (t.val / 64 % 8) + p.val, by have := p.isLt; omega⟩
            ⟨1024 * (t.val / 8 % 8) + r.val, by have := r.isLt; omega⟩) :=
  fold_at (V c main_v45) (V c main_v46) (acc1 V c) (k1_pay2 (F := Ideal)) (k1_pay1 (F := Ideal)) pay1_at1 pay2_at1
    (fun n h hn => (acc1_reset V c ⟨n, h⟩ hn).trans (by rw [iblk1_L, iblk1_R]))
    (fun n h hn => (acc1_step V c ⟨n + 1, h⟩ hn).trans (by rw [iblk1_L, iblk1_R]; rfl))
    t.val t.isLt h7 p r

/-- What a point that writes back writes is its block of the product. -/
theorem flushed1_2 (q : Fin 3 → PosShare TreeShare) (c : Dev nD) (t : Fin cfg1.N) (hf : (cfg1.win 2).flush t = true) :
    (dat1 V q c).flushed 2 t
      = ((cfg1.win 2).blk t).view.read (Elt Ideal) (Cert.Spec.matmulAt (V c main_v45) (V c main_v46)) := by
  have h7 := (flush1_2 t).mp hf
  obtain ⟨-, -, -, -, e0, e1⟩ := idx1 t
  have key : ∀ y : S1024x1024.Idx, acc1 V c t.val t.isLt y
      = Cert.Spec.matmulAt (V c main_v45) (V c main_v46) (((cfg1.win 2).blk t).view.emb y) := by
    intro y
    obtain ⟨p, r, rfl⟩ : ∃ (p r : Fin 1024), y = ix2 p r := ⟨y 0, y 1, eq_ix2 y⟩
    rw [acc1_at V c t h7 p r]
    congr 1
    funext a; apply Fin.ext
    match a with
    | ⟨0, _⟩ => show 1024 * (t.val / 64 % 8) + p.val = win1_2.index t (0 : Fin 2) * 1024 + 1 * p.val; omega
    | ⟨1, _⟩ => show 1024 * (t.val / 8 % 8) + r.val = win1_2.index t (1 : Fin 2) * 1024 + 1 * r.val; omega
  show (cfg1.win 2).cut (grid1.coords t) ((dat1 V q c).after 2 t) = _
  rw [after1_2]
  exact funext key

/-- An index of the result array is in a point's block iff each coordinate is in the block's range. -/
theorem mem_blk1_2 (t : Fin cfg1.N) (i : Cert.Spec.SN.Idx) :
    i ∈ ((cfg1.win 2).blk t).view.set
      ↔ ∀ a : Fin 2, win1_2.index t a * S1024x1024.size a ≤ (i a).val
          ∧ (i a).val < win1_2.index t a * S1024x1024.size a + S1024x1024.size a := by
  show i ∈ ((View.whole main_v47).slice (win1_2.rect t)).set ↔ _
  rw [View.set_slice_whole, Rect.mem_set_unit]
  exact Iff.rfl

/-- Every index of the result array is in the block of a point that writes back. -/
theorem cover1_2 (i : Cert.Spec.SN.Idx) :
    ∃ t : Fin cfg1.N, (cfg1.win 2).flush t = true ∧ i ∈ ((cfg1.win 2).blk t).view.set := by
  have h0 : (i 0).val < 8192 := (i 0).isLt
  have h1 : (i 1).val < 8192 := (i 1).isLt
  have hN : 64 * ((i 0).val / 1024) + 8 * ((i 1).val / 1024) + 7 < cfg1.N := by
    show _ < 512
    omega
  refine ⟨⟨_, hN⟩, (flush1_2 _).mpr (by show (64 * ((i 0).val / 1024) + 8 * ((i 1).val / 1024) + 7) % 8 = 7; omega), ?_⟩
  obtain ⟨-, -, -, -, e0, e1⟩ := idx1 ⟨_, hN⟩
  have e0' : win1_2.index ⟨_, hN⟩ (0 : Fin 2) = (64 * ((i 0).val / 1024) + 8 * ((i 1).val / 1024) + 7) / 64 % 8 := e0
  have e1' : win1_2.index ⟨_, hN⟩ (1 : Fin 2) = (64 * ((i 0).val / 1024) + 8 * ((i 1).val / 1024) + 7) / 8 % 8 := e1
  rw [mem_blk1_2]
  intro a
  match a with
  | ⟨0, _⟩ =>
    show win1_2.index ⟨_, hN⟩ (0 : Fin 2) * 1024 ≤ (i 0).val ∧ (i 0).val < win1_2.index ⟨_, hN⟩ (0 : Fin 2) * 1024 + 1024
    omega
  | ⟨1, _⟩ =>
    show win1_2.index ⟨_, hN⟩ (1 : Fin 2) * 1024 ≤ (i 1).val ∧ (i 1).val < win1_2.index ⟨_, hN⟩ (1 : Fin 2) * 1024 + 1024
    omega

/-- After the second pipeline its result array holds the product of the adjacency array with the first product. -/
theorem arrAt1_2 (q : Fin 3 → PosShare TreeShare) (c : Dev nD) :
    ((dat1 (F := Ideal) V q c).arrAt 2 cfg1.N : Cert.Spec.SN.Idx → EReal)
      = Cert.Spec.matmulAt (V c main_v45) (V c main_v46) :=
  (dat1 V q c).arrAt_eq_of_cover 2 (Cert.Spec.matmulAt (V c main_v45) (V c main_v46))
    (fun t hf => flushed1_2 V q c t hf) cover1_2

end Cert.KernelIdeal.Hand

end
-- ==== Proof.KI.CombineValue.lean ====
import proofs.«127820_j66348654788876_1_alg».proof.Proof.KI.Combine
import proofs.«127820_j66348654788876_1_alg».proof.Proof.KI.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! # The recombination's output array, in exact arithmetic

Every operation is exact (floats are extended reals), so what pipeline 2 leaves in its output array is one closed
expression of the three input arrays, index by index: the literal `θ` times `(A + B) + C`, plus the literal `α` on
the diagonal (`Cert.Spec.combineAt`). The body sees only a 512×512 block and its grid coordinates; the diagonal test
compares block offset + local row with block offset + local column as 32-bit words, which never wrap below 8192. -/

-- the TensorCore's buffer contents when the region is entered
variable (V : (c : Dev nD) → (b : Ref sig .tc) → Buf (Elt Ideal) ((c : Thread nD τ).loc b))

/-! ## The diagonal indicator, word level -/

/-- Block offset plus local coordinate as 32-bit words: below 2³² nothing wraps, so two such words are equal exactly
    when the numbers are. -/
theorem diag_word_eq_iff (a b x y : Nat) (ha : a < 16) (hb : b < 16) (hx : x < 512) (hy : y < 512) :
    (BitVec.ofNat 32 a * 512#32 + BitVec.ofNat 32 x = BitVec.ofNat 32 b * 512#32 + BitVec.ofNat 32 y)
      ↔ a * 512 + x = b * 512 + y := by
  rw [← BitVec.toNat_inj]
  simp only [BitVec.toNat_add, BitVec.toNat_mul, BitVec.toNat_ofNat, Nat.reducePow]
  omega

/-- The comparison bit, widened to a word and read as a signed integer, is the indicator `1` or `0`. -/
theorem diag_indicator_word (a b x y : Nat) (ha : a < 16) (hb : b < 16) (hx : x < 512) (hy : y < 512) :
    (FloatOps.sitofp (F := Ideal) .f32
        ((IntOp.cmpi .eq (IntOp.addi (Scalar.muli (BitVec.ofNat 32 a) 512#32) (BitVec.ofNat 32 x))
          (IntOp.addi (Scalar.muli (BitVec.ofNat 32 b) 512#32) (BitVec.ofNat 32 y))).setWidth 32) : EReal)
      = if a * 512 + x = b * 512 + y then (1 : EReal) else 0 := by
  have hw := diag_word_eq_iff a b x y ha hb hx hy
  show ((((BitVec.ofBool (BitVec.ofNat 32 a * 512#32 + BitVec.ofNat 32 x == BitVec.ofNat 32 b * 512#32 + BitVec.ofNat 32 y)).setWidth 32).toInt : ℝ) : EReal) = _
  by_cases h : a * 512 + x = b * 512 + y
  · rw [if_pos h, beq_iff_eq.mpr (hw.mpr h)]
    show ((((1#1 : BitVec 1).setWidth 32).toInt : ℝ) : EReal) = 1
    rw [show ((1#1 : BitVec 1).setWidth 32).toInt = 1 by decide]
    norm_num
  · rw [if_neg h, beq_eq_false_iff_ne.mpr (fun e => h (hw.mp e))]
    show ((((0#1 : BitVec 1).setWidth 32).toInt : ℝ) : EReal) = 0
    rw [show ((0#1 : BitVec 1).setWidth 32).toInt = 0 by decide]
    norm_num

/-! ## The payload at an index of the block -/

/-- The body's payload at index `j` of the block, at grid coordinates `i`: the weighted sum of the three blocks there,
    plus `α` where the global row `i₀·512 + j₀` is the global column `i₁·512 + j₁`. -/
theorem k2_pay1_apply (i : grid2.Coords) (x0 x1 x2 : Vec Ideal S512x512 .f32) (j : S512x512.Idx) :
    k2_pay1 i x0 x1 x2 j = Ideal.ofBits .f32 0x3E75C28F#32 * ((x0 j + x1 j) + x2 j)
      + Ideal.ofBits .f32 0x3ECCCCCD#32
        * (if (i 0).val * 512 + (j 0).val = (i 1).val * 512 + (j 1).val then (1 : EReal) else 0) := by
  unfold k2_pay1
  simp only [shapeCast_self]
  rw [addf_apply, mulf_apply, mulf_apply, broadcast_apply, broadcast_apply, addf_apply, addf_apply, sitofp_apply,
    extui_apply]
  show _ * _ + FloatOps.sitofp (F := Ideal) .f32
      ((IntOp.cmpi .eq (IntOp.addi (Scalar.muli (BitVec.ofNat 32 (i 0).val) 512#32) (iota .tc S512x512 32 [0] iota_S512x512_d0_w32 j))
        (IntOp.addi (Scalar.muli (BitVec.ofNat 32 (i 1).val) 512#32) (iota .tc S512x512 32 [1] iota_S512x512_d1_w32 j))).setWidth 32) * _ = _
  rw [iota_single_apply, iota_single_apply,
    diag_indicator_word (i 0).val (i 1).val (j 0).val (j 1).val (i 0).isLt (i 1).isLt (j 0).isLt (j 1).isLt]
  exact congrArg (fun z : EReal => Ideal.ofBits .f32 0x3E75C28F#32 * ((x0 j + x1 j) + x2 j) + z) (mul_comm (G := EReal) _ _)

/-! ## From blocks to the array -/

/-- The zero offsets of the whole-block rectangle, as a constant function. -/
theorem zero_offsets2 : (![0, 0] : Fin 2 → Nat) = fun _ => 0 := funext fun a => by fin_cases a <;> rfl

/-- The output window's index map is the identity on the grid, and the grid is row-major 16 × 16: at point `t` the
    window's block index and the point's coordinates are `(t / 16, t % 16)`. Decided over the 256 points. -/
theorem index_facts2 : ∀ t : Fin cfg2.N,
    win2_3.index t (0 : Fin 2) = t.val / 16 ∧ win2_3.index t (1 : Fin 2) = t.val % 16
    ∧ (grid2.coords t (0 : Fin 2)).val = t.val / 16 ∧ (grid2.coords t (1 : Fin 2)).val = t.val % 16 :=
  (by decide +kernel : ∀ t : Fin grid2.N, _)

/-- What point `t` writes back is block `t` of the recombination of the three input arrays as the region finds them. -/
theorem flushed2_3_eq (c : Dev nD) (t : Fin cfg2.N) :
    (dat2 V c).flushed 3 t
      = ((cfg2.win 3).blk t).view.read (Elt Ideal) (Cert.Spec.combineAt (V c main_v45) (V c main_v46) (V c main_v47)) := by
  show (cfg2.win 3).cut (grid2.coords t) ((dat2 V c).after 3 t) = _
  rw [after2_3]
  unfold out2_3
  rw [View.canon_unit_zero zero_offsets2]
  simp only [View.ld_unit_zero (S := S512x512) zero_offsets2]
  obtain ⟨d0, d1, g0, g1⟩ := index_facts2 t
  funext j
  show k2_pay1 (grid2.coords t) (iblk2 V c 0 t) (iblk2 V c 1 t) (iblk2 V c 2 t) j
    = Cert.Spec.combineAt (V c main_v45) (V c main_v46) (V c main_v47) (((cfg2.win 3).blk t).view.emb j)
  rw [k2_pay1_apply]
  unfold Cert.Spec.combineAt
  -- a block's coordinate in the array is block index × 512 + the coordinate inside the block
  have e0 : (((cfg2.win 3).blk t).view.emb j 0).val = win2_3.index t (0 : Fin 2) * 512 + 1 * (j 0).val := rfl
  have e1 : (((cfg2.win 3).blk t).view.emb j 1).val = win2_3.index t (1 : Fin 2) * 512 + 1 * (j 1).val := rfl
  -- the four windows share one index map (the identity on the grid), so an input block's index sits in its array where
  -- the output block's does in its own
  have h0 : iblk2 V c 0 t j = V c main_v45 (((cfg2.win 3).blk t).view.emb j) := rfl
  have h1 : iblk2 V c 1 t j = V c main_v46 (((cfg2.win 3).blk t).view.emb j) := rfl
  have h2 : iblk2 V c 2 t j = V c main_v47 (((cfg2.win 3).blk t).view.emb j) := rfl
  -- the body's diagonal test, on grid coordinates, is the array's
  have hd : ((grid2.coords t 0).val * 512 + (j 0).val = (grid2.coords t 1).val * 512 + (j 1).val)
      ↔ ((((cfg2.win 3).blk t).view.emb j 0).val = (((cfg2.win 3).blk t).view.emb j 1).val) := by
    rw [e0, e1]; omega
  rw [h0, h1, h2, if_congr hd rfl rfl]

/-- An index of the array is in point `t`'s block iff each coordinate is in the block's range on its axis. -/
theorem mem_blk2_3 (t : Fin cfg2.N) (i : S8192x8192.Idx) :
    i ∈ ((cfg2.win 3).blk t).view.set ↔ ∀ a : Fin 2, win2_3.index t a * S512x512.size a ≤ (i a).val
      ∧ (i a).val < win2_3.index t a * S512x512.size a + S512x512.size a := by
  show i ∈ ((View.whole main_v48).slice (win2_3.rect t)).set ↔ _
  rw [View.set_slice_whole, Rect.mem_set_unit]
  exact Iff.rfl

/-- Every index of the array is in some point's block: row `r`, column `s` is in the block of point
    `(r / 512) · 16 + s / 512`, and every point writes back. -/
theorem cover2_3_arr (i : S8192x8192.Idx) :
    ∃ t : Fin cfg2.N, (cfg2.win 3).flush t = true ∧ i ∈ ((cfg2.win 3).blk t).view.set := by
  have hi0 : (i 0).val < 8192 := (i 0).isLt
  have hi1 : (i 1).val < 8192 := (i 1).isLt
  let t : Fin cfg2.N := ⟨(i 0).val / 512 * 16 + (i 1).val / 512, by show _ < 256; omega⟩
  have ht : t.val = (i 0).val / 512 * 16 + (i 1).val / 512 := rfl
  obtain ⟨d0, d1, -, -⟩ := index_facts2 t
  refine ⟨t, flush2_3 t, ?_⟩
  rw [mem_blk2_3]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 512 ≤ (i 1).val ∧ (i 1).val < win2_3.index t (1 : Fin 2) * 512 + 512; omega

/-- THE OUTPUT ARRAY after pipeline 2: the recombination of the three input arrays as the region finds them. -/
theorem arrAt2_3 (c : Dev nD) :
    ((dat2 (F := Ideal) V c).arrAt 3 cfg2.N : Cert.Spec.SN.Idx → EReal)
      = Cert.Spec.combineAt (V c main_v45) (V c main_v46) (V c main_v47) :=
  (dat2 V c).arrAt_eq_of_cover 3 (Cert.Spec.combineAt (V c main_v45) (V c main_v46) (V c main_v47))
    (fun t _ => flushed2_3_eq V c t) cover2_3_arr

end Cert.KernelIdeal.Hand

end
-- ==== Proof.KI.HostChain.lean ====
import proofs.«127820_j66348654788876_1_alg».proof.Proof.Gen.KernelIdeal.Launch
import proofs.«127820_j66348654788876_1_alg».proof.Proof.Gen.ReferenceIdeal.Read
import proofs.«127820_j66348654788876_1_alg».proof.Proof.KI.Spec
import Idealize.ShloMosaic.Lib.StableHlo.Run

set_option maxRecDepth 16384

noncomputable section

/-! # The adjacency matrix is one function of the arguments in both programs

Both programs build the normalized adjacency matrix by the same sixty host operations (degree by scatter-add,
its power, two gathers, two products, the scatter-add into the square array), applied to the same two arguments. -/

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

set_option maxHeartbeats 31200000 in
/-- What the kernel program's host stretch leaves in the adjacency array is the reference's adjacency term of the
    two arguments it reads (the edge weights and the edge index pairs). -/
theorem adj_eq (m : (ℓ : Loc nD τ sig) → Buf (Elt F) ℓ) (c : Dev nD) :
    (StableHlo.after (hostOps0 (F := F)) (fun b => m ((c : Dev nD), b)) (Proc.devRef .tc main_v45))
      = Cert.ReferenceIdeal.Read.val_main_v45 (F := F) (m ((c.tc : Thread nD τ).loc main_arg1)) (m ((c.tc : Thread nD τ).loc main_arg2)) := by
  after_results_simp <;> rfl

end Cert.KernelIdeal.Hand

end
-- ==== Proof.KI.RefValue.lean ====
import proofs.«127820_j66348654788876_1_alg».proof.Proof.Gen.ReferenceIdeal.Read
import proofs.«127820_j66348654788876_1_alg».proof.Proof.KI.Spec
import Idealize.ShloMosaic.PureOps.Ideal.Laws
import Idealize.ShloMosaic.Lib.ValueIdx

noncomputable section

/-! # The reference's result on the extended reals

From the adjacency matrix `A` the reference computes `A·A` and `A·(A·A)` by two whole matrix products, adds the
three, scales by the literal `θ` and adds the literal `α` on the diagonal. -/

namespace Cert.ReferenceIdeal.RefValue

open Cert.ReferenceIdeal Cert.ReferenceIdeal.Gen Cert.ReferenceIdeal.Read Idealize.ShloMosaic Idealize.ShloMosaic.ValueIdx

/-- Two 32-bit words made from naturals below `8192` are equal exactly when the naturals are: nothing wraps. -/
theorem word_eq_iff (p q : Nat) (hp : p < 8192) (hq : q < 8192) :
    IntOp.addi (BitVec.ofNat 32 p) 0#32 = BitVec.ofNat 32 q ↔ p = q := by
  unfold IntOp.addi
  rw [BitVec.add_zero]
  constructor
  · intro h
    have h' := congrArg BitVec.toNat h
    simp only [BitVec.toNat_ofNat] at h'
    omega
  · rintro rfl; rfl

/-- The diagonal indicator: the comparison of the row word with the column word, read as an unsigned number, is
    `1` on the diagonal and `0` off it. -/
theorem diag_indicator (p q : Nat) (hp : p < 8192) (hq : q < 8192) :
    (((IntOp.cmpi .eq (IntOp.addi (BitVec.ofNat 32 p) 0#32) (BitVec.ofNat 32 q)).toNat : ℝ) : EReal)
      = if p = q then (1 : EReal) else 0 := by
  by_cases h : p = q
  · have hw := (word_eq_iff p q hp hq).mpr h
    rw [if_pos h, hw]
    simp [IntOp.cmpi]
  · have hw : ¬ (IntOp.addi (BitVec.ofNat 32 p) 0#32 = BitVec.ofNat 32 q) := fun hw => h ((word_eq_iff p q hp hq).mp hw)
    rw [if_neg h]
    simp [IntOp.cmpi, hw]

/-- On the extended reals the conversion of an unsigned word is the word's number. -/
theorem uitofp_ideal {w : Nat} (b : BitVec w) :
    FloatOps.uitofp (F := Ideal) .f32 b = (((b.toNat : ℕ) : ℝ) : EReal) := rfl

/-- The left operand's index in the first product: row of the output, running column. -/
theorem lidx46_eq (j : Cert.Spec.SN.Idx) (k : Fin 8192) :
    lidx_main_v46 j k = ix2 (n0 := 8192) (n1 := 8192) ⟨(j 0).val, (j 0).isLt⟩ k :=
  funext fun a => Fin.ext (by match a with | ⟨0, _⟩ => rfl | ⟨1, _⟩ => rfl)

/-- The right operand's index in the first product: running row, column of the output. -/
theorem ridx46_eq (j : Cert.Spec.SN.Idx) (k : Fin 8192) :
    ridx_main_v46 j k = ix2 (n0 := 8192) (n1 := 8192) k ⟨(j 1).val, (j 1).isLt⟩ :=
  funext fun a => Fin.ext (by match a with | ⟨0, _⟩ => rfl | ⟨1, _⟩ => rfl)

/-- The left operand's index in the second product. -/
theorem lidx47_eq (j : Cert.Spec.SN.Idx) (k : Fin 8192) :
    lidx_main_v47 j k = ix2 (n0 := 8192) (n1 := 8192) ⟨(j 0).val, (j 0).isLt⟩ k :=
  funext fun a => Fin.ext (by match a with | ⟨0, _⟩ => rfl | ⟨1, _⟩ => rfl)

/-- The right operand's index in the second product. -/
theorem ridx47_eq (j : Cert.Spec.SN.Idx) (k : Fin 8192) :
    ridx_main_v47 j k = ix2 (n0 := 8192) (n1 := 8192) k ⟨(j 1).val, (j 1).isLt⟩ :=
  funext fun a => Fin.ext (by match a with | ⟨0, _⟩ => rfl | ⟨1, _⟩ => rfl)

/-- The reference's result stage is the specification's function of its adjacency stage. -/
theorem result_eq (x1 : (⟨S524288, .f32⟩ : BufTy).Contents (Elt Ideal)) (x2 : (⟨S2x524288, .i32⟩ : BufTy).Contents (Elt Ideal)) :
    (val_main_v60 (F := Ideal) x1 x2 : Cert.Spec.SN.Idx → EReal) = Cert.Spec.resultAt (val_main_v45 (F := Ideal) x1 x2) := by
  funext i
  rw [val_main_v60_apply, val_main_v51_apply, val_main_v59_apply, val_main_v50_apply, val_main_cst_12_apply,
    val_main_v49_apply, val_main_v48_apply, val_main_v58_apply, val_main_cst_14_apply, val_main_v57_apply,
    val_main_v56_apply, val_main_v55_apply, val_main_v52_apply, val_main_v53_apply, val_main_v54_apply,
    val_main_c_13_apply, val_main_v47_apply, val_main_v46_apply]
  simp only [val_main_v46_apply]
  generalize val_main_v45 (F := Ideal) x1 x2 = A
  simp only [Cert.Spec.resultAt, Cert.Spec.combineAt, Cert.Spec.matmulAt, Cert.Spec.at2, Ideal.addf_def, Ideal.mulf_def,
    Ideal.ofBits_def, uitofp_ideal, diag_indicator _ _ (i 0).isLt (i 1).isLt, lidx46_eq, ridx46_eq, lidx47_eq, ridx47_eq]

end Cert.ReferenceIdeal.RefValue

end
-- ==== Proof.KI.Assemble.lean ====
import proofs.«127820_j66348654788876_1_alg».proof.Defs
import proofs.«127820_j66348654788876_1_alg».proof.Proof.Gen.Pre_finite_inputs
import proofs.«127820_j66348654788876_1_alg».proof.Proof.Gen.ReferenceIdeal
import proofs.«127820_j66348654788876_1_alg».proof.Proof.Gen.KernelIdeal
import proofs.«127820_j66348654788876_1_alg».proof.Proof.KI.Frame
import proofs.«127820_j66348654788876_1_alg».proof.Proof.KI.MatmulValue
import proofs.«127820_j66348654788876_1_alg».proof.Proof.KI.CombineValue
import proofs.«127820_j66348654788876_1_alg».proof.Proof.KI.HostChain
import proofs.«127820_j66348654788876_1_alg».proof.Proof.KI.RefValue

set_option maxRecDepth 16384

noncomputable section

/-! # The idealized kernel program's value, and the equivalence with the reference

The run leaves every unscoped buffer at the last boundary's contents; the result array
holds the recombination of the adjacency array and the two products' arrays, each product the plain matrix product:
the specification's function of the adjacency array, which is the same function of the arguments in both programs. -/

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

section Value

variable (mI : (ℓ : Loc nD τ sig) → Buf (Elt Ideal) ℓ)

/-- The adjacency array as the pipelines find it. -/
abbrev adj (c : Dev nD) : Cert.Spec.SN.Idx → EReal := W1 mI c (Proc.devRef .tc main_v45)

theorem V1_v45 (c : Dev nD) : (V1 mI c main_v45 : Cert.Spec.SN.Idx → EReal) = adj mI c := rfl
theorem V2_v45 (c : Dev nD) : (V2 mI c main_v45 : Cert.Spec.SN.Idx → EReal) = adj mI c :=
  W2_of_ne mI c main_v45 (by decide)
theorem V2_v46 (c : Dev nD) : (V2 mI c main_v46 : Cert.Spec.SN.Idx → EReal) = Cert.Spec.matmulAt (adj mI c) (adj mI c) :=
  (W2_main_v46 mI c).trans ((arrAt0_2 (V1 mI) q0 c).trans (by rw [V1_v45]))
theorem V3_v45 (c : Dev nD) : (V3 mI c main_v45 : Cert.Spec.SN.Idx → EReal) = adj mI c :=
  (W3_of_ne mI c main_v45 (by decide)).trans (V2_v45 mI c)
theorem V3_v46 (c : Dev nD) : (V3 mI c main_v46 : Cert.Spec.SN.Idx → EReal) = Cert.Spec.matmulAt (adj mI c) (adj mI c) :=
  (W3_of_ne mI c main_v46 (by decide)).trans (V2_v46 mI c)
theorem V3_v47 (c : Dev nD) : (V3 mI c main_v47 : Cert.Spec.SN.Idx → EReal)
    = Cert.Spec.matmulAt (adj mI c) (Cert.Spec.matmulAt (adj mI c) (adj mI c)) :=
  (W3_main_v47 mI c).trans ((arrAt1_2 (V2 mI) q1 c).trans (by rw [V2_v45, V2_v46]))

/-- The result array after the run: the specification's function of the adjacency array. -/
theorem W4_v48 (c : Dev nD) :
    (W4 mI c (Proc.devRef .tc main_v48) : Cert.Spec.SN.Idx → EReal) = Cert.Spec.resultAt (adj mI c) :=
  (W4_main_v48 mI c).trans ((arrAt2_3 (V3 mI) c).trans (by rw [V3_v45, V3_v46, V3_v47]; rfl))

end Value

end Cert.KernelIdeal.Hand

/-! ## The claims of the two idealized programs -/

namespace Cert.Proof.IdealClaims

open Idealize.ShloMosaic Idealize.ShloMosaic.TcCoe Idealize.SL.Sem

theorem frame_pi : Cert.frame_KernelIdeal (hKernelIdeal := Cert.KernelIdeal.Gen.facts) (hPre_finite_inputs := Cert.Pre_finite_inputs.Gen.facts) :=
  fun m ρ _ => Cert.KernelIdeal.Hand.frame_all m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the specification's function of one adjacency matrix: the kernel program's array after its host
    stretch is the reference's adjacency stage of the same two arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.resultAt (Cert.KernelIdeal.Hand.adj m c), ?_, ?_⟩
  · exact (θ_run Cert.KernelIdeal.defs _ _).mono (fun r h c =>
      ⟨(h c _ (Cert.KernelIdeal.Hand.mem_uc Cert.KernelIdeal.main_v48 (by decide))).trans (Cert.KernelIdeal.Hand.W4_v48 m c),
       (h c _ (Cert.KernelIdeal.Hand.mem_uc Cert.KernelIdeal.main_arg0 (by decide))).trans
         (Cert.KernelIdeal.Hand.W4_kept m c Cert.KernelIdeal.main_arg0 (by decide) (by decide) (by decide) (by decide)),
       (h c _ (Cert.KernelIdeal.Hand.mem_uc Cert.KernelIdeal.main_arg1 (by decide))).trans
         (Cert.KernelIdeal.Hand.W4_kept m c Cert.KernelIdeal.main_arg1 (by decide) (by decide) (by decide) (by decide)),
       (h c _ (Cert.KernelIdeal.Hand.mem_uc Cert.KernelIdeal.main_arg2 (by decide))).trans
         (Cert.KernelIdeal.Hand.W4_kept m c Cert.KernelIdeal.main_arg2 (by decide) (by decide) (by decide) (by decide))⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v60_eq, Cert.ReferenceIdeal.RefValue.result_eq, (hagree c).2.1, (hagree c).2.2]
    exact congrArg Cert.Spec.resultAt (Cert.KernelIdeal.Hand.adj_eq m c).symm

end Cert.Proof.IdealClaims

end
-- ==== Proof.lean ====
/- The proof of `Cert.Claim`: the word-level kernel program, its idealization and the reference all run to the end,
   faulting nowhere and leaving the arguments as launched, and the two idealized programs return the same matrix.

   The program computes, from the normalized adjacency matrix `A` (8192 × 8192, built on the host from the edge list by a
   degree count, its power -1/2, two gathers and a scatter-add), the matrix `θ · (A + A·A + A·(A·A)) + α · I`. The kernel
   program forms the two products by a blocked pipeline — the grid point `(i, j, k)` adds the product of the 1024-blocks
   `(i, k)` and `(k, j)` to an accumulator that the point `k = 0` resets and the point `k = 7` writes to block `(i, j)` — and
   the recombination by a pointwise pipeline over 512-blocks; the reference forms them by two whole matrix products. On the
   extended reals addition is associative and commutative, so the eight block sums are the one sum over the contracted
   axis; the diagonal term commutes its two factors. No finiteness of the inputs is used.

   The frames: @main is the host stretch followed by the three pipelines; each pipeline's body is run at a generic grid
   point (three cases of the accumulating body), the first pipeline's two input windows reading one array at half shares.
   The ideal pass rewrote nothing, so `preserves` is trivial. -/
import proofs.«127820_j66348654788876_1_alg».proof.Defs
import proofs.«127820_j66348654788876_1_alg».proof.Proof.K.Frame
import proofs.«127820_j66348654788876_1_alg».proof.Proof.KI.Assemble

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame_all m ρ,
    Cert.Proof.IdealClaims.frame_pi,
    Cert.Proof.IdealClaims.frame_ri,
    trivial,
    Cert.Proof.IdealClaims.algebraic⟩

end Cert.Proof

end
